-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S3840x512 : Shape := ⟨2, ![3840, 512]⟩
abbrev S512x3840 : Shape := ⟨2, ![512, 3840]⟩
abbrev S3840x256 : Shape := ⟨2, ![3840, 256]⟩
abbrev S256x4096 : Shape := ⟨2, ![256, 4096]⟩
abbrev S3840 : Shape := ⟨1, ![3840]⟩
abbrev S256 : Shape := ⟨1, ![256]⟩
abbrev S_ : Shape := ⟨0, ![]⟩
abbrev S4096 : Shape := ⟨1, ![4096]⟩
abbrev S3840x1 : Shape := ⟨2, ![3840, 1]⟩
abbrev S1x4096 : Shape := ⟨2, ![1, 4096]⟩
abbrev S3840x4096 : Shape := ⟨2, ![3840, 4096]⟩
abbrev S256x1 : Shape := ⟨2, ![256, 1]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S3840x512 : S_.BroadcastsInDim S3840x512 (![] : Fin 0 → Fin S3840x512.rank)
  reducesTo_S3840x512_S_d0_1 : S3840x512.ReducesTo [0, 1] S_
  bcast_S_S512x3840 : S_.BroadcastsInDim S512x3840 (![] : Fin 0 → Fin S512x3840.rank)
  reducesTo_S512x3840_S_d0_1 : S512x3840.ReducesTo [0, 1] S_
  bcast_S_S3840x256 : S_.BroadcastsInDim S3840x256 (![] : Fin 0 → Fin S3840x256.rank)
  reducesTo_S3840x256_S_d0_1 : S3840x256.ReducesTo [0, 1] S_
  bcast_S_S256x4096 : S_.BroadcastsInDim S256x4096 (![] : Fin 0 → Fin S256x4096.rank)
  reducesTo_S256x4096_S_d0_1 : S256x4096.ReducesTo [0, 1] S_
  bcast_S_S3840 : S_.BroadcastsInDim S3840 (![] : Fin 0 → Fin S3840.rank)
  reducesTo_S3840_S_d0 : S3840.ReducesTo [0] S_
  bcast_S_S256 : S_.BroadcastsInDim S256 (![] : Fin 0 → Fin S256.rank)
  reducesTo_S256_S_d0 : S256.ReducesTo [0] S_
  bcast_S3840_S3840x1_0 : S3840.BroadcastsInDim S3840x1 (![0] : Fin 1 → Fin S3840x1.rank)
  bcast_S4096_S1x4096_1 : S4096.BroadcastsInDim S1x4096 (![1] : Fin 1 → Fin S1x4096.rank)
  bcast_S3840x1_S3840x4096_0_1 : S3840x1.BroadcastsInDim S3840x4096 (![0, 1] : Fin 2 → Fin S3840x4096.rank)
  bcast_S1x4096_S3840x4096_0_1 : S1x4096.BroadcastsInDim S3840x4096 (![0, 1] : Fin 2 → Fin S3840x4096.rank)
  natLt_1_32 : 1 < 32
  reducesTo_S3840x4096_S4096_d0 : S3840x4096.ReducesTo [0] S4096
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S1x4096_S256x4096_0_1 : S1x4096.BroadcastsInDim S256x4096 (![0, 1] : Fin 2 → Fin S256x4096.rank)
  reducesTo_S256x4096_S4096_d0 : S256x4096.ReducesTo [0] S4096
  bcast_S_S4096 : S_.BroadcastsInDim S4096 (![] : Fin 0 → Fin S4096.rank)
  reducesTo_S4096_S_d0 : S4096.ReducesTo [0] S_

variable [Facts]

def fn_part5 {F : FTy → Type} [FloatOps F] (main_v62 : IVec S_ 1) (main_v76 : IVec S_ 1) (main_v83 : IVec S4096 32) (main_v89 : IVec S256x4096 32) (main_c_27 : IVec S_ 32) : IVec S_ 1 :=
  let main_v90 : IVec S4096 32 := (fun x v => Host.reduce IntOp.addi x v reducesTo_S256x4096_S4096_d0 h_S_) main_v89 main_c_27
  let main_v91 : IVec S4096 32 := addi main_v83 main_v90
  let main_c_28 : IVec S_ 32 := constantI S_ 32 1#32
  let main_v92 : IVec S4096 32 := broadcastInDim S4096 ![] bcast_S_S4096 main_c_28
  let main_v93 : IVec S4096 1 := cmpi .eq main_v91 main_v92
  let main_c_29 : IVec S_ 1 := constantI S_ 1 1#1
  let main_v94 : IVec S_ 1 := (fun x v => Host.reduce IntOp.andi x v reducesTo_S4096_S_d0 h_S_) main_v93 main_c_29
  let main_v95 : IVec S_ 1 := andi main_v76 main_v94
  let main_v96 : IVec S_ 1 := andi main_v62 main_v95
  main_v96

def fn_part4 {F : FTy → Type} [FloatOps F] (main_arg8 : IVec S3840 32) (main_arg9 : IVec S256 32) (main_v62 : IVec S_ 1) (main_v63 : IVec S4096 32) (main_v69 : IVec S_ 1) (main_c_23 : IVec S_ 32) : IVec S_ 1 :=
  let main_v70 : IVec S256 32 := broadcastInDim S256 ![] bcast_S_S256 main_c_23
  let main_v71 : IVec S256 1 := cmpi .sge main_arg9 main_v70
  let main_c_24 : IVec S_ 32 := constantI S_ 32 4096#32
  let main_v72 : IVec S256 32 := broadcastInDim S256 ![] bcast_S_S256 main_c_24
  let main_v73 : IVec S256 1 := cmpi .slt main_arg9 main_v72
  let main_v74 : IVec S256 1 := andi main_v71 main_v73
  let main_c_25 : IVec S_ 1 := constantI S_ 1 1#1
  let main_v75 : IVec S_ 1 := (fun x v => Host.reduce IntOp.andi x v reducesTo_S256_S_d0 h_S_) main_v74 main_c_25
  let main_v76 : IVec S_ 1 := andi main_v69 main_v75
  let main_v77 : IVec S3840x1 32 := broadcastInDim S3840x1 ![0] bcast_S3840_S3840x1_0 main_arg8
  let main_v78 : IVec S1x4096 32 := broadcastInDim S1x4096 ![1] bcast_S4096_S1x4096_1 main_v63
  let main_v79 : IVec S3840x4096 32 := broadcastInDim S3840x4096 ![0, 1] bcast_S3840x1_S3840x4096_0_1 main_v77
  let main_v80 : IVec S3840x4096 32 := broadcastInDim S3840x4096 ![0, 1] bcast_S1x4096_S3840x4096_0_1 main_v78
  let main_v81 : IVec S3840x4096 1 := cmpi .eq main_v79 main_v80
  let main_v82 : IVec S3840x4096 32 := (extui 32 · natLt_1_32) main_v81
  let main_c_26 : IVec S_ 32 := constantI S_ 32 0#32
  let main_v83 : IVec S4096 32 := (fun x v => Host.reduce IntOp.addi x v reducesTo_S3840x4096_S4096_d0 h_S_) main_v82 main_c_26
  let main_v84 : IVec S256x1 32 := broadcastInDim S256x1 ![0] bcast_S256_S256x1_0 main_arg9
  let main_v85 : IVec S1x4096 32 := broadcastInDim S1x4096 ![1] bcast_S4096_S1x4096_1 main_v63
  let main_v86 : IVec S256x4096 32 := broadcastInDim S256x4096 ![0, 1] bcast_S256x1_S256x4096_0_1 main_v84
  let main_v87 : IVec S256x4096 32 := broadcastInDim S256x4096 ![0, 1] bcast_S1x4096_S256x4096_0_1 main_v85
  let main_v88 : IVec S256x4096 1 := cmpi .eq main_v86 main_v87
  let main_v89 : IVec S256x4096 32 := (extui 32 · natLt_1_32) main_v88
  let main_c_27 : IVec S_ 32 := constantI S_ 32 0#32
  fn_part5 (F := F) main_v62 main_v76 main_v83 main_v89 main_c_27

def fn_part3 {F : FTy → Type} [FloatOps F] (main_arg8 : IVec S3840 32) (main_arg9 : IVec S256 32) (main_v28 : IVec S_ 1) (main_v42 : IVec S_ 1) (main_v49 : IVec S4096 32) (main_v51 : IVec S1x4096 32) (main_v52 : IVec S256x4096 32) : IVec S_ 1 :=
  let main_v53 : IVec S256x4096 32 := broadcastInDim S256x4096 ![0, 1] bcast_S1x4096_S256x4096_0_1 main_v51
  let main_v54 : IVec S256x4096 1 := cmpi .eq main_v52 main_v53
  let main_v55 : IVec S256x4096 32 := (extui 32 · natLt_1_32) main_v54
  let main_c_17 : IVec S_ 32 := constantI S_ 32 0#32
  let main_v56 : IVec S4096 32 := (fun x v => Host.reduce IntOp.addi x v reducesTo_S256x4096_S4096_d0 h_S_) main_v55 main_c_17
  let main_v57 : IVec S4096 32 := addi main_v49 main_v56
  let main_c_18 : IVec S_ 32 := constantI S_ 32 1#32
  let main_v58 : IVec S4096 32 := broadcastInDim S4096 ![] bcast_S_S4096 main_c_18
  let main_v59 : IVec S4096 1 := cmpi .eq main_v57 main_v58
  let main_c_19 : IVec S_ 1 := constantI S_ 1 1#1
  let main_v60 : IVec S_ 1 := (fun x v => Host.reduce IntOp.andi x v reducesTo_S4096_S_d0 h_S_) main_v59 main_c_19
  let main_v61 : IVec S_ 1 := andi main_v42 main_v60
  let main_v62 : IVec S_ 1 := andi main_v28 main_v61
  let main_v63 : IVec S4096 32 := iotaInDim S4096 32 0
  let main_c_20 : IVec S_ 32 := constantI S_ 32 0#32
  let main_v64 : IVec S3840 32 := broadcastInDim S3840 ![] bcast_S_S3840 main_c_20
  let main_v65 : IVec S3840 1 := cmpi .sge main_arg8 main_v64
  let main_c_21 : IVec S_ 32 := constantI S_ 32 4096#32
  let main_v66 : IVec S3840 32 := broadcastInDim S3840 ![] bcast_S_S3840 main_c_21
  let main_v67 : IVec S3840 1 := cmpi .slt main_arg8 main_v66
  let main_v68 : IVec S3840 1 := andi main_v65 main_v67
  let main_c_22 : IVec S_ 1 := constantI S_ 1 1#1
  let main_v69 : IVec S_ 1 := (fun x v => Host.reduce IntOp.andi x v reducesTo_S3840_S_d0 h_S_) main_v68 main_c_22
  let main_c_23 : IVec S_ 32 := constantI S_ 32 0#32
  fn_part4 (F := F) main_arg8 main_arg9 main_v62 main_v63 main_v69 main_c_23

def fn_part2 {F : FTy → Type} [FloatOps F] (main_arg6 : IVec S3840 32) (main_arg7 : IVec S256 32) (main_arg8 : IVec S3840 32) (main_arg9 : IVec S256 32) (main_v28 : IVec S_ 1) (main_v29 : IVec S4096 32) (main_v31 : IVec S3840 1) (main_v33 : IVec S3840 1) : IVec S_ 1 :=
  let main_v34 : IVec S3840 1 := andi main_v31 main_v33
  let main_c_12 : IVec S_ 1 := constantI S_ 1 1#1
  let main_v35 : IVec S_ 1 := (fun x v => Host.reduce IntOp.andi x v reducesTo_S3840_S_d0 h_S_) main_v34 main_c_12
  let main_c_13 : IVec S_ 32 := constantI S_ 32 0#32
  let main_v36 : IVec S256 32 := broadcastInDim S256 ![] bcast_S_S256 main_c_13
  let main_v37 : IVec S256 1 := cmpi .sge main_arg7 main_v36
  let main_c_14 : IVec S_ 32 := constantI S_ 32 4096#32
  let main_v38 : IVec S256 32 := broadcastInDim S256 ![] bcast_S_S256 main_c_14
  let main_v39 : IVec S256 1 := cmpi .slt main_arg7 main_v38
  let main_v40 : IVec S256 1 := andi main_v37 main_v39
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v35 main_v41
  let main_v43 : IVec S3840x1 32 := broadcastInDim S3840x1 ![0] bcast_S3840_S3840x1_0 main_arg6
  let main_v44 : IVec S1x4096 32 := broadcastInDim S1x4096 ![1] bcast_S4096_S1x4096_1 main_v29
  let main_v45 : IVec S3840x4096 32 := broadcastInDim S3840x4096 ![0, 1] bcast_S3840x1_S3840x4096_0_1 main_v43
  let main_v46 : IVec S3840x4096 32 := broadcastInDim S3840x4096 ![0, 1] bcast_S1x4096_S3840x4096_0_1 main_v44
  let main_v47 : IVec S3840x4096 1 := cmpi .eq main_v45 main_v46
  let main_v48 : IVec S3840x4096 32 := (extui 32 · natLt_1_32) main_v47
  let main_c_16 : IVec S_ 32 := constantI S_ 32 0#32
  let main_v49 : IVec S4096 32 := (fun x v => Host.reduce IntOp.addi x v reducesTo_S3840x4096_S4096_d0 h_S_) main_v48 main_c_16
  let main_v50 : IVec S256x1 32 := broadcastInDim S256x1 ![0] bcast_S256_S256x1_0 main_arg7
  let main_v51 : IVec S1x4096 32 := broadcastInDim S1x4096 ![1] bcast_S4096_S1x4096_1 main_v29
  let main_v52 : IVec S256x4096 32 := broadcastInDim S256x4096 ![0, 1] bcast_S256x1_S256x4096_0_1 main_v50
  fn_part3 (F := F) main_arg8 main_arg9 main_v28 main_v42 main_v49 main_v51 main_v52

def fn_part1 {F : FTy → Type} [FloatOps F] (main_arg4 : FVec F S256x4096 .f32) (main_arg5 : FVec F S3840 .f32) (main_arg6 : IVec S3840 32) (main_arg7 : IVec S256 32) (main_arg8 : IVec S3840 32) (main_arg9 : IVec S256 32) (main_v13 : IVec S_ 1) (main_v16 : IVec S3840x256 1) : IVec S_ 1 :=
  let main_c_5 : IVec S_ 1 := constantI S_ 1 1#1
  let main_v17 : IVec S_ 1 := (fun x v => Host.reduce IntOp.andi x v reducesTo_S3840x256_S_d0_1 h_S_) main_v16 main_c_5
  let main_v18 : IVec S_ 1 := andi main_v13 main_v17
  let main_v19 : FVec F S256x4096 .f32 := Host.absf main_arg4
  let main_cst_6 : FVec F S_ .f32 := constant S_ .f32 0x7F800000#32
  let main_v20 : FVec F S256x4096 .f32 := broadcastInDim S256x4096 ![] bcast_S_S256x4096 main_cst_6
  let main_v21 : IVec S256x4096 1 := cmpf .olt main_v19 main_v20
  let main_c_7 : IVec S_ 1 := constantI S_ 1 1#1
  let main_v22 : IVec S_ 1 := (fun x v => Host.reduce IntOp.andi x v reducesTo_S256x4096_S_d0_1 h_S_) main_v21 main_c_7
  let main_v23 : IVec S_ 1 := andi main_v18 main_v22
  let main_v24 : FVec F S3840 .f32 := Host.absf main_arg5
  let main_cst_8 : FVec F S_ .f32 := constant S_ .f32 0x7F800000#32
  let main_v25 : FVec F S3840 .f32 := broadcastInDim S3840 ![] bcast_S_S3840 main_cst_8
  let main_v26 : IVec S3840 1 := cmpf .olt main_v24 main_v25
  let main_c_9 : IVec S_ 1 := constantI S_ 1 1#1
  let main_v27 : IVec S_ 1 := (fun x v => Host.reduce IntOp.andi x v reducesTo_S3840_S_d0 h_S_) main_v26 main_c_9
  let main_v28 : IVec S_ 1 := andi main_v23 main_v27
  let main_v29 : IVec S4096 32 := iotaInDim S4096 32 0
  let main_c_10 : IVec S_ 32 := constantI S_ 32 0#32
  let main_v30 : IVec S3840 32 := broadcastInDim S3840 ![] bcast_S_S3840 main_c_10
  let main_v31 : IVec S3840 1 := cmpi .sge main_arg6 main_v30
  let main_c_11 : IVec S_ 32 := constantI S_ 32 4096#32
  let main_v32 : IVec S3840 32 := broadcastInDim S3840 ![] bcast_S_S3840 main_c_11
  let main_v33 : IVec S3840 1 := cmpi .slt main_arg6 main_v32
  fn_part2 (F := F) main_arg6 main_arg7 main_arg8 main_arg9 main_v28 main_v29 main_v31 main_v33

def fn {F : FTy → Type} [FloatOps F] (main_arg0 : FVec F S4x2048x4096 .f32) (main_arg1 : FVec F S3840x512 .f32) (main_arg2 : FVec F S512x3840 .f32) (main_arg3 : FVec F S3840x256 .f32) (main_arg4 : FVec F S256x4096 .f32) (main_arg5 : FVec F S3840 .f32) (main_arg6 : IVec S3840 32) (main_arg7 : IVec S256 32) (main_arg8 : IVec S3840 32) (main_arg9 : IVec S256 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S3840x512 .f32 := Host.absf main_arg1
  let main_cst_0 : FVec F S_ .f32 := constant S_ .f32 0x7F800000#32
  let main_v5 : FVec F S3840x512 .f32 := broadcastInDim S3840x512 ![] bcast_S_S3840x512 main_cst_0
  let main_v6 : IVec S3840x512 1 := cmpf .olt main_v4 main_v5
  let main_c_1 : IVec S_ 1 := constantI S_ 1 1#1
  let main_v7 : IVec S_ 1 := (fun x v => Host.reduce IntOp.andi x v reducesTo_S3840x512_S_d0_1 h_S_) main_v6 main_c_1
  let main_v8 : IVec S_ 1 := andi main_v3 main_v7
  let main_v9 : FVec F S512x3840 .f32 := Host.absf main_arg2
  let main_cst_2 : FVec F S_ .f32 := constant S_ .f32 0x7F800000#32
  let main_v10 : FVec F S512x3840 .f32 := broadcastInDim S512x3840 ![] bcast_S_S512x3840 main_cst_2
  let main_v11 : IVec S512x3840 1 := cmpf .olt main_v9 main_v10
  let main_c_3 : IVec S_ 1 := constantI S_ 1 1#1
  let main_v12 : IVec S_ 1 := (fun x v => Host.reduce IntOp.andi x v reducesTo_S512x3840_S_d0_1 h_S_) main_v11 main_c_3
  let main_v13 : IVec S_ 1 := andi main_v8 main_v12
  let main_v14 : FVec F S3840x256 .f32 := Host.absf main_arg3
  let main_cst_4 : FVec F S_ .f32 := constant S_ .f32 0x7F800000#32
  let main_v15 : FVec F S3840x256 .f32 := broadcastInDim S3840x256 ![] bcast_S_S3840x256 main_cst_4
  let main_v16 : IVec S3840x256 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S3840x512 : Shape := ⟨2, ![3840, 512]⟩
abbrev S512x3840 : Shape := ⟨2, ![512, 3840]⟩
abbrev S3840x256 : Shape := ⟨2, ![3840, 256]⟩
abbrev S256x4096 : Shape := ⟨2, ![256, 4096]⟩
abbrev S3840 : Shape := ⟨1, ![3840]⟩
abbrev S256 : Shape := ⟨1, ![256]⟩
abbrev S_ : Shape := ⟨0, ![]⟩
abbrev S4096x512 : Shape := ⟨2, ![4096, 512]⟩
abbrev S3840x1 : Shape := ⟨2, ![3840, 1]⟩
abbrev S512x4096 : Shape := ⟨2, ![512, 4096]⟩
abbrev S256x3840 : Shape := ⟨2, ![256, 3840]⟩
abbrev S4096x256 : Shape := ⟨2, ![4096, 256]⟩
abbrev S256x1 : Shape := ⟨2, ![256, 1]⟩
abbrev S1x4096 : Shape := ⟨2, ![1, 4096]⟩
abbrev S4096x1024 : Shape := ⟨2, ![4096, 1024]⟩
abbrev S1024x4096 : Shape := ⟨2, ![1024, 4096]⟩
abbrev S8192x4096 : Shape := ⟨2, ![8192, 4096]⟩
abbrev S256x1024 : Shape := ⟨2, ![256, 1024]⟩

abbrev nBuf : Space → Nat
  | .hbm => 70
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S3840x512, .f32⟩
  | .hbm, ⟨2, _⟩ => ⟨S512x3840, .f32⟩
  | .hbm, ⟨3, _⟩ => ⟨S3840x256, .f32⟩
  | .hbm, ⟨4, _⟩ => ⟨S256x4096, .f32⟩
  | .hbm, ⟨5, _⟩ => ⟨S3840, .f32⟩
  | .hbm, ⟨6, _⟩ => ⟨S3840, .i32⟩
  | .hbm, ⟨7, _⟩ => ⟨S256, .i32⟩
  | .hbm, ⟨8, _⟩ => ⟨S3840, .i32⟩
  | .hbm, ⟨9, _⟩ => ⟨S256, .i32⟩
  | .hbm, ⟨10, _⟩ => ⟨S_, .f32⟩
  | .hbm, ⟨11, _⟩ => ⟨S4096x512, .f32⟩
  | .hbm, ⟨12, _⟩ => ⟨S3840x1, .f32⟩
  | .hbm, ⟨13, _⟩ => ⟨S3840x512, .f32⟩
  | .hbm, ⟨14, _⟩ => ⟨S3840x512, .f32⟩
  | .hbm, ⟨15, _⟩ => ⟨S3840x512, .f32⟩
  | .hbm, ⟨16, _⟩ => ⟨S_, .i32⟩
  | .hbm, ⟨17, _⟩ => ⟨S3840, .i32⟩
  | .hbm, ⟨18, _⟩ => ⟨S3840, .i1⟩
  | .hbm, ⟨19, _⟩ => ⟨S_, .i32⟩
  | .hbm, ⟨20, _⟩ => ⟨S3840, .i32⟩
  | .hbm, ⟨21, _⟩ => ⟨S3840, .i32⟩
  | .hbm, ⟨22, _⟩ => ⟨S3840, .i32⟩
  | .hbm, ⟨23, _⟩ => ⟨S3840x1, .i32⟩
  | .hbm, ⟨24, _⟩ => ⟨S4096x512, .f32⟩
  | .hbm, ⟨25, _⟩ => ⟨S_, .f32⟩
  | .hbm, ⟨26, _⟩ => ⟨S512x4096, .f32⟩
  | .hbm, ⟨27, _⟩ => ⟨S512x3840, .f32⟩
  | .hbm, ⟨28, _⟩ => ⟨S_, .i32⟩
  | .hbm, ⟨29, _⟩ => ⟨S3840, .i32⟩
  | .hbm, ⟨30, _⟩ => ⟨S3840, .i1⟩
  | .hbm, ⟨31, _⟩ => ⟨S_, .i32⟩
  | .hbm, ⟨32, _⟩ => ⟨S3840, .i32⟩
  | .hbm, ⟨33, _⟩ => ⟨S3840, .i32⟩
  | .hbm, ⟨34, _⟩ => ⟨S3840, .i32⟩
  | .hbm, ⟨35, _⟩ => ⟨S3840x1, .i32⟩
  | .hbm, ⟨36, _⟩ => ⟨S512x4096, .f32⟩
  | .hbm, ⟨37, _⟩ => ⟨S_, .f32⟩
  | .hbm, ⟨38, _⟩ => ⟨S256x4096, .f32⟩
  | .hbm, ⟨39, _⟩ => ⟨S256x3840, .f32⟩
  | .hbm, ⟨40, _⟩ => ⟨S_, .i32⟩
  | .hbm, ⟨41, _⟩ => ⟨S3840, .i32⟩
  | .hbm, ⟨42, _⟩ => ⟨S3840, .i1⟩
  | .hbm, ⟨43, _⟩ => ⟨S_, .i32⟩
  | .hbm, ⟨44, _⟩ => ⟨S3840, .i32⟩
  | .hbm, ⟨45, _⟩ => ⟨S3840, .i32⟩
  | .hbm, ⟨46, _⟩ => ⟨S3840, .i32⟩
  | .hbm, ⟨47, _⟩ => ⟨S3840x1, .i32⟩
  | .hbm, ⟨48, _⟩ => ⟨S256x4096, .f32⟩
  | .hbm, ⟨49, _⟩ => ⟨S4096x256, .f32⟩
  | .hbm, ⟨50, _⟩ => ⟨S256x1, .i32⟩
  | .hbm, ⟨51, _⟩ => ⟨S1x4096, .i32⟩
  | .hbm, ⟨52, _⟩ => ⟨S256x4096, .i32⟩
  | .hbm, ⟨53, _⟩ => ⟨S256x4096, .i32⟩
  | .hbm, ⟨54, _⟩ => ⟨S256x4096, .i1⟩
  | .hbm, ⟨55, _⟩ => ⟨S256x4096, .f32⟩
  | .hbm, ⟨56, _⟩ => ⟨S4096x256, .f32⟩
  | .hbm, ⟨57, _⟩ => ⟨S256x1, .i32⟩
  | .hbm, ⟨58, _⟩ => ⟨S1x4096, .i32⟩
  | .hbm, ⟨59, _⟩ => ⟨S256x4096, .i32⟩
  | .hbm, ⟨60, _⟩ => ⟨S256x4096, .i32⟩
  | .hbm, ⟨61, _⟩ => ⟨S256x4096, .i1⟩
  | .hbm, ⟨62, _⟩ => ⟨S256x4096, .f32⟩
  | .hbm, ⟨63, _⟩ => ⟨S4096x1024, .f32⟩
  | .hbm, ⟨64, _⟩ => ⟨S4096x1024, .bf16⟩
  | .hbm, ⟨65, _⟩ => ⟨S1024x4096, .f32⟩
  | .hbm, ⟨66, _⟩ => ⟨S1024x4096, .bf16⟩
  | .hbm, ⟨67, _⟩ => ⟨S8192x4096, .f32⟩
  | .hbm, ⟨68, _⟩ => ⟨S8192x4096, .f32⟩
  | .hbm, ⟨69, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S1024x4096, .bf16⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v31 : Ref sig .tc := ⟨.hbm, 55, rfl⟩
abbrev main_v32 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x512 : S_.BroadcastsInDim S4096x512 (![] : Fin 0 → Fin S4096x512.rank)
  bcast_S3840_S3840x1_0 : S3840.BroadcastsInDim S3840x1 (![0] : Fin 1 → Fin S3840x1.rank)
  transposes_S512x3840_S3840x512_1_0 : S512x3840.Transposes [1, 0] S3840x512
  bcast_S3840x1_S3840x512_0_1 : S3840x1.BroadcastsInDim S3840x512 (![0, 1] : Fin 2 → Fin S3840x512.rank)
  bcast_S_S3840 : S_.BroadcastsInDim S3840 (![] : Fin 0 → Fin S3840.rank)
  bcast_S_S512x4096 : S_.BroadcastsInDim S512x4096 (![] : Fin 0 → Fin S512x4096.rank)
  transposes_S3840x512_S512x3840_1_0 : S3840x512.Transposes [1, 0] S512x3840
  bcast_S_S256x4096 : S_.BroadcastsInDim S256x4096 (![] : Fin 0 → Fin S256x4096.rank)
  transposes_S3840x256_S256x3840_1_0 : S3840x256.Transposes [1, 0] S256x3840
  transposes_S256x4096_S4096x256_1_0 : S256x4096.Transposes [1, 0] S4096x256
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S1x4096_S256x4096_0_1 : S1x4096.BroadcastsInDim S256x4096 (![0, 1] : Fin 2 → Fin S256x4096.rank)
  concatenates_S4096x512_S4096x256_S4096x256_S4096x1024_d1 : Shape.Concatenates [S4096x512, S4096x256, S4096x256] S4096x1024 1
  bitsLt_bf16_f32 : FTy.bits .bf16 < FTy.bits .f32
  concatenates_S512x4096_S256x4096_S256x4096_S1024x4096_d0 : Shape.Concatenates [S512x4096, S256x4096, S256x4096] S1024x4096 0
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S8192x4096_S4x2048x4096 : S8192x4096.ShapeCasts S4x2048x4096
  scatter_S4096x512_S3840x1_S3840x512_1_0_0_1_wf : ScatterDims.WF S4096x512 S3840x1 S3840x512 [1] [0] [0] 1
  scatter_S512x4096_S3840x1_S512x3840_0_1_1_1_wf : ScatterDims.WF S512x4096 S3840x1 S512x3840 [0] [1] [1] 1
  scatter_S256x4096_S3840x1_S256x3840_0_1_1_1_wf : ScatterDims.WF S256x4096 S3840x1 S256x3840 [0] [1] [1] 1
  dot_S256x4096_S4096x1024_S256x1024_1_0_0_1_n_n_wf : DotDims.WF S256x4096 S4096x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def scatter_S4096x512_S3840x1_S3840x512_1_0_0_1 : ScatterDims S4096x512 S3840x1 S3840x512 where
  updateWindowDims := [1]
  insertedWindowDims := [0]
  scatterDimsToOperandDims := [0]
  indexVectorDim := 1
  wf := scatter_S4096x512_S3840x1_S3840x512_1_0_0_1_wf
def scatter_S512x4096_S3840x1_S512x3840_0_1_1_1 : ScatterDims S512x4096 S3840x1 S512x3840 where
  updateWindowDims := [0]
  insertedWindowDims := [1]
  scatterDimsToOperandDims := [1]
  indexVectorDim := 1
  wf := scatter_S512x4096_S3840x1_S512x3840_0_1_1_1_wf
def scatter_S256x4096_S3840x1_S256x3840_0_1_1_1 : ScatterDims S256x4096 S3840x1 S256x3840 where
  updateWindowDims := [0]
  insertedWindowDims := [1]
  scatterDimsToOperandDims := [1]
  indexVectorDim := 1
  wf := scatter_S256x4096_S3840x1_S256x3840_0_1_1_1_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v38) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S3840x512 : Shape := ⟨2, ![3840, 512]⟩
abbrev S512x3840 : Shape := ⟨2, ![512, 3840]⟩
abbrev S3840x256 : Shape := ⟨2, ![3840, 256]⟩
abbrev S256x4096 : Shape := ⟨2, ![256, 4096]⟩
abbrev S3840 : Shape := ⟨1, ![3840]⟩
abbrev S256 : Shape := ⟨1, ![256]⟩
abbrev S_ : Shape := ⟨0, ![]⟩
abbrev S3840x1 : Shape := ⟨2, ![3840, 1]⟩
abbrev S4x2048x3840 : Shape := ⟨3, ![4, 2048, 3840]⟩
abbrev S1x1x3840 : Shape := ⟨3, ![1, 1, 3840]⟩
abbrev S4x2048x512 : Shape := ⟨3, ![4, 2048, 512]⟩
abbrev S256x1 : Shape := ⟨2, ![256, 1]⟩
abbrev S4x2048x256 : Shape := ⟨3, ![4, 2048, 256]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S3840x512, .f32⟩
  | .hbm, ⟨2, _⟩ => ⟨S512x3840, .f32⟩
  | .hbm, ⟨3, _⟩ => ⟨S3840x256, .f32⟩
  | .hbm, ⟨4, _⟩ => ⟨S256x4096, .f32⟩
  | .hbm, ⟨5, _⟩ => ⟨S3840, .f32⟩
  | .hbm, ⟨6, _⟩ => ⟨S3840, .i32⟩
  | .hbm, ⟨7, _⟩ => ⟨S256, .i32⟩
  | .hbm, ⟨8, _⟩ => ⟨S3840, .i32⟩
  | .hbm, ⟨9, _⟩ => ⟨S256, .i32⟩
  | .hbm, ⟨10, _⟩ => ⟨S_, .i32⟩
  | .hbm, ⟨11, _⟩ => ⟨S3840, .i32⟩
  | .hbm, ⟨12, _⟩ => ⟨S3840, .i1⟩
  | .hbm, ⟨13, _⟩ => ⟨S_, .i32⟩
  | .hbm, ⟨14, _⟩ => ⟨S3840, .i32⟩
  | .hbm, ⟨15, _⟩ => ⟨S3840, .i32⟩
  | .hbm, ⟨16, _⟩ => ⟨S3840, .i32⟩
  | .hbm, ⟨17, _⟩ => ⟨S3840x1, .i32⟩
  | .hbm, ⟨18, _⟩ => ⟨S4x2048x3840, .f32⟩
  | .hbm, ⟨19, _⟩ => ⟨S1x1x3840, .f32⟩
  | .hbm, ⟨20, _⟩ => ⟨S4x2048x3840, .f32⟩
  | .hbm, ⟨21, _⟩ => ⟨S4x2048x3840, .f32⟩
  | .hbm, ⟨22, _⟩ => ⟨S4x2048x512, .f32⟩
  | .hbm, ⟨23, _⟩ => ⟨S4x2048x3840, .f32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S4x2048x256, .f32⟩
  | .hbm, ⟨33, _⟩ => ⟨S4x2048x3840, .f32⟩
  | .hbm, ⟨34, _⟩ => ⟨S4x2048x3840, .f32⟩
  | .hbm, ⟨35, _⟩ => ⟨S4x2048x256, .f32⟩
  | .hbm, ⟨36, _⟩ => ⟨S_, .f32⟩
  | .hbm, ⟨37, _⟩ => ⟨S4x2048x4096, .f32⟩
  | .hbm, ⟨38, _⟩ => ⟨S_, .i32⟩
  | .hbm, ⟨39, _⟩ => ⟨S3840, .i32⟩
  | .hbm, ⟨40, _⟩ => ⟨S3840, .i1⟩
  | .hbm, ⟨41, _⟩ => ⟨S_, .i32⟩
  | .hbm, ⟨42, _⟩ => ⟨S3840, .i32⟩
  | .hbm, ⟨43, _⟩ => ⟨S3840, .i32⟩
  | .hbm, ⟨44, _⟩ => ⟨S3840, .i32⟩
  | .hbm, ⟨45, _⟩ => ⟨S3840x1, .i32⟩
  | .hbm, ⟨46, _⟩ => ⟨S4x2048x4096, .f32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S_S3840 : S_.BroadcastsInDim S3840 (![] : Fin 0 → Fin S3840.rank)
  bcast_S3840_S3840x1_0 : S3840.BroadcastsInDim S3840x1 (![0] : Fin 1 → Fin S3840x1.rank)
  bcast_S3840_S1x1x3840_2 : S3840.BroadcastsInDim S1x1x3840 (![2] : Fin 1 → Fin S1x1x3840.rank)
  bcast_S1x1x3840_S4x2048x3840_0_1_2 : S1x1x3840.BroadcastsInDim S4x2048x3840 (![0, 1, 2] : Fin 3 → Fin S4x2048x3840.rank)
  bcast_S_S256 : S_.BroadcastsInDim S256 (![] : Fin 0 → Fin S256.rank)
  bcast_S256_S256x1_0 : S256.BroadcastsInDim S256x1 (![0] : Fin 1 → Fin S256x1.rank)
  bcast_S_S4x2048x4096 : S_.BroadcastsInDim S4x2048x4096 (![] : Fin 0 → Fin S4x2048x4096.rank)
  gather_S4x2048x4096_S3840x1_S4x2048x3840_01_2_n_n_2_1_420481_wf : GatherDims.WF S4x2048x4096 S3840x1 S4x2048x3840 [0, 1] [2] [] [2] [] 1 ![4, 2048, 1]
  dot_S4x2048x3840_S512x3840_S4x2048x512_2_1_01_0_n_n_wf : DotDims.WF S4x2048x3840 S512x3840 S4x2048x512 [2] [1] [0, 1] [0] [] []
  dot_S4x2048x512_S3840x512_S4x2048x3840_2_1_01_0_n_n_wf : DotDims.WF S4x2048x512 S3840x512 S4x2048x3840 [2] [1] [0, 1] [0] [] []
  gather_S4x2048x4096_S256x1_S4x2048x256_01_2_n_n_2_1_420481_wf : GatherDims.WF S4x2048x4096 S256x1 S4x2048x256 [0, 1] [2] [] [2] [] 1 ![4, 2048, 1]
  dot_S4x2048x256_S3840x256_S4x2048x3840_2_1_01_0_n_n_wf : DotDims.WF S4x2048x256 S3840x256 S4x2048x3840 [2] [1] [0, 1] [0] [] []
  dot_S4x2048x4096_S256x4096_S4x2048x256_2_1_01_0_n_n_wf : DotDims.WF S4x2048x4096 S256x4096 S4x2048x256 [2] [1] [0, 1] [0] [] []
  scatter_S4x2048x4096_S3840x1_S4x2048x3840_01_2_2_1_wf : ScatterDims.WF S4x2048x4096 S3840x1 S4x2048x3840 [0, 1] [2] [2] 1
  scatter_S4x2048x4096_S256x1_S4x2048x256_01_2_2_1_wf : ScatterDims.WF S4x2048x4096 S256x1 S4x2048x256 [0, 1] [2] [2] 1

variable [Facts₀]

def gather_S4x2048x4096_S3840x1_S4x2048x3840_01_2_n_n_2_1_420481 : GatherDims S4x2048x4096 S3840x1 S4x2048x3840 where
  offsetDims := [0, 1]
  collapsedSliceDims := [2]
  operandBatchingDims := []
  startIndicesBatchingDims := []
  startIndexMap := [2]
  indexVectorDim := 1
  sliceSizes := ![4, 2048, 1]
  wf := gather_S4x2048x4096_S3840x1_S4x2048x3840_01_2_n_n_2_1_420481_wf
def dot_S4x2048x3840_S512x3840_S4x2048x512_2_1_01_0_n_n : DotDims S4x2048x3840 S512x3840 S4x2048x512 where
  lhsContracting := [2]
  rhsContracting := [1]
  lhsNonContracting := [0, 1]
  rhsNonContracting := [0]
  lhsBatch := []
  rhsBatch := []
  wf := dot_S4x2048x3840_S512x3840_S4x2048x512_2_1_01_0_n_n_wf
def dot_S4x2048x512_S3840x512_S4x2048x3840_2_1_01_0_n_n : DotDims S4x2048x512 S3840x512 S4x2048x3840 where
  lhsContracting := [2]
  rhsContracting := [1]
  lhsNonContracting := [0, 1]
  rhsNonContracting := [0]
  lhsBatch := []
  rhsBatch := []
  wf := dot_S4x2048x512_S3840x512_S4x2048x3840_2_1_01_0_n_n_wf
def gather_S4x2048x4096_S256x1_S4x2048x256_01_2_n_n_2_1_420481 : GatherDims S4x2048x4096 S256x1 S4x2048x256 where
  offsetDims := [0, 1]
  collapsedSliceDims := [2]
  operandBatchingDims := []
  startIndicesBatchingDims := []
  startIndexMap := [2]
  indexVectorDim := 1
  sliceSizes := ![4, 2048, 1]
  wf := gather_S4x2048x4096_S256x1_S4x2048x256_01_2_n_n_2_1_420481_wf
def dot_S4x2048x256_S3840x256_S4x2048x3840_2_1_01_0_n_n : DotDims S4x2048x256 S3840x256 S4x2048x3840 where
  lhsContracting := [2]
  rhsContracting := [1]
  lhsNonContracting := [0, 1]
  rhsNonContracting := [0]
  lhsBatch := []
  rhsBatch := []
  wf := dot_S4x2048x256_S3840x256_S4x2048x3840_2_1_01_0_n_n_wf
def dot_S4x2048x4096_S256x4096_S4x2048x256_2_1_01_0_n_n : DotDims S4x2048x4096 S256x4096 S4x2048x256 where
  lhsContracting := [2]
  rhsContracting := [1]
  lhsNonContracting := [0, 1]
  rhsNonContracting := [0]
  lhsBatch := []
  rhsBatch := []
  wf := dot_S4x2048x4096_S256x4096_S4x2048x256_2_1_01_0_n_n_wf
def scatter_S4x2048x4096_S3840x1_S4x2048x3840_01_2_2_1 : ScatterDims S4x2048x4096 S3840x1 S4x2048x3840 where
  updateWindowDims := [0, 1]
  insertedWindowDims := [2]
  scatterDimsToOperandDims := [2]
  indexVectorDim := 1
  wf := scatter_S4x2048x4096_S3840x1_S4x2048x3840_01_2_2_1_wf
def scatter_S4x2048x4096_S256x1_S4x2048x256_01_2_2_1 : ScatterDims S4x2048x4096 S256x1 S4x2048x256 where
  updateWindowDims := [0, 1]
  insertedWindowDims := [2]
  scatterDimsToOperandDims := [2]
  indexVectorDim := 1
  wf := scatter_S4x2048x4096_S256x1_S4x2048x256_01_2_2_1_wf

class Facts : Prop extends Facts₀ where

variable [Facts]
-- ==== Proof.KernelFrame.lean ====
/-
  The word-level kernel's frame: it terminates without a fault and leaves its arguments as they were.

  The program is the idealized kernel program's, word for word, and so is the proof: the host operations before the region,
  the region, the reshape after it. The region's grid has 32 points. At point t the pipeline hands the body rows
  [256 t, 256 t + 256) of the reshaped x (fetched at every point), the two whole weight blocks (fetched once, at the first
  point) and the output block's staging buffer; the body loads the three inputs (and the output buffer, which it does not use),
  and stores one block: the payload of the three loaded blocks. Nothing is kept between points, so the proof data are: each
  input's buffer at its block, the output's at the payload of the three input blocks.
-/
import proofs.«409909_j42846593745144_3_alg».proof.Proof.Gen.Kernel.Launch
import proofs.«409909_j42846593745144_3_alg».proof.Proof.Gen.Kernel.Skeleton
import proofs.«409909_j42846593745144_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered, as a valuation: after the five stretches of host operations before it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-! ## The program around the region -/

/-- No host operation allocates a buffer: each stretch's operations write into buffers the program names. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the five stretches of host operations, the region, and the reshape: held at the launch contents it reduces
    to the region, entered at the contents the five stretches leave, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The reshape after the region touches unscoped buffers only, and with no table prefetched every such buffer is an array
    of the pipeline or bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The ten arguments, before the region and after the reshape -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The reshape after the region does not write argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The reshape after the region does not write argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The reshape after the region does not write argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- The reshape after the region does not write argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The reshape after the region does not write argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- The reshape after the region does not write argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- The reshape after the region does not write argument 7, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- The reshape after the region does not write argument 8, and it is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- The reshape after the region does not write argument 9, and it is no array of the pipeline: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks and the proof data -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's four accesses are whole-buffer rectangles. -/
abbrev rX : Rect S256x4096 := Rect.unit (s := S256x4096) ![0, 0] S256x4096.size inb_S256x4096_S256x4096_0_0
abbrev rW1 : Rect S4096x1024 := Rect.unit (s := S4096x1024) ![0, 0] S4096x1024.size inb_S4096x1024_S4096x1024_0_0
abbrev rW2 : Rect S1024x4096 := Rect.unit (s := S1024x4096) ![0, 0] S1024x4096.size inb_S1024x4096_S1024x4096_0_0

/-- The output window's staging buffer after the body, from the three input blocks: its one store as a piece. -/
def out0_3 (x0 : Vec F S256x4096 .f32) (x1 : Vec F S4096x1024 .bf16) (x2 : Vec F S1024x4096 .bf16) : Vec F S256x4096 .f32 :=
  View.canon [⟨rX, k0_pay1 (View.ld x0 rX) (View.ld x1 rW1) (View.ld x2 rW2)⟩]

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_3 (c : Dev nD) (t : Fin cfg0.N) :
    (dats m 0 c).after 3 t = out0_3 (iblk m c 0 t) (iblk m c 1 t) (iblk m c 2 t) := by dsimp only [dats]

/-- What the body leaves in each input window's buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-! ## Each input window's buffer holds its block at every point -/

/-- The rows of x are fetched at every point, the weight blocks at the first only; either way the current buffer of an input
    window holds the window's block: where it was not fetched the block index has not moved since it was, and the body left
    the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's triple -/

/-- The one store is of the whole output block, so it covers it. -/
theorem cover0_3 (p0 : Vec F S256x4096 .f32) (y : S256x4096.Idx) :
    ∃ pc ∈ ([⟨rX, p0⟩] : List (View.Piece (Elt F) S256x4096 .f32)), y ∈ pc.1.set :=
  View.cover_of_tiled [⟨rX, p0⟩] S256x4096.size (by rfl) y

set_option maxHeartbeats 1000000 in
/-- The body on whole staging memrefs, the three inputs' reading x0, x1, x2 and the output's holding anything, runs to the
    continuation with the inputs' as they were and the output's at the payload of the three loaded blocks: three loads, a load of
    the output buffer whose value nothing reads, one store of the whole block. -/
theorem sound_kernel (c : Dev nD) (E : Set ℕ) (i : grid0.Coords)
    (arg1 : Memref sig .tc .vmem S256x4096 .f32) (harg1 : arg1.IsWhole) (arg2 : Memref sig .tc .vmem S4096x1024 .bf16) (harg2 : arg2.IsWhole)
    (arg3 : Memref sig .tc .vmem S1024x4096 .bf16) (harg3 : arg3.IsWhole) (arg4 : Memref sig .tc .vmem S256x4096 .f32) (harg4 : arg4.IsWhole)
    (x0 : Vec F S256x4096 .f32) (x1 : Vec F S4096x1024 .bf16) (x2 : Vec F S1024x4096 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is handed at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every final state has every array of the pipeline at what the library computes
    from the proof data and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

end Frame

/-- The frame, at any instance of the floats. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩)
    (run_main m ρ)

end Cert.Kernel.Hand

end
-- ==== Proof.HostState.lean ====
/-
  What the fused kernel's region finds in memory: the contents of every buffer after the host operations that run before it
  (the scatters, the one-hots, the two concatenations, the casts and the reshape of x).
-/
import proofs.«409909_j42846593745144_3_alg».proof.Proof.Gen.KernelIdeal.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Core c's buffer contents when the region is entered, as a valuation: after the five stretches of host operations before it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.Frame.lean ====
/-
  The idealized kernel program's frame, by hand: the host operations before the region, the region, the reshape after it.

  The region's grid has 32 points. At point t the pipeline hands the body rows [256 t, 256 t + 256) of the reshaped x (fetched
  at every point), the two whole weight blocks (fetched once, at the first point) and the output block's staging buffer; the
  body loads the three inputs (and the output buffer, which it does not use), and stores one block: the payload of the three
  loaded blocks. Nothing is kept between points, so the proof data are: each input's buffer at its block, the output's at the
  payload of the three input blocks.
-/
import proofs.«409909_j42846593745144_3_alg».proof.Proof.HostState
import proofs.«409909_j42846593745144_3_alg».proof.Proof.Gen.KernelIdeal.Skeleton
import proofs.«409909_j42846593745144_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- No host operation allocates a buffer: each stretch's operations write into buffers the program names. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the five stretches of host operations, the region, and the reshape: held at the launch contents it reduces
    to the region, entered at the contents the five stretches leave, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-- The reshape after the region touches unscoped buffers only, and with no table prefetched every such buffer is an array
    of the pipeline or bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes its own result only, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The ten arguments, before the region and after the reshape -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the region does not write argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The reshape after the region does not write argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The reshape after the region does not write argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The reshape after the region does not write argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- The reshape after the region does not write argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The reshape after the region does not write argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- The reshape after the region does not write argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- The reshape after the region does not write argument 7, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- The reshape after the region does not write argument 8, and it is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- The reshape after the region does not write argument 9, and it is no array of the pipeline: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks and the proof data -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's four accesses are whole-buffer rectangles. -/
abbrev rX : Rect S256x4096 := Rect.unit (s := S256x4096) ![0, 0] S256x4096.size inb_S256x4096_S256x4096_0_0
abbrev rW1 : Rect S4096x1024 := Rect.unit (s := S4096x1024) ![0, 0] S4096x1024.size inb_S4096x1024_S4096x1024_0_0
abbrev rW2 : Rect S1024x4096 := Rect.unit (s := S1024x4096) ![0, 0] S1024x4096.size inb_S1024x4096_S1024x4096_0_0

/-- The output window's staging buffer after the body, from the three input blocks: its one store as a piece. -/
def out0_3 (x0 : Vec F S256x4096 .f32) (x1 : Vec F S4096x1024 .bf16) (x2 : Vec F S1024x4096 .bf16) : Vec F S256x4096 .f32 :=
  View.canon [⟨rX, k0_pay1 (View.ld x0 rX) (View.ld x1 rW1) (View.ld x2 rW2)⟩]

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_3 (c : Dev nD) (t : Fin cfg0.N) :
    (dats m 0 c).after 3 t = out0_3 (iblk m c 0 t) (iblk m c 1 t) (iblk m c 2 t) := by dsimp only [dats]

/-- What the body leaves in each input window's buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-! ## Each input window's buffer holds its block at every point -/

/-- The rows of x are fetched at every point, the weight blocks at the first only; either way the current buffer of an input
    window holds the window's block: where it was not fetched the block index has not moved since it was, and the body left
    the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's triple -/

/-- The one store is of the whole output block, so it covers it. -/
theorem cover0_3 (p0 : Vec F S256x4096 .f32) (y : S256x4096.Idx) :
    ∃ pc ∈ ([⟨rX, p0⟩] : List (View.Piece (Elt F) S256x4096 .f32)), y ∈ pc.1.set :=
  View.cover_of_tiled [⟨rX, p0⟩] S256x4096.size (by rfl) y

set_option maxHeartbeats 1000000 in
/-- The body on whole staging memrefs, the three inputs' reading x0, x1, x2 and the output's holding anything, runs to the
    continuation with the inputs' as they were and the output's at the payload of the three loaded blocks: three loads, a load of
    the output buffer whose value nothing reads, one store of the whole block. -/
theorem sound_kernel (c : Dev nD) (E : Set ℕ) (i : grid0.Coords)
    (arg1 : Memref sig .tc .vmem S256x4096 .f32) (harg1 : arg1.IsWhole) (arg2 : Memref sig .tc .vmem S4096x1024 .bf16) (harg2 : arg2.IsWhole)
    (arg3 : Memref sig .tc .vmem S1024x4096 .bf16) (harg3 : arg3.IsWhole) (arg4 : Memref sig .tc .vmem S256x4096 .f32) (harg4 : arg4.IsWhole)
    (x0 : Vec F S256x4096 .f32) (x1 : Vec F S4096x1024 .bf16) (x2 : Vec F S1024x4096 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is handed at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every final state has every array of the pipeline at what the library computes
    from the proof data and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- The frame claim's post at any instance of the floats. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩)
    (run_main m ρ)

end Cert.KernelIdeal.Hand

end
-- ==== Proof.Spec.lean ====
/-
  The mathematics both programs are compared through.

  Inputs: x[b, s, n] (4 x 2048 x 4096), A[o, r] (3840 x 512), B[r, k] (512 x 3840), s1[o, j] (3840 x 256),
  s2[j, n] (256 x 4096), wn[k] (3840), and four index tables: ci (3840 kept columns), cc (256 other columns),
  ri (3840 kept output positions), rc (256 other output positions). Each pair of tables is the index set of a mask over
  [0, 4096) and of its complement (`IndexSets`).

  The layer computes, per token (b, s):
    hidden[r] = sum_k (x[ci k] * wn[k]) * B[r, k]
    yrows[o]  = sum_r hidden[r] * A[o, r] + sum_j x[cc j] * s1[o, j]       written at output position ri o
    ycomp[j]  = sum_n x[n] * s2[j, n]                                      written at output position rc j
  and zero at a position no table names (`Y`).

  The fused form contracts x with one 4096 x 1024 block W1 = [scattered wn*B^T | one-hot of cc | s2^T] and the result with
  one 1024 x 4096 block W2 = [scattered A^T ; scattered s1^T ; one-hot of rc] (`W1spec`, `W2spec`, `Kfun`).
-/
import Idealize.ShloMosaic.PureOps.Ideal
import Idealize.ShloMosaic.PureOps.Ideal.Laws
import Idealize.ShloMosaic.Lib.ValueIdx

noncomputable section

namespace Cert.LowRank

open Idealize.ShloMosaic Idealize.ShloMosaic.ValueIdx

/-- The two tables of one axis: every word below 4096, no word twice within a table, no word in both. -/
structure IndexSets (idx : IVec ⟨1, ![3840]⟩ 32) (comp : IVec ⟨1, ![256]⟩ 32) : Prop where
  idx_lt : ∀ k : Fin 3840, (idx (ix1 k)).toNat < 4096
  comp_lt : ∀ j : Fin 256, (comp (ix1 j)).toNat < 4096
  idx_inj : ∀ k k' : Fin 3840, idx (ix1 k) = idx (ix1 k') → k = k'
  comp_inj : ∀ j j' : Fin 256, comp (ix1 j) = comp (ix1 j') → j = j'
  disj : ∀ (k : Fin 3840) (j : Fin 256), idx (ix1 k) ≠ comp (ix1 j)

/-- A table word as a position of [0, 4096) (the word itself when it is below 4096). -/
def posOf (w : BitVec 32) : Fin 4096 := ⟨w.toNat % 4096, Nat.mod_lt _ (by decide)⟩

theorem posOf_val {w : BitVec 32} (h : w.toNat < 4096) : (posOf w).val = w.toNat := Nat.mod_eq_of_lt h

section
variable (x : FVec Ideal ⟨3, ![4, 2048, 4096]⟩ .f32) (A : FVec Ideal ⟨2, ![3840, 512]⟩ .f32) (B : FVec Ideal ⟨2, ![512, 3840]⟩ .f32)
  (s1 : FVec Ideal ⟨2, ![3840, 256]⟩ .f32) (s2 : FVec Ideal ⟨2, ![256, 4096]⟩ .f32) (wn : FVec Ideal ⟨1, ![3840]⟩ .f32)
  (ci : IVec ⟨1, ![3840]⟩ 32) (cc : IVec ⟨1, ![256]⟩ 32) (ri : IVec ⟨1, ![3840]⟩ 32) (rc : IVec ⟨1, ![256]⟩ 32)

/-- The low-rank hidden state of token (b, s). -/
def hidden (b : Fin 4) (s : Fin 2048) (r : Fin 512) : EReal :=
  ∑ k : Fin 3840, (x (ix3 b s (posOf (ci (ix1 k)))) * wn (ix1 k)) * B (ix2 r k)

/-- The kept output rows of token (b, s). -/
def yrows (b : Fin 4) (s : Fin 2048) (o : Fin 3840) : EReal :=
  (∑ r : Fin 512, hidden x B wn ci b s r * A (ix2 o r)) + ∑ j : Fin 256, x (ix3 b s (posOf (cc (ix1 j)))) * s1 (ix2 o j)

/-- The other output rows of token (b, s). -/
def ycomp (b : Fin 4) (s : Fin 2048) (j : Fin 256) : EReal :=
  ∑ n : Fin 4096, x (ix3 b s n) * s2 (ix2 j n)

open Classical in
/-- The layer's output: position c holds ycomp j where rc names it, else yrows o where ri names it, else zero. -/
def Y (b : Fin 4) (s : Fin 2048) (c : Fin 4096) : EReal :=
  if h : ∃ j : Fin 256, posOf (rc (ix1 j)) = c then ycomp x s2 b s (Classical.choose h)
  else if h : ∃ o : Fin 3840, posOf (ri (ix1 o)) = c then yrows x A B s1 wn ci cc b s (Classical.choose h)
  else 0

open Classical in
/-- The first fused block: row n, column q. -/
def W1spec (n : Fin 4096) (q : Fin 1024) : EReal :=
  if h₁ : q.val < 512 then
    (if h : ∃ k : Fin 3840, posOf (ci (ix1 k)) = n then wn (ix1 (Classical.choose h)) * B (ix2 ⟨q.val, h₁⟩ (Classical.choose h)) else 0)
  else if h₂ : q.val < 768 then (if posOf (cc (ix1 ⟨q.val - 512, by omega⟩)) = n then 1 else 0)
  else s2 (ix2 ⟨q.val - 768, by have := q.isLt; omega⟩ n)

open Classical in
/-- The second fused block: row q, column c. -/
def W2spec (q : Fin 1024) (c : Fin 4096) : EReal :=
  if h₁ : q.val < 512 then
    (if h : ∃ o : Fin 3840, posOf (ri (ix1 o)) = c then A (ix2 (Classical.choose h) ⟨q.val, h₁⟩) else 0)
  else if h₂ : q.val < 768 then
    (if h : ∃ o : Fin 3840, posOf (ri (ix1 o)) = c then s1 (ix2 (Classical.choose h) ⟨q.val - 512, by omega⟩) else 0)
  else (if posOf (rc (ix1 ⟨q.val - 768, by have := q.isLt; omega⟩)) = c then 1 else 0)

end

/-- The fused computation: x contracted with a 4096 x 1024 block, the result with a 1024 x 4096 block. -/
def Kfun (x : FVec Ideal ⟨3, ![4, 2048, 4096]⟩ .f32) (W1 : FVec Ideal ⟨2, ![4096, 1024]⟩ .bf16) (W2 : FVec Ideal ⟨2, ![1024, 4096]⟩ .bf16)
    (b : Fin 4) (s : Fin 2048) (c : Fin 4096) : EReal :=
  ∑ q : Fin 1024, (∑ n : Fin 4096, x (ix3 b s n) * W1 (ix2 n q)) * W2 (ix2 q c)

end Cert.LowRank

end
-- ==== Proof.Payload.lean ====
/-
  The body's one store, read at an index: with both accumulators zero and every change of float format the identity, the stored
  block is the product of the x block with the first weight block, times the second weight block.
-/
import proofs.«409909_j42846593745144_3_alg».proof.Proof.Gen.KernelIdeal.Skeleton
import proofs.«409909_j42846593745144_3_alg».proof.Proof.Spec
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-! ## The first contraction: [256, 4096] times [4096, 1024] -/

/-- The left operand's row coordinate is the output's row. -/
theorem lhs_mm1_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- The left operand's column coordinate is the contraction position. -/
theorem lhs_mm1_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
/-- The right operand's row coordinate is the contraction position. -/
theorem rhs_mm1_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
/-- The right operand's column coordinate is the output's column. -/
theorem rhs_mm1_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- Into a zero accumulator the first contraction at (p, q) is the sum over n of a (p, n) * w (n, q). -/
theorem mm1_apply (a : FVec Ideal S256x4096 .bf16) (w : FVec Ideal S4096x1024 .bf16) (p : Fin 256) (q : Fin 1024) :
    matmul dot_S256x4096_S4096x1024_S256x1024_1_0_0_1_n_n none a w (constant (F := Ideal) S256x1024 .f32 0x00000000#32) (ix2 p q)
      = ∑ n : Fin 4096, a (ix2 p n) * w (ix2 n q) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k := funext fun a => Fin.ext (by
    match a with
    | ⟨0, _⟩ => exact lhs_mm1_0 _ _
    | ⟨1, _⟩ => exact (lhs_mm1_1 _ _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q := funext fun a => Fin.ext (by
    match a with
    | ⟨0, _⟩ => exact (rhs_mm1_0 _ _).trans hk
    | ⟨1, _⟩ => exact rhs_mm1_1 _ _)
  rw [el, er]

/-! ## The second contraction: [256, 1024] times [1024, 4096] -/

/-- The left operand's row coordinate is the output's row. -/
theorem lhs_mm2_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- The left operand's column coordinate is the contraction position. -/
theorem lhs_mm2_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- The right operand's row coordinate is the contraction position. -/
theorem rhs_mm2_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- The right operand's column coordinate is the output's column. -/
theorem rhs_mm2_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Into a zero accumulator the second contraction at (p, c) is the sum over q of a (p, q) * w (q, c). -/
theorem mm2_apply (a : FVec Ideal S256x1024 .bf16) (w : FVec Ideal S1024x4096 .bf16) (p : Fin 256) (q : Fin 4096) :
    matmul dot_S256x1024_S1024x4096_S256x4096_1_0_0_1_n_n none a w (constant (F := Ideal) S256x4096 .f32 0x00000000#32) (ix2 p q)
      = ∑ n : Fin 1024, a (ix2 p n) * w (ix2 n q) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q) ((contrEquiv1 dot_S256x1024_S1024x4096_S256x4096_1_0_0_1_n_n 1024 rfl rfl).symm k) = ix2 p k := funext fun a => Fin.ext (by
    match a with
    | ⟨0, _⟩ => exact lhs_mm2_0 _ _
    | ⟨1, _⟩ => exact (lhs_mm2_1 _ _).trans hk)
  have er : dot_S256x1024_S1024x4096_S256x4096_1_0_0_1_n_n.rhsIdx (ix2 p q) ((contrEquiv1 dot_S256x1024_S1024x4096_S256x4096_1_0_0_1_n_n 1024 rfl rfl).symm k) = ix2 k q := funext fun a => Fin.ext (by
    match a with
    | ⟨0, _⟩ => exact (rhs_mm2_0 _ _).trans hk
    | ⟨1, _⟩ => exact rhs_mm2_1 _ _)
  rw [el, er]

/-! ## The stored block at an index -/

theorem payload_apply (x0 : Vec Ideal S256x4096 .f32) (x1 : Vec Ideal S4096x1024 .bf16) (x2 : Vec Ideal S1024x4096 .bf16)
    (p : Fin 256) (c : Fin 4096) :
    k0_pay1 (F := Ideal) x0 x1 x2 (ix2 p c) = ∑ q : Fin 1024, (∑ n : Fin 4096, x0 (ix2 p n) * x1 (ix2 n q)) * x2 (ix2 q c) := by
  unfold k0_pay1
  refine (mm2_apply _ _ p c).trans ?_
  refine Finset.sum_congr rfl fun q _ => ?_
  refine congrArg₂ (fun s t : EReal => s * t) ?_ (congrFun (shapeCast_self x2 _) _)
  refine (truncf_apply (φ := .f32) (ψ := .bf16) _ bitsLt_bf16_f32 (ix2 p q)).trans ?_
  refine (mm1_apply _ _ p q).trans ?_
  refine Finset.sum_congr rfl fun n _ => ?_
  refine congrArg₂ (fun s t : EReal => s * t) ?_ (congrFun (shapeCast_self x1 _) _)
  refine (truncf_apply (φ := .f32) (ψ := .bf16) _ bitsLt_bf16_f32 (ix2 p n)).trans ?_
  exact congrFun (shapeCast_self x0 _) _

end Cert.KernelIdeal.Hand

end
-- ==== Proof.KernelValue.lean ====
/-
  The idealized kernel's run: it terminates without a fault, leaves its arguments as they were, and its result holds, at
  (b, s, c), the double contraction of row (b, s) of x with the two weight blocks the region finds. The grid's point t computes
  rows [256 t, 256 t + 256) of the 8192 x 4096 result from the same rows of x (reshaped) and the two whole blocks; the 32 points
  cover the result; the reshape after the region reads row 2048 b + s at (b, s).

  The steps: the 8192 x 4096 array R whose row r is the double contraction of row r of the reshaped x (`rowsOut`); every point
  writes back its 256 rows of R (`flushed_eq`), because its x block is those rows of the reshaped x and its two weight blocks
  are the whole weight arrays; row r lies in the block of point r / 256 (`rows_covered`), so the region leaves R (`rows_final`);
  the reshaped x at (2048 b + s, n) is x at (b, s, n) and the reshape of R at (b, s, c) is R at (2048 b + s, c), both by
  row-major positions (`flat_apply`, `unflat_apply`), which makes the result the stated function (`value_apply`).
-/
import proofs.«409909_j42846593745144_3_alg».proof.Proof.Frame
import proofs.«409909_j42846593745144_3_alg».proof.Proof.Payload
import proofs.«409909_j42846593745144_3_alg».proof.Proof.Spec
import Idealize.ShloMosaic.Lib.Pipeline.Value

noncomputable section

namespace Cert.KernelIdeal.Hand

open Cert.KernelIdeal Cert.KernelIdeal.Gen Cert.LowRank
open Idealize.ShloMosaic Idealize.ShloMosaic.TcCoe Idealize.SL.Sem Idealize.ShloMosaic.ValueIdx

section Value

variable (m : (ℓ : Loc nD τ sig) → Buf (Elt Ideal) ℓ)

/-! ## The arrays the region finds, and the array it leaves -/

/-- The offsets (0, 0) are zero on both axes. -/
theorem zero_offsets : (![0, 0] : Fin 2 → Nat) = fun _ => 0 :=
  funext fun a => by match a with | ⟨0, _⟩ => rfl | ⟨1, _⟩ => rfl

/-- x as the region finds it: reshaped to 8192 rows of 4096. -/
abbrev xrows (c : Dev nD) : Vec Ideal S8192x4096 .f32 := V m c main_v38
/-- The first weight block as the region finds it: 4096 x 1024. -/
abbrev wfst (c : Dev nD) : Vec Ideal S4096x1024 .bf16 := V m c main_v35
/-- The second weight block as the region finds it: 1024 x 4096. -/
abbrev wsnd (c : Dev nD) : Vec Ideal S1024x4096 .bf16 := V m c main_v37

/-- The 8192 x 4096 array whose entry (r, c) is row r of X contracted with W1, the result contracted with column c of W2. -/
def rowsOut (X : Vec Ideal S8192x4096 .f32) (W1 : Vec Ideal S4096x1024 .bf16) (W2 : Vec Ideal S1024x4096 .bf16) :
    Vec Ideal S8192x4096 .f32 :=
  fun i => ∑ q : Fin 1024, (∑ n : Fin 4096, X (ix2 (i 0) n) * W1 (ix2 n q)) * W2 (ix2 q (i 1))

/-! ## What a point reads and writes back -/

/-- The block indices over the grid: the x window and the result window are at block row t, column 0; the two weight windows
    are at block (0, 0) at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's product of three blocks, at entry j, is entry i of `rowsOut` when row (j 0) of the x block is row (i 0) of X,
    the weight blocks are W1 and W2, and the two entries are in the same column. -/
theorem block_of_rows (X : Vec Ideal S8192x4096 .f32) (W1 : Vec Ideal S4096x1024 .bf16) (W2 : Vec Ideal S1024x4096 .bf16)
    (x0 : Vec Ideal S256x4096 .f32) (x1 : Vec Ideal S4096x1024 .bf16) (x2 : Vec Ideal S1024x4096 .bf16)
    (j : S256x4096.Idx) (i : S8192x4096.Idx)
    (hx0 : ∀ n : Fin 4096, x0 (ix2 (j 0) n) = X (ix2 (i 0) n)) (hx1 : x1 = W1) (hx2 : x2 = W2)
    (hcol : (i 1).val = (j 1).val) :
    k0_pay1 (F := Ideal) x0 x1 x2 j = rowsOut X W1 W2 i := by
  subst hx1 hx2
  obtain ⟨p, q, rfl⟩ : ∃ (p : Fin 256) (q : Fin 4096), j = ix2 p q := ⟨j 0, j 1, eq_ix2 j⟩
  have hx0' : ∀ n : Fin 4096, x0 (ix2 p n) = X (ix2 (i 0) n) := hx0
  have hq : i 1 = q := Fin.ext hcol
  rw [payload_apply]
  unfold rowsOut
  simp only [hx0', hq]

/-- Point t's x block is rows [256 t, 256 t + 256) of the reshaped x. -/
theorem xblock_apply (c : Dev nD) (t : Fin cfg0.N) (p : Fin 256) (n : Fin 4096) (r : Fin 8192)
    (hr : r.val = 256 * t.val + p.val) :
    (iblk m c 0 t : Vec Ideal S256x4096 .f32) (ix2 p n) = xrows m c (ix2 r n) := by
  obtain ⟨e0, e1, -⟩ := index_facts t
  unfold iblk
  rw [View.read_apply]
  show V m c main_v38 _ = V m c main_v38 _
  congr 1
  funext a; apply Fin.ext
  match a with
  | ⟨0, _⟩ => show win0_0.index t (0 : Fin 2) * 256 + 1 * p.val = r.val; omega
  | ⟨1, _⟩ => show win0_0.index t (1 : Fin 2) * 4096 + 1 * n.val = n.val; omega

/-- Every point's first weight block is the whole first weight array. -/
theorem w1block_eq (c : Dev nD) (t : Fin cfg0.N) : (iblk m c 1 t : Vec Ideal S4096x1024 .bf16) = wfst m c := by
  obtain ⟨-, -, e0, e1, -⟩ := index_facts t
  funext y
  unfold iblk
  rw [View.read_apply]
  show V m c main_v35 _ = V m c main_v35 _
  congr 1
  funext a; apply Fin.ext
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- Every point's second weight block is the whole second weight array. -/
theorem w2block_eq (c : Dev nD) (t : Fin cfg0.N) : (iblk m c 2 t : Vec Ideal S1024x4096 .bf16) = wsnd m c := by
  obtain ⟨-, -, -, -, e0, e1, -⟩ := index_facts t
  funext y
  unfold iblk
  rw [View.read_apply]
  show V m c main_v37 _ = V m c main_v37 _
  congr 1
  funext a; apply Fin.ext
  match a with
  | ⟨0, _⟩ => show win0_2.index t (0 : Fin 2) * 1024 + 1 * (y 0).val = (y 0).val; omega
  | ⟨1, _⟩ => show win0_2.index t (1 : Fin 2) * 4096 + 1 * (y 1).val = (y 1).val; omega

/-- What point t writes back is its block of `rowsOut` of the three arrays the region finds: the one store covers the staging
    buffer, its value is the product of the three loaded blocks, and entry (p, c) of the block sits at (256 t + p, c). -/
theorem flushed_eq (c : Dev nD) (t : Fin cfg0.N) :
    (dats m 0 c).flushed 3 t = ((cfg0.win 3).blk t).view.read (Elt Ideal) (rowsOut (xrows m c) (wfst m c) (wsnd m c)) := by
  show (cfg0.win 3).cut (grid0.coords t) ((dats m 0 c).after 3 t) = _
  rw [after0_3]
  unfold out0_3
  rw [View.canon_unit_zero zero_offsets]
  simp only [View.ld_unit_zero (S := S256x4096) zero_offsets, View.ld_unit_zero (S := S4096x1024) zero_offsets,
    View.ld_unit_zero (S := S1024x4096) zero_offsets]
  obtain ⟨e0, -, -, -, -, -, e2, e3⟩ := index_facts t
  funext j
  refine block_of_rows (xrows m c) (wfst m c) (wsnd m c) (iblk m c 0 t) (iblk m c 1 t) (iblk m c 2 t)
    ((win0 3).xinj (grid0.coords t) j) (((cfg0.win 3).blk t).view.emb j) (fun n => ?_) (w1block_eq m c t) (w2block_eq m c t) ?_
  · refine xblock_apply m c t _ n _ ?_
    show win0_3.index t (0 : Fin 2) * 256 + 1 * (j 0).val = 256 * t.val + (j 0).val
    omega
  · show win0_3.index t (1 : Fin 2) * 4096 + 1 * (j 1).val = (j 1).val
    omega

/-! ## The 32 blocks cover the result -/

/-- An entry of the result is in point t's block when each coordinate is in the block's range on its axis. -/
theorem mem_block (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v39).slice (win0_3.rect t)).set ↔ _
  rw [View.set_slice_whole, Rect.mem_set_unit]
  exact Iff.rfl

/-- Row r is written back by point r / 256. -/
theorem rows_covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  let t : Fin cfg0.N := ⟨(i 0).val / 256, by rw [hN]; omega⟩
  obtain ⟨-, -, -, -, -, -, e2, e3⟩ := index_facts t
  have ht : t.val = (i 0).val / 256 := rfl
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The region leaves `rowsOut` of the three arrays it found. -/
theorem rows_final (c : Dev nD) : (dats m 0 c).arrAt 3 cfg0.N = rowsOut (xrows m c) (wfst m c) (wsnd m c) :=
  (dats m 0 c).arrAt_eq_of_cover 3 (rowsOut (xrows m c) (wfst m c) (wsnd m c)) (fun t _ => flushed_eq m c t) rows_covered

/-! ## The two reshapes -/

/-- x reshaped to 8192 x 4096, at (2048 b + s, n), is x at (b, s, n): both sit at row-major position (2048 b + s) 4096 + n. -/
theorem flat_apply (x : Vec Ideal S4x2048x4096 .f32) (b : Fin 4) (s : Fin 2048) (n : Fin 4096) (r : Fin 8192)
    (hr : r.val = 2048 * b.val + s.val) :
    shapeCast S8192x4096 x shapeCasts_S4x2048x4096_S8192x4096 (ix2 r n) = x (ix3 b s n) := by
  refine shapeCast_apply x _ (ix2 r n) (ix3 b s n) ?_
  rw [Shape.rowMajor_val_three, Shape.rowMajor_val_two]
  show (b.val * 2048 + s.val) * 4096 + n.val = r.val * 4096 + n.val
  omega

/-- An 8192 x 4096 array reshaped to 4 x 2048 x 4096, at (b, s, n), is the array at (2048 b + s, n). -/
theorem unflat_apply (y : Vec Ideal S8192x4096 .f32) (b : Fin 4) (s : Fin 2048) (n : Fin 4096) (r : Fin 8192)
    (hr : r.val = 2048 * b.val + s.val) :
    shapeCast S4x2048x4096 y shapeCasts_S8192x4096_S4x2048x4096 (ix3 b s n) = y (ix2 r n) := by
  refine shapeCast_apply y _ (ix3 b s n) (ix2 r n) ?_
  rw [Shape.rowMajor_val_three, Shape.rowMajor_val_two]
  show r.val * 4096 + n.val = (b.val * 2048 + s.val) * 4096 + n.val
  omega

/-- The x the region finds is the argument reshaped: no operation before the region writes the argument, the last one
    reshapes it. -/
theorem xrows_eq (c : Dev nD) :
    xrows m c = shapeCast S8192x4096 (m ((c.tc : Thread nD τ).loc main_arg0) : Vec Ideal S4x2048x4096 .f32)
      shapeCasts_S4x2048x4096_S8192x4096 := by
  show (V m c main_v38 : S8192x4096.Idx → EReal) = _
  dsimp only [V, V0]
  simp only [hostOps0, hostOps0_1, hostOps0_2, hostOps0_3, hostOps0_4, List.flatten_cons, List.flatten_nil, List.append_nil,
    List.cons_append, List.nil_append]
  after_results
  rfl

/-- The result after the reshape that follows the region: `rowsOut` reshaped to 4 x 2048 x 4096. -/
theorem tail_eq (c : Dev nD) :
    Pipeline.afterTail₀ cfgs (dats m) 0 (V0 m) [hostOps1] c main_v40
      = shapeCast S4x2048x4096 (rowsOut (xrows m c) (wfst m c) (wsnd m c)) shapeCasts_S8192x4096_S4x2048x4096 := by
  unfold Pipeline.afterTail₀
  show StableHlo.after hostOps1 _ (Proc.devRef .tc main_v40) = _
  after_results
  have e : Pipeline.withArrays (cfgs 0).spec c (V0 m c) (fun w => (dats m 0 c).arrAt w (cfgs 0).N) (Proc.devRef .tc main_v39)
      = rowsOut (xrows m c) (wfst m c) (wsnd m c) :=
    (Pipeline.withArrays_arr spec0 launch0.win.arr_inj c _ _ 3).trans (rows_final m c)
  rw [e]
  rfl

/-- At (b, s, c) the reshaped rows of the reshaped x hold the double contraction of row (b, s) of x. -/
theorem value_apply (x : Vec Ideal S4x2048x4096 .f32) (W1 : Vec Ideal S4096x1024 .bf16) (W2 : Vec Ideal S1024x4096 .bf16)
    (b : Fin 4) (s : Fin 2048) (k : Fin 4096) :
    shapeCast S4x2048x4096 (rowsOut (shapeCast S8192x4096 x shapeCasts_S4x2048x4096_S8192x4096) W1 W2)
        shapeCasts_S8192x4096_S4x2048x4096 (ix3 b s k)
      = Kfun x W1 W2 b s k := by
  have hr : 2048 * b.val + s.val < 8192 := by have := b.isLt; have := s.isLt; omega
  rw [unflat_apply _ b s k ⟨2048 * b.val + s.val, hr⟩ rfl]
  unfold rowsOut Kfun
  refine Finset.sum_congr rfl fun q _ => ?_
  refine congrArg (· * W2 (ix2 q k)) (Finset.sum_congr rfl fun n _ => ?_)
  exact congrArg (· * W1 (ix2 n q)) (flat_apply x b s n ⟨2048 * b.val + s.val, hr⟩ rfl)

/-- The result buffer after the run's last operation, index by index. -/
theorem result_eq (c : Dev nD) :
    Pipeline.afterTail₀ cfgs (dats m) 0 (V0 m) [hostOps1] c main_v40
      = fun i : S4x2048x4096.Idx =>
          Kfun (m ((c.tc : Thread nD τ).loc main_arg0)) (V m c main_v35) (V m c main_v37) (i 0) (i 1) (i 2) := by
  rw [tail_eq, xrows_eq]
  funext i
  obtain ⟨b, s, k, rfl⟩ : ∃ (b : Fin 4) (s : Fin 2048) (k : Fin 4096), i = ix3 b s k := ⟨i 0, i 1, i 2, eq_ix3 i⟩
  exact value_apply _ _ _ b s k

end Value

/-- The run with the result named. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40)
          = (fun i : S4x2048x4096.Idx => Kfun (m ((c.tc : Thread nD τ).loc main_arg0)) (V m c main_v35) (V m c main_v37) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c =>
    ⟨((h c).2 main_v40 (Pipeline.mem_restRefs_of main_v40 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Hand

end
-- ==== Proof.ScatterSet.lean ====
/-
  Reading a scatter whose body returns the update ("set") at an index.

  The scatter is the left fold, over the update indices in row-major order, of "replace the element the update lands on".
  At an operand index that exactly one update index lands on, the result is that update's element; at an index no
  update lands on, it is the operand's element.
-/
import Idealize.ShloMosaic.PureOps.ShapeOps

noncomputable section

namespace Cert.LowRank

open Idealize.ShloMosaic

/-- One step of the fold: the update index at row-major position `n` replaces the element it lands on, if any. -/
def setStep {α : Type} {s si u : Shape} {w : Nat} (d : ScatterDims s si u) (idx : IVec si w) (upd : u.Idx → α)
    (r : s.Idx → α) (n : Fin u.numel) : s.Idx → α :=
  match d.resultIdx? (u.rowMajor.symm n) idx with
  | some i => fun i' => if i' = i then (fun _ b => b) (r i) (upd (u.rowMajor.symm n)) else r i'
  | none => r

/-- The scatter is the fold of `setStep` over all row-major positions. -/
theorem scatter_set_eq_foldl {α : Type} {s si u : Shape} {w : Nat} (d : ScatterDims s si u) (x : s.Idx → α) (idx : IVec si w)
    (upd : u.Idx → α) :
    Host.scatter d (fun _ b => b) x idx upd = (List.finRange u.numel).foldl (setStep d idx upd) x := rfl

/-- A step whose update index lands on `i` leaves that update's element at `i`. -/
theorem setStep_hit {α : Type} {s si u : Shape} {w : Nat} (d : ScatterDims s si u) (idx : IVec si w) (upd : u.Idx → α)
    (r : s.Idx → α) (n : Fin u.numel) (i : s.Idx) (h : d.resultIdx? (u.rowMajor.symm n) idx = some i) :
    setStep d idx upd r n i = upd (u.rowMajor.symm n) := by
  unfold setStep
  rw [h]
  simp

/-- A step whose update index does not land on `i` leaves the element at `i` alone. -/
theorem setStep_miss {α : Type} {s si u : Shape} {w : Nat} (d : ScatterDims s si u) (idx : IVec si w) (upd : u.Idx → α)
    (r : s.Idx → α) (n : Fin u.numel) (i : s.Idx) (h : d.resultIdx? (u.rowMajor.symm n) idx ≠ some i) :
    setStep d idx upd r n i = r i := by
  unfold setStep
  cases hres : d.resultIdx? (u.rowMajor.symm n) idx with
  | none => rfl
  | some i0 =>
    have hne : i ≠ i0 := fun hi => h (by rw [hres, hi])
    simp [hne]

/-- Folding over any list of positions, none of which lands on `i`, keeps the element at `i`. -/
theorem foldl_setStep_miss {α : Type} {s si u : Shape} {w : Nat} (d : ScatterDims s si u) (idx : IVec si w) (upd : u.Idx → α)
    (i : s.Idx) (L : List (Fin u.numel)) (r : s.Idx → α)
    (h : ∀ n ∈ L, d.resultIdx? (u.rowMajor.symm n) idx ≠ some i) :
    L.foldl (setStep d idx upd) r i = r i := by
  induction L generalizing r with
  | nil => rfl
  | cons n L ih =>
    rw [List.foldl_cons, ih _ (fun m hm => h m (List.mem_cons_of_mem _ hm))]
    exact setStep_miss d idx upd r n i (h n List.mem_cons_self)

/-- Folding over any list of positions: when `j` is the only update index landing on `i`, the element at `i` is
    `upd j` as soon as it already was, or the position of `j` is in the list. -/
theorem foldl_setStep_hit {α : Type} {s si u : Shape} {w : Nat} (d : ScatterDims s si u) (idx : IVec si w) (upd : u.Idx → α)
    (i : s.Idx) (j : u.Idx) (hj : d.resultIdx? j idx = some i)
    (huniq : ∀ j' : u.Idx, d.resultIdx? j' idx = some i → j' = j)
    (L : List (Fin u.numel)) (r : s.Idx → α) (h : r i = upd j ∨ u.rowMajor j ∈ L) :
    L.foldl (setStep d idx upd) r i = upd j := by
  induction L generalizing r with
  | nil =>
    rcases h with h | h
    · exact h
    · cases h
  | cons n L ih =>
    rw [List.foldl_cons]
    apply ih
    by_cases hn : d.resultIdx? (u.rowMajor.symm n) idx = some i
    · left
      rw [setStep_hit d idx upd r n i hn, huniq _ hn]
    · rcases h with h | h
      · left
        rw [setStep_miss d idx upd r n i hn, h]
      · rcases List.mem_cons.mp h with h | h
        · exact absurd (by rw [← h, Equiv.symm_apply_apply]; exact hj) hn
        · right
          exact h

/-- The one update index that lands on `i` decides the result there. -/
theorem scatter_set_hit {α : Type} {s si u : Shape} {w : Nat} (d : ScatterDims s si u) (x : s.Idx → α) (idx : IVec si w)
    (upd : u.Idx → α) (i : s.Idx) (j : u.Idx) (hj : d.resultIdx? j idx = some i)
    (huniq : ∀ j' : u.Idx, d.resultIdx? j' idx = some i → j' = j) :
    Host.scatter d (fun _ b => b) x idx upd i = upd j := by
  rw [scatter_set_eq_foldl]
  exact foldl_setStep_hit d idx upd i j hj huniq _ x (Or.inr (List.mem_finRange _))

/-- Where no update index lands, the operand's element stays. -/
theorem scatter_set_miss {α : Type} {s si u : Shape} {w : Nat} (d : ScatterDims s si u) (x : s.Idx → α) (idx : IVec si w)
    (upd : u.Idx → α) (i : s.Idx) (h : ∀ j : u.Idx, d.resultIdx? j idx ≠ some i) :
    Host.scatter d (fun _ b => b) x idx upd i = x i := by
  rw [scatter_set_eq_foldl]
  exact foldl_setStep_miss d idx upd i _ x (fun n _ => h _)

end Cert.LowRank

end
-- ==== Proof.HostPrefix.lean ====
/-
  The first weight block the region finds, read at an index. It is the concatenation, along the columns, of the zero matrix
  with row ci k set to wn[k] * B[., k], the transposed one-hot of cc, and s2 transposed. A table word below 4096 is not
  negative, so the wrap of negative indices leaves it alone, and the scatter lands it inside the matrix; no word occurs
  twice, so each scattered row is hit by exactly one update. The one-hot compares the table's word itself with the column's
  word: they agree exactly where the word, as a position, is the column.
-/
import proofs.«409909_j42846593745144_3_alg».proof.Proof.HostState
import proofs.«409909_j42846593745144_3_alg».proof.Proof.Spec
import proofs.«409909_j42846593745144_3_alg».proof.Proof.ScatterSet
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.Hand

open Cert.KernelIdeal Cert.KernelIdeal.Gen Cert.LowRank
open Idealize.ShloMosaic Idealize.ShloMosaic.TcCoe Idealize.SL.Sem Idealize.ShloMosaic.ValueIdx

variable (m : (ℓ : Loc nD τ sig) → Buf (Elt Ideal) ℓ)

namespace W1

/-- The index column a scatter reads: a negative word moved up by 4096, the words laid as a column. -/
def idxCol (t : IVec S3840 32) : IVec S3840x1 32 :=
  broadcastInDim S3840x1 ![0] bcast_S3840_S3840x1_0
    (select (cmpi .slt t (broadcastInDim S3840 ![] bcast_S_S3840 (constantI S_ 32 0#32)))
      (addi t (broadcastInDim S3840 ![] bcast_S_S3840 (constantI S_ 32 4096#32))) t)

/-- The one-hot matrix of a table of 256 words: row j has a one in the column the word names. -/
def oneHot (t : IVec S256 32) : FVec Ideal S256x4096 .f32 :=
  uitofp .f32 (cmpi .eq (broadcastInDim S256x4096 ![0, 1] bcast_S256x1_S256x4096_0_1 (broadcastInDim S256x1 ![0] bcast_S256_S256x1_0 t))
    (broadcastInDim S256x4096 ![0, 1] bcast_S1x4096_S256x4096_0_1 (iotaInDim S1x4096 32 1)))

/-- The zero matrix with row ci k set to wn[k] * B[., k]. -/
def rowsScattered (B : FVec Ideal S512x3840 .f32) (wn : FVec Ideal S3840 .f32) (ci : IVec S3840 32) : FVec Ideal S4096x512 .f32 :=
  Host.scatter scatter_S4096x512_S3840x1_S3840x512_1_0_0_1 (fun _ b => b)
    (broadcastInDim S4096x512 ![] bcast_S_S4096x512 (constant (F := Ideal) S_ .f32 0x00000000#32)) (idxCol ci)
    (mulf (broadcastInDim S3840x512 ![0, 1] bcast_S3840x1_S3840x512_0_1 (broadcastInDim S3840x1 ![0] bcast_S3840_S3840x1_0 wn))
      (transpose S3840x512 [1, 0] B transposes_S512x3840_S3840x512_1_0))

/-- An update index lands on the operand index whose coordinates are the starts plus the window coordinates, exactly when those agree. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    by_cases hall : ∀ a, 0 ≤ d.start j idx a + d.window j a ∧ d.start j idx a + d.window j a < s.size a
    · rw [dif_pos hall] at h
      have h' := congrFun (Option.some.inj h) a
      have h'' : (d.start j idx a + (d.window j a : Int)).toNat = (i a).val := congrArg Fin.val h'
      have := (hall a).1
      omega
    · rw [dif_neg hall] at h
      exact absurd h (by simp)
  · intro h
    have hall : ∀ a, 0 ≤ d.start j idx a + d.window j a ∧ d.start j idx a + d.window j a < s.size a := fun a => by
      rw [h a]
      exact ⟨Int.natCast_nonneg _, by exact_mod_cast (i a).isLt⟩
    rw [dif_pos hall]
    congr 1
    funext a
    apply Fin.ext
    show (d.start j idx a + (d.window j a : Int)).toNat = (i a).val
    rw [h a]
    exact Int.toNat_natCast _

/-- The row scatter's start on the row axis is the index column's word at the update's row, read signed. -/
theorem rows_start0 (k : Fin 3840) (r : Fin 512) (idx : IVec S3840x1 32) :
    scatter_S4096x512_S3840x1_S3840x512_1_0_0_1.start (ix2 k r) idx 0 = (idx (ix2 k (0 : Fin 1))).toInt := by
  have e : scatter_S4096x512_S3840x1_S3840x512_1_0_0_1.siIdx (ix2 k r) ⟨0, by decide⟩ = ix2 k (0 : Fin 1) := by
    funext b
    match b with
    | ⟨0, _⟩ => rfl
    | ⟨1, _⟩ => rfl
  show (idx (scatter_S4096x512_S3840x1_S3840x512_1_0_0_1.siIdx (ix2 k r) ⟨0, _⟩)).toInt = _
  rw [e]

theorem rows_start1 (k : Fin 3840) (r : Fin 512) (idx : IVec S3840x1 32) :
    scatter_S4096x512_S3840x1_S3840x512_1_0_0_1.start (ix2 k r) idx 1 = 0 := rfl

theorem rows_window0 (k : Fin 3840) (r : Fin 512) :
    scatter_S4096x512_S3840x1_S3840x512_1_0_0_1.window (ix2 k r) 0 = 0 := rfl

theorem rows_window1 (k : Fin 3840) (r : Fin 512) :
    scatter_S4096x512_S3840x1_S3840x512_1_0_0_1.window (ix2 k r) 1 = r.val := rfl

/-- Update (k, r) of the row scatter lands on (n, q) exactly when the index column's word at k is n and r is q. -/
theorem rows_lands_iff (idx : IVec S3840x1 32) (k : Fin 3840) (r : Fin 512) (n : Fin 4096) (q : Fin 512) :
    scatter_S4096x512_S3840x1_S3840x512_1_0_0_1.resultIdx? (ix2 k r) idx = some (ix2 n q)
      ↔ (idx (ix2 k (0 : Fin 1))).toInt = (n.val : Int) ∧ r = q := by
  rw [resultIdx?_eq_some_iff]
  constructor
  · intro h
    have h0 := h 0
    have h1 := h 1
    rw [rows_start0, rows_window0] at h0
    rw [rows_start1, rows_window1] at h1
    refine ⟨by simpa using h0, Fin.ext ?_⟩
    have : ((r.val : Int)) = (q.val : Int) := by simpa using h1
    exact_mod_cast this
  · rintro ⟨h0, rfl⟩ a
    match a with
    | ⟨0, _⟩ =>
      show scatter_S4096x512_S3840x1_S3840x512_1_0_0_1.start (ix2 k r) idx 0 + (scatter_S4096x512_S3840x1_S3840x512_1_0_0_1.window (ix2 k r) 0 : Int) = (n.val : Int)
      rw [rows_start0, rows_window0, h0]; simp
    | ⟨1, _⟩ =>
      show scatter_S4096x512_S3840x1_S3840x512_1_0_0_1.start (ix2 k r) idx 1 + (scatter_S4096x512_S3840x1_S3840x512_1_0_0_1.window (ix2 k r) 1 : Int) = (r.val : Int)
      rw [rows_start1, rows_window1]; simp

/-- A vector laid as a column reads, at (k, 0), the vector at k. -/
theorem col3840_apply {α : Type} (v : S3840.Idx → α) (k : Fin 3840) :
    broadcastInDim S3840x1 ![0] bcast_S3840_S3840x1_0 v (ix2 k (0 : Fin 1)) = v (ix1 k) := by
  simp only [broadcastInDim]
  congr 1
  funext a
  match a with
  | ⟨0, _⟩ => rfl

/-- A vector laid down the rows of a 3840 x 512 rectangle reads, at (k, q), the vector at k. -/
theorem rows3840x512_apply {α : Type} (v : S3840.Idx → α) (k : Fin 3840) (q : Fin 512) :
    broadcastInDim S3840x512 ![0, 1] bcast_S3840x1_S3840x512_0_1 (broadcastInDim S3840x1 ![0] bcast_S3840_S3840x1_0 v) (ix2 k q)
      = v (ix1 k) := by
  simp only [broadcastInDim]
  congr 1
  funext a
  match a with
  | ⟨0, _⟩ => rfl

/-- A table of 256 words laid down the rows of a 256 x 4096 rectangle reads, at (j, n), the word at j. -/
theorem rows256x4096_apply {α : Type} (v : S256.Idx → α) (j : Fin 256) (n : Fin 4096) :
    broadcastInDim S256x4096 ![0, 1] bcast_S256x1_S256x4096_0_1 (broadcastInDim S256x1 ![0] bcast_S256_S256x1_0 v) (ix2 j n)
      = v (ix1 j) := by
  simp only [broadcastInDim]
  congr 1
  funext a
  match a with
  | ⟨0, _⟩ => rfl

/-- The column counter laid along the columns of a 256 x 4096 rectangle reads, at (j, n), the word of n. -/
theorem iota256x4096_apply (j : Fin 256) (n : Fin 4096) :
    broadcastInDim S256x4096 ![0, 1] bcast_S1x4096_S256x4096_0_1 (iotaInDim S1x4096 32 1) (ix2 j n) = BitVec.ofNat 32 n.val := rfl

/-- Two words below 4096 at one position are one word. -/
theorem posOf_inj {a b : BitVec 32} (ha : a.toNat < 4096) (hb : b.toNat < 4096) (h : posOf a = posOf b) : a = b := by
  apply BitVec.eq_of_toNat_eq
  rw [← posOf_val ha, ← posOf_val hb, h]

/-- A word below 4096 is not negative: the wrap leaves it, and the column holds it. -/
theorem idxCol_apply (t : IVec S3840 32) (k : Fin 3840) (h : (t (ix1 k)).toNat < 4096) :
    idxCol t (ix2 k (0 : Fin 1)) = t (ix1 k) := by
  unfold idxCol
  rw [col3840_apply]
  show Scalar.select (IntOp.cmpi .slt (t (ix1 k)) 0#32) (IntOp.addi (t (ix1 k)) 4096#32) (t (ix1 k)) = t (ix1 k)
  have hz : IntOp.cmpi .slt (t (ix1 k)) 0#32 = 0#1 := by
    apply eq_zero_of_ne_one
    rw [StableHlo.Predicate.slt_iff_toNat (by omega) (by decide)]
    simp
  rw [hz, select_zero]

/-- The one-hot matrix at (j, n) is the conversion of the comparison of the word at j with the word of n. -/
theorem oneHot_eq (t : IVec S256 32) (j : Fin 256) (n : Fin 4096) :
    oneHot t (ix2 j n) = FloatOps.uitofp (F := Ideal) .f32 (IntOp.cmpi .eq (t (ix1 j)) (BitVec.ofNat 32 n.val)) := by
  unfold oneHot
  show FloatOps.uitofp (F := Ideal) .f32 (IntOp.cmpi .eq
      (broadcastInDim S256x4096 ![0, 1] bcast_S256x1_S256x4096_0_1 (broadcastInDim S256x1 ![0] bcast_S256_S256x1_0 t) (ix2 j n))
      (broadcastInDim S256x4096 ![0, 1] bcast_S1x4096_S256x4096_0_1 (iotaInDim S1x4096 32 1) (ix2 j n))) = _
  rw [rows256x4096_apply, iota256x4096_apply]

/-- The one-hot matrix at (j, n) where the word at j names n: one. -/
theorem oneHot_hit (t : IVec S256 32) (j : Fin 256) (n : Fin 4096) (h : (t (ix1 j)).toNat < 4096) (hp : posOf (t (ix1 j)) = n) :
    oneHot t (ix2 j n) = 1 := by
  have e : t (ix1 j) = BitVec.ofNat 32 n.val := by
    rw [← hp, posOf_val h, BitVec.ofNat_toNat, BitVec.setWidth_eq]
  rw [oneHot_eq, StableHlo.Predicate.cmpi_eq_iff.2 e]
  show (((1#1 : BitVec 1).toNat : ℝ) : EReal) = 1
  simp

/-- The one-hot matrix at (j, n) where the word at j does not name n: zero. -/
theorem oneHot_miss (t : IVec S256 32) (j : Fin 256) (n : Fin 4096) (h : (t (ix1 j)).toNat < 4096) (hp : ¬ posOf (t (ix1 j)) = n) :
    oneHot t (ix2 j n) = 0 := by
  have hne : ¬ IntOp.cmpi .eq (t (ix1 j)) (BitVec.ofNat 32 n.val) = 1#1 := by
    rw [StableHlo.Predicate.cmpi_eq_iff]
    intro e
    apply hp
    apply Fin.ext
    rw [posOf_val h, e, BitVec.toNat_ofNat]
    have := n.isLt
    omega
  rw [oneHot_eq, eq_zero_of_ne_one hne]
  show (((0#1 : BitVec 1).toNat : ℝ) : EReal) = 0
  simp

/-- Update (k, r) of the row scatter lands on (n, q) exactly when the table's word at k names n and r is q. -/
theorem rows_lands_table_iff (ci : IVec S3840 32) (hlt : ∀ k : Fin 3840, (ci (ix1 k)).toNat < 4096)
    (k : Fin 3840) (r : Fin 512) (n : Fin 4096) (q : Fin 512) :
    scatter_S4096x512_S3840x1_S3840x512_1_0_0_1.resultIdx? (ix2 k r) (idxCol ci) = some (ix2 n q) ↔ posOf (ci (ix1 k)) = n ∧ r = q := by
  rw [rows_lands_iff, idxCol_apply ci k (hlt k), StableHlo.Predicate.toInt_eq_toNat_of_lt (by have := hlt k; omega), ← posOf_val (hlt k)]
  constructor
  · rintro ⟨h0, h1⟩
    exact ⟨Fin.ext (by exact_mod_cast h0), h1⟩
  · rintro ⟨h0, h1⟩
    exact ⟨by rw [h0], h1⟩

/-- The row scatter at (n, q) where the table's word at k names n: wn[k] * B[q, k]. -/
theorem rowsScattered_hit (B : FVec Ideal S512x3840 .f32) (wn : FVec Ideal S3840 .f32) (ci : IVec S3840 32)
    (hlt : ∀ k : Fin 3840, (ci (ix1 k)).toNat < 4096) (hinj : ∀ k k' : Fin 3840, ci (ix1 k) = ci (ix1 k') → k = k')
    (n : Fin 4096) (q : Fin 512) (k : Fin 3840) (hk : posOf (ci (ix1 k)) = n) :
    rowsScattered B wn ci (ix2 n q) = wn (ix1 k) * B (ix2 q k) := by
  unfold rowsScattered
  refine (scatter_set_hit _ _ _ _ (ix2 n q) (ix2 k q) ((rows_lands_table_iff ci hlt k q n q).2 ⟨hk, rfl⟩) ?_).trans ?_
  · intro j' hj'
    obtain ⟨k', r', rfl⟩ : ∃ (k' : Fin 3840) (r' : Fin 512), j' = ix2 k' r' := ⟨j' 0, j' 1, eq_ix2 j'⟩
    obtain ⟨h0, h1⟩ := (rows_lands_table_iff ci hlt k' r' n q).1 hj'
    have hkk : k' = k := hinj k' k (posOf_inj (hlt k') (hlt k) (h0.trans hk.symm))
    rw [hkk, h1]
  · rw [mulf_apply, rows3840x512_apply, transpose_ix2_apply]

/-- The row scatter at (n, q) where no word of the table names n: the zero it was. -/
theorem rowsScattered_miss (B : FVec Ideal S512x3840 .f32) (wn : FVec Ideal S3840 .f32) (ci : IVec S3840 32)
    (hlt : ∀ k : Fin 3840, (ci (ix1 k)).toNat < 4096) (n : Fin 4096) (q : Fin 512)
    (h : ¬ ∃ k : Fin 3840, posOf (ci (ix1 k)) = n) :
    rowsScattered B wn ci (ix2 n q) = 0 := by
  unfold rowsScattered
  refine (scatter_set_miss _ _ _ _ (ix2 n q) ?_).trans ?_
  · intro j' hj'
    obtain ⟨k', r', rfl⟩ : ∃ (k' : Fin 3840) (r' : Fin 512), j' = ix2 k' r' := ⟨j' 0, j' 1, eq_ix2 j'⟩
    exact h ⟨k', ((rows_lands_table_iff ci hlt k' r' n q).1 hj').1⟩
  · show Ideal.ofBits .f32 0x00000000#32 = 0
    exact Ideal.ofBits_zero_f32

section Stretches

open Idealize.ShloMosaic.StableHlo in
/-- A three-operand operation's result, with each operand's contents at its own reference. -/
private theorem nary3_result_w1 {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Each operation's result at its own reference is its function's value; at another reference, what was there. -/
local macro "results_w1" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result] | rw [nary3_result_w1]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))

/-- Two stretches of operations one after the other. -/
theorem after_append_w1 (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => exact ih _

variable (X : Valuation τ sig (Elt Ideal))

theorem s4_v35 :
    (StableHlo.after hostOps0_4 X (Proc.devRef .tc main_v35) : S4096x1024.Idx → EReal)
      = truncf (F := Ideal) .bf16 (concatenate S4096x1024 1
          [⟨S4096x512, (X (Proc.devRef .tc main_v11) : S4096x512.Idx → EReal)⟩, ⟨S4096x256, (X (Proc.devRef .tc main_v32) : S4096x256.Idx → EReal)⟩,
           ⟨S4096x256, (X (Proc.devRef .tc main_v30) : S4096x256.Idx → EReal)⟩]
          concatenates_S4096x512_S4096x256_S4096x256_S4096x1024_d1) bitsLt_bf16_f32 := by
  simp only [hostOps0_4]; results_w1; rfl

theorem s3_v11 : StableHlo.after hostOps0_3 X (Proc.devRef .tc main_v11) = X (Proc.devRef .tc main_v11) := by
  simp only [hostOps0_3]; results_w1
theorem s3_v32 : StableHlo.after hostOps0_3 X (Proc.devRef .tc main_v32) = X (Proc.devRef .tc main_v32) := by
  simp only [hostOps0_3]; results_w1
theorem s3_v30 : StableHlo.after hostOps0_3 X (Proc.devRef .tc main_v30) = X (Proc.devRef .tc main_v30) := by
  simp only [hostOps0_3]; results_w1

theorem s2_v11 : StableHlo.after hostOps0_2 X (Proc.devRef .tc main_v11) = X (Proc.devRef .tc main_v11) := by
  simp only [hostOps0_2]; results_w1
theorem s2_v30 : StableHlo.after hostOps0_2 X (Proc.devRef .tc main_v30) = X (Proc.devRef .tc main_v30) := by
  simp only [hostOps0_2]; results_w1
theorem s2_v32 :
    (StableHlo.after hostOps0_2 X (Proc.devRef .tc main_v32) : S4096x256.Idx → EReal)
      = transpose S4096x256 [1, 0] (X (Proc.devRef .tc main_v31) : S256x4096.Idx → EReal) transposes_S256x4096_S4096x256_1_0 := by
  simp only [hostOps0_2]; results_w1

theorem s1_v11 : StableHlo.after hostOps0_1 X (Proc.devRef .tc main_v11) = X (Proc.devRef .tc main_v11) := by
  simp only [hostOps0_1]; results_w1
theorem s1_v30 : StableHlo.after hostOps0_1 X (Proc.devRef .tc main_v30) = X (Proc.devRef .tc main_v30) := by
  simp only [hostOps0_1]; results_w1
theorem s1_v31 :
    (StableHlo.after hostOps0_1 X (Proc.devRef .tc main_v31) : S256x4096.Idx → EReal) = oneHot (X (Proc.devRef .tc main_arg7)) := by
  simp only [hostOps0_1]; results_w1; rfl

theorem s0_arg7 : StableHlo.after hostOps0 X (Proc.devRef .tc main_arg7) = X (Proc.devRef .tc main_arg7) := by
  simp only [hostOps0]; results_w1
theorem s0_v30 :
    (StableHlo.after hostOps0 X (Proc.devRef .tc main_v30) : S4096x256.Idx → EReal)
      = transpose S4096x256 [1, 0] (X (Proc.devRef .tc main_arg4) : S256x4096.Idx → EReal) transposes_S256x4096_S4096x256_1_0 := by
  simp only [hostOps0]; results_w1
theorem s0_v11 :
    (StableHlo.after hostOps0 X (Proc.devRef .tc main_v11) : S4096x512.Idx → EReal)
      = rowsScattered (X (Proc.devRef .tc main_arg2)) (X (Proc.devRef .tc main_arg5)) (X (Proc.devRef .tc main_arg6)) := by
  simp only [hostOps0]; after_results_simp; rfl

end Stretches

/-- The first weight block as the host operations leave it: the cast of the concatenation, along the columns, of the row
    scatter, the transposed one-hot and the transposed s2. -/
theorem V35_eq (c : Dev nD) :
    (V m c main_v35 : S4096x1024.Idx → EReal)
      = truncf .bf16 (concatenate S4096x1024 1
          [⟨S4096x512, rowsScattered (m ((c.tc : Thread nD τ).loc main_arg2)) (m ((c.tc : Thread nD τ).loc main_arg5)) (m ((c.tc : Thread nD τ).loc main_arg6))⟩,
           ⟨S4096x256, transpose S4096x256 [1, 0] (oneHot (m ((c.tc : Thread nD τ).loc main_arg7))) transposes_S256x4096_S4096x256_1_0⟩,
           ⟨S4096x256, transpose S4096x256 [1, 0] (m ((c.tc : Thread nD τ).loc main_arg4)) transposes_S256x4096_S4096x256_1_0⟩]
          concatenates_S4096x512_S4096x256_S4096x256_S4096x1024_d1) bitsLt_bf16_f32 := by
  dsimp only [V, V0]
  simp only [List.flatten_cons, List.flatten_nil, List.append_nil, after_append_w1]
  rw [s4_v35, s3_v11, s3_v32, s3_v30, s2_v11, s2_v32, s2_v30, s1_v11, s1_v31, s1_v30, s0_v11, s0_v30, s0_arg7]

end W1

open W1

/-- The first weight block as the region finds it. -/
theorem V35_apply (c : Dev nD)
    (hc : IndexSets (m ((c.tc : Thread nD τ).loc main_arg6)) (m ((c.tc : Thread nD τ).loc main_arg7)))
    (n : Fin 4096) (q : Fin 1024) :
    V m c main_v35 (ix2 n q)
      = W1spec (m ((c.tc : Thread nD τ).loc main_arg2)) (m ((c.tc : Thread nD τ).loc main_arg4)) (m ((c.tc : Thread nD τ).loc main_arg5))
          (m ((c.tc : Thread nD τ).loc main_arg6)) (m ((c.tc : Thread nD τ).loc main_arg7)) n q := by
  refine (congrFun (V35_eq m c) (ix2 n q)).trans ?_
  rw [truncf_apply]
  unfold W1spec
  by_cases h₁ : q.val < 512
  · rw [dif_pos h₁]
    refine (concatenate_apply_piece _ _ _ (ix2 n q) 0 (by show (0 : Nat) < 3; omega) S4096x512 _ rfl rfl 0 rfl (ix2 n (⟨q.val, h₁⟩ : Fin 512)) ?_ ?_).trans ?_
    · intro b hb
      match b with
      | ⟨0, _⟩ => rfl
      | ⟨1, _⟩ => exact (hb rfl).elim
    · show 0 + q.val = q.val
      omega
    · by_cases h : ∃ k : Fin 3840, posOf (m ((c.tc : Thread nD τ).loc main_arg6) (ix1 k)) = n
      · rw [dif_pos h]
        exact rowsScattered_hit _ _ _ hc.idx_lt hc.idx_inj n ⟨q.val, h₁⟩ _ (Classical.choose_spec h)
      · rw [dif_neg h]
        exact rowsScattered_miss _ _ _ hc.idx_lt n ⟨q.val, h₁⟩ h
  · rw [dif_neg h₁]
    by_cases h₂ : q.val < 768
    · rw [dif_pos h₂]
      refine (concatenate_apply_piece _ _ _ (ix2 n q) 1 (by show (1 : Nat) < 3; omega) S4096x256 _ rfl rfl 512 rfl (ix2 n (⟨q.val - 512, by omega⟩ : Fin 256)) ?_ ?_).trans ?_
      · intro b hb
        match b with
        | ⟨0, _⟩ => rfl
        | ⟨1, _⟩ => exact (hb rfl).elim
      · show 512 + (q.val - 512) = q.val
        omega
      · rw [transpose_ix2_apply]
        by_cases hp : posOf (m ((c.tc : Thread nD τ).loc main_arg7) (ix1 ⟨q.val - 512, by omega⟩)) = n
        · rw [if_pos hp]
          exact oneHot_hit _ _ _ (hc.comp_lt _) hp
        · rw [if_neg hp]
          exact oneHot_miss _ _ _ (hc.comp_lt _) hp
    · rw [dif_neg h₂]
      refine (concatenate_apply_piece _ _ _ (ix2 n q) 2 (by show (2 : Nat) < 3; omega) S4096x256 _ rfl rfl 768 rfl (ix2 n (⟨q.val - 768, by have := q.isLt; omega⟩ : Fin 256)) ?_ ?_).trans ?_
      · intro b hb
        match b with
        | ⟨0, _⟩ => rfl
        | ⟨1, _⟩ => exact (hb rfl).elim
      · show 768 + (q.val - 768) = q.val
        omega
      · rw [transpose_ix2_apply]

end Cert.KernelIdeal.Hand

end
-- ==== Proof.HostPrefixW2.lean ====
/-
  The second weight block the region finds, read at an index: the concatenation, along the rows, of the zero matrix with
  column ri o set to A[o, .], the zero matrix with column ri o set to s1[o, .], and the one-hot of rc. A table word below 4096
  is not negative, so the wrap of negative indices leaves it alone and the scatter lands it inside the matrix; no word
  occurs twice, so each scattered column is hit by exactly one update.
-/
import proofs.«409909_j42846593745144_3_alg».proof.Proof.HostState
import proofs.«409909_j42846593745144_3_alg».proof.Proof.Spec
import proofs.«409909_j42846593745144_3_alg».proof.Proof.ScatterSet
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.Hand

open Cert.KernelIdeal Cert.KernelIdeal.Gen Cert.LowRank
open Idealize.ShloMosaic Idealize.ShloMosaic.TcCoe Idealize.SL.Sem Idealize.ShloMosaic.ValueIdx

variable (m : (ℓ : Loc nD τ sig) → Buf (Elt Ideal) ℓ)

section Nary3
open Idealize.ShloMosaic.StableHlo
variable {Val : EltTy → Type} {x a b y : Ref sig .tc}

/-- A three-operand operation's result, with each operand's contents at its own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

end Nary3

/-- The host operations' results, with a three-operand operation read through `nary3_result`: unfolds the fold over the
    operations, then rewrites each operation's result at its own reference to its function's value and at any other
    reference to what was there, outermost first. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.reshape_result] | rw [nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))

/-! ## Where a column scatter lands

The two scatters set column idx[o] of an [R x 4096] operand to column o of an [R x 3840] update: update (r, o) lands on
(r, idx[o]) when idx[o] read signed is inside [0, 4096). -/

section ColumnScatter
variable {R : Nat}

/-- The dimension numbers of both scatters: the update's rows are the window, the operand's column axis is inserted and
    indexed, the index vector lies along the index column's unit axis. -/
abbrev colDims (wf : ScatterDims.WF (⟨2, ![R, 4096]⟩ : Shape) ⟨2, ![3840, 1]⟩ ⟨2, ![R, 3840]⟩ [0] [1] [1] 1) :
    ScatterDims ⟨2, ![R, 4096]⟩ ⟨2, ![3840, 1]⟩ ⟨2, ![R, 3840]⟩ := ⟨[0], [1], [1], 1, wf⟩

variable (wf : ScatterDims.WF (⟨2, ![R, 4096]⟩ : Shape) ⟨2, ![3840, 1]⟩ ⟨2, ![R, 3840]⟩ [0] [1] [1] 1)

/-- No start on the row axis. -/
theorem col_start_0 (j : (⟨2, ![R, 3840]⟩ : Shape).Idx) (idx : IVec ⟨2, ![3840, 1]⟩ 32) :
    (colDims wf).start j idx 0 = 0 := by
  unfold ScatterDims.start
  exact dif_neg (show ¬ (0 : Fin 2) ∈ [(1 : Fin 2)] by decide)

/-- On the column axis the start is the index word of the update's column, read signed. -/
theorem col_start_1 (r : Fin R) (o : Fin 3840) (idx : IVec ⟨2, ![3840, 1]⟩ 32) :
    (colDims wf).start (ix2 r o) idx 1 = (idx (StableHlo.Predicate.ixP o)).toInt := by
  unfold ScatterDims.start
  refine (dif_pos (show (1 : Fin 2) ∈ [(1 : Fin 2)] by decide)).trans ?_
  refine congrArg (fun i => (idx i).toInt) (funext fun b => ?_)
  match b with
  | ⟨0, _⟩ => exact Fin.ext rfl
  | ⟨1, _⟩ => exact Fin.ext rfl

/-- The window coordinate on the row axis is the update's row. -/
theorem col_window_0 (r : Fin R) (o : Fin 3840) : (colDims wf).window (ix2 r o) 0 = r.val := by
  unfold ScatterDims.window
  exact (dif_pos (show (0 : Fin 2) ∈ [(0 : Fin 2)] by decide)).trans rfl

/-- No window coordinate on the column axis. -/
theorem col_window_1 (j : (⟨2, ![R, 3840]⟩ : Shape).Idx) : (colDims wf).window j 1 = 0 := by
  unfold ScatterDims.window
  exact dif_neg (show ¬ (1 : Fin 2) ∈ [(0 : Fin 2)] by decide)

end ColumnScatter

section ColumnScatterRead
variable {R : Nat}
variable (wf : ScatterDims.WF (⟨2, ![R, 4096]⟩ : Shape) ⟨2, ![3840, 1]⟩ ⟨2, ![R, 3840]⟩ [0] [1] [1] 1)

open StableHlo.Predicate in
/-- Update (r, o) lands on (r, idx[o]) when the index word is below 4096. -/
theorem col_resultIdx (idx : IVec ⟨2, ![3840, 1]⟩ 32) (r : Fin R) (o : Fin 3840) (h : (idx (ixP o)).toNat < 4096) :
    (colDims wf).resultIdx? (ix2 r o) idx = some (ix2 r (⟨(idx (ixP o)).toNat, h⟩ : Fin 4096)) := by
  have hI : (idx (ixP o)).toInt = ((idx (ixP o)).toNat : Int) := toInt_eq_toNat_of_lt (by omega)
  have h0 : (colDims wf).start (ix2 r o) idx 0 + ((colDims wf).window (ix2 r o) 0 : Int) = (r.val : Int) := by
    rw [col_start_0, col_window_0, zero_add]
  have h1 : (colDims wf).start (ix2 r o) idx 1 + ((colDims wf).window (ix2 r o) 1 : Int) = ((idx (ixP o)).toNat : Int) := by
    rw [col_start_1, col_window_1, hI]; simp
  have hall : ∀ a, 0 ≤ (colDims wf).start (ix2 r o) idx a + ((colDims wf).window (ix2 r o) a : Int) ∧
      (colDims wf).start (ix2 r o) idx a + ((colDims wf).window (ix2 r o) a : Int) < ((⟨2, ![R, 4096]⟩ : Shape).size a : Int) := by
    intro a
    match a with
    | ⟨0, _⟩ =>
      have hr := r.isLt
      show 0 ≤ (colDims wf).start (ix2 r o) idx 0 + ((colDims wf).window (ix2 r o) 0 : Int) ∧
        (colDims wf).start (ix2 r o) idx 0 + ((colDims wf).window (ix2 r o) 0 : Int) < ((R : Nat) : Int)
      rw [h0]; omega
    | ⟨1, _⟩ =>
      show 0 ≤ (colDims wf).start (ix2 r o) idx 1 + ((colDims wf).window (ix2 r o) 1 : Int) ∧
        (colDims wf).start (ix2 r o) idx 1 + ((colDims wf).window (ix2 r o) 1 : Int) < ((4096 : Nat) : Int)
      rw [h1]; omega
  unfold ScatterDims.resultIdx?
  refine (dif_pos hall).trans (congrArg some (funext fun a => Fin.ext ?_))
  match a with
  | ⟨0, _⟩ =>
    show ((colDims wf).start (ix2 r o) idx 0 + ((colDims wf).window (ix2 r o) 0 : Int)).toNat = r.val
    rw [h0]; exact Int.toNat_natCast _
  | ⟨1, _⟩ =>
    show ((colDims wf).start (ix2 r o) idx 1 + ((colDims wf).window (ix2 r o) 1 : Int)).toNat = (idx (ixP o)).toNat
    rw [h1]; exact Int.toNat_natCast _

open StableHlo.Predicate in
/-- The scatter read at (r, c') when table word k names column c': row r of update column k. The index column holds the
    table's words, each below 4096 and no two equal, so no other update lands there. -/
theorem col_scatter_hit {α : Type} (x : (⟨2, ![R, 4096]⟩ : Shape).Idx → α) (idx : IVec ⟨2, ![3840, 1]⟩ 32)
    (upd : (⟨2, ![R, 3840]⟩ : Shape).Idx → α) (ri : IVec ⟨1, ![3840]⟩ 32)
    (hidx : ∀ o : Fin 3840, idx (ixP o) = ri (ix1 o)) (hlt : ∀ o : Fin 3840, (ri (ix1 o)).toNat < 4096)
    (hinj : ∀ k k' : Fin 3840, ri (ix1 k) = ri (ix1 k') → k = k') (r : Fin R) (c' : Fin 4096)
    (k : Fin 3840) (hk : posOf (ri (ix1 k)) = c') :
    Host.scatter (colDims wf) (fun _ b => b) x idx upd (ix2 r c') = upd (ix2 r k) := by
  have hlt' : ∀ o : Fin 3840, (idx (ixP o)).toNat < 4096 := fun o => by rw [hidx o]; exact hlt o
  have hpos : ∀ o : Fin 3840, (⟨(idx (ixP o)).toNat, hlt' o⟩ : Fin 4096) = posOf (ri (ix1 o)) := fun o =>
    Fin.ext (by
      show (idx (ixP o)).toNat = (posOf (ri (ix1 o))).val
      rw [posOf_val (hlt o), hidx o])
  refine Cert.LowRank.scatter_set_hit (colDims wf) x idx upd (ix2 r c') (ix2 r k) ?_ ?_
  · rw [col_resultIdx wf idx r k (hlt' k), hpos, hk]
  · intro j' hj'
    obtain ⟨r', o', rfl⟩ : ∃ (r' : Fin R) (o' : Fin 3840), j' = ix2 r' o' := ⟨j' 0, j' 1, eq_ix2 j'⟩
    rw [col_resultIdx wf idx r' o' (hlt' o'), hpos] at hj'
    have e := Option.some.inj hj'
    have e0 : r' = r := congrFun e 0
    have e1 : posOf (ri (ix1 o')) = c' := congrFun e 1
    have eo : o' = k := hinj _ _ (BitVec.eq_of_toNat_eq (by
      rw [← posOf_val (hlt o'), ← posOf_val (hlt k), e1, hk]))
    rw [e0, eo]

open StableHlo.Predicate in
/-- The scatter read at (r, c') when no table word names column c': the operand. -/
theorem col_scatter_miss {α : Type} (x : (⟨2, ![R, 4096]⟩ : Shape).Idx → α) (idx : IVec ⟨2, ![3840, 1]⟩ 32)
    (upd : (⟨2, ![R, 3840]⟩ : Shape).Idx → α) (ri : IVec ⟨1, ![3840]⟩ 32)
    (hidx : ∀ o : Fin 3840, idx (ixP o) = ri (ix1 o)) (hlt : ∀ o : Fin 3840, (ri (ix1 o)).toNat < 4096)
    (r : Fin R) (c' : Fin 4096) (h : ¬ ∃ o : Fin 3840, posOf (ri (ix1 o)) = c') :
    Host.scatter (colDims wf) (fun _ b => b) x idx upd (ix2 r c') = x (ix2 r c') := by
  have hlt' : ∀ o : Fin 3840, (idx (ixP o)).toNat < 4096 := fun o => by rw [hidx o]; exact hlt o
  have hpos : ∀ o : Fin 3840, (⟨(idx (ixP o)).toNat, hlt' o⟩ : Fin 4096) = posOf (ri (ix1 o)) := fun o =>
    Fin.ext (by
      show (idx (ixP o)).toNat = (posOf (ri (ix1 o))).val
      rw [posOf_val (hlt o), hidx o])
  refine Cert.LowRank.scatter_set_miss (colDims wf) x idx upd (ix2 r c') fun j' hj' => ?_
  obtain ⟨r', o', rfl⟩ : ∃ (r' : Fin R) (o' : Fin 3840), j' = ix2 r' o' := ⟨j' 0, j' 1, eq_ix2 j'⟩
  rw [col_resultIdx wf idx r' o' (hlt' o'), hpos] at hj'
  exact h ⟨o', congrFun (Option.some.inj hj') 1⟩

end ColumnScatterRead

/-! ## The index column, the one-hot, and the three pieces -/

/-- The rank-1 index at a coordinate, in the two spellings the library uses. -/
theorem ofFin_eq_ix1 {n : Nat} (k : Fin n) : Shape.Idx.ofFin k = ix1 k := by
  funext a
  match a with
  | ⟨0, _⟩ => exact Fin.ext rfl

/-- The index column of a scatter: the table with 4096 added to each negative word, laid as a [3840 x 1] column. -/
def wrapCol (t : IVec S3840 32) : IVec S3840x1 32 :=
  broadcastInDim S3840x1 ![0] bcast_S3840_S3840x1_0
    (select (cmpi .slt t (broadcastInDim S3840 ![] bcast_S_S3840 (constantI S_ 32 0#32)))
      (addi t (broadcastInDim S3840 ![] bcast_S_S3840 (constantI S_ 32 4096#32))) t)

open StableHlo.Predicate in
/-- A word below 4096 is not negative: the index column at row o is the table's word. -/
theorem wrapCol_apply (t : IVec S3840 32) (o : Fin 3840) (h : (t (ix1 o)).toNat < 4096) :
    wrapCol t (ixP o) = t (ix1 o) := by
  unfold wrapCol
  refine (bcast_col1 _ _ o).trans ?_
  rw [ofFin_eq_ix1]
  have hc : IntOp.cmpi .slt (t (ix1 o)) 0#32 = 0#1 := eq_zero_of_ne_one fun h1 => by
    have h2 := (slt_iff_toNat (a := t (ix1 o)) (b := 0#32) (by omega) (by decide)).mp h1
    exact absurd h2 (by simp)
  show Scalar.select (IntOp.cmpi .slt (t (ix1 o)) 0#32) _ (t (ix1 o)) = t (ix1 o)
  rw [hc, select_zero]

/-- The first piece: the zero [512 x 4096] matrix with column ri o set to A[o, .]. -/
def pieceA (A : FVec Ideal S3840x512 .f32) (ri : IVec S3840 32) : FVec Ideal S512x4096 .f32 :=
  Host.scatter scatter_S512x4096_S3840x1_S512x3840_0_1_1_1 (fun _ b => b)
    (broadcastInDim S512x4096 ![] bcast_S_S512x4096 (constant (F := Ideal) S_ .f32 0x00000000#32))
    (wrapCol ri) (transpose S512x3840 [1, 0] A transposes_S3840x512_S512x3840_1_0)

/-- The second piece: the zero [256 x 4096] matrix with column ri o set to s1[o, .]. -/
def pieceS (s1 : FVec Ideal S3840x256 .f32) (ri : IVec S3840 32) : FVec Ideal S256x4096 .f32 :=
  Host.scatter scatter_S256x4096_S3840x1_S256x3840_0_1_1_1 (fun _ b => b)
    (broadcastInDim S256x4096 ![] bcast_S_S256x4096 (constant (F := Ideal) S_ .f32 0x00000000#32))
    (wrapCol ri) (transpose S256x3840 [1, 0] s1 transposes_S3840x256_S256x3840_1_0)

/-- The third piece: the one-hot of rc, row j marking column rc j. -/
def pieceH (rc : IVec S256 32) : FVec Ideal S256x4096 .f32 :=
  uitofp (F := Ideal) .f32
    (cmpi .eq (broadcastInDim S256x4096 ![0, 1] bcast_S256x1_S256x4096_0_1 (broadcastInDim S256x1 ![0] bcast_S256_S256x1_0 rc))
      (broadcastInDim S256x4096 ![0, 1] bcast_S1x4096_S256x4096_0_1 (iotaInDim S1x4096 32 1)))

/-- The first piece at (r, c') when table word k names column c'. -/
theorem pieceA_hit (A : FVec Ideal S3840x512 .f32) (ri : IVec S3840 32) (hlt : ∀ o : Fin 3840, (ri (ix1 o)).toNat < 4096)
    (hinj : ∀ k k' : Fin 3840, ri (ix1 k) = ri (ix1 k') → k = k') (r : Fin 512) (c' : Fin 4096)
    (k : Fin 3840) (hk : posOf (ri (ix1 k)) = c') :
    @Eq EReal (pieceA A ri (ix2 r c')) (A (ix2 k r)) := by
  unfold pieceA
  refine (col_scatter_hit scatter_S512x4096_S3840x1_S512x3840_0_1_1_1_wf _ (wrapCol ri) _ ri
    (fun o => wrapCol_apply ri o (hlt o)) hlt hinj r c' k hk).trans ?_
  exact transpose_ix2_apply A _ r k

/-- The first piece at (r, c') when no table word names column c'. -/
theorem pieceA_miss (A : FVec Ideal S3840x512 .f32) (ri : IVec S3840 32) (hlt : ∀ o : Fin 3840, (ri (ix1 o)).toNat < 4096)
    (r : Fin 512) (c' : Fin 4096) (h : ¬ ∃ o : Fin 3840, posOf (ri (ix1 o)) = c') :
    @Eq EReal (pieceA A ri (ix2 r c')) 0 := by
  unfold pieceA
  refine (col_scatter_miss scatter_S512x4096_S3840x1_S512x3840_0_1_1_1_wf _ (wrapCol ri) _ ri
    (fun o => wrapCol_apply ri o (hlt o)) hlt r c' h).trans ?_
  exact Ideal.ofBits_zero_f32

/-- The second piece at (j, c') when table word k names column c'. -/
theorem pieceS_hit (s1 : FVec Ideal S3840x256 .f32) (ri : IVec S3840 32) (hlt : ∀ o : Fin 3840, (ri (ix1 o)).toNat < 4096)
    (hinj : ∀ k k' : Fin 3840, ri (ix1 k) = ri (ix1 k') → k = k') (j : Fin 256) (c' : Fin 4096)
    (k : Fin 3840) (hk : posOf (ri (ix1 k)) = c') :
    @Eq EReal (pieceS s1 ri (ix2 j c')) (s1 (ix2 k j)) := by
  unfold pieceS
  refine (col_scatter_hit scatter_S256x4096_S3840x1_S256x3840_0_1_1_1_wf _ (wrapCol ri) _ ri
    (fun o => wrapCol_apply ri o (hlt o)) hlt hinj j c' k hk).trans ?_
  exact transpose_ix2_apply s1 _ j k

/-- The second piece at (j, c') when no table word names column c'. -/
theorem pieceS_miss (s1 : FVec Ideal S3840x256 .f32) (ri : IVec S3840 32) (hlt : ∀ o : Fin 3840, (ri (ix1 o)).toNat < 4096)
    (j : Fin 256) (c' : Fin 4096) (h : ¬ ∃ o : Fin 3840, posOf (ri (ix1 o)) = c') :
    @Eq EReal (pieceS s1 ri (ix2 j c')) 0 := by
  unfold pieceS
  refine (col_scatter_miss scatter_S256x4096_S3840x1_S256x3840_0_1_1_1_wf _ (wrapCol ri) _ ri
    (fun o => wrapCol_apply ri o (hlt o)) hlt j c' h).trans ?_
  exact Ideal.ofBits_zero_f32

open StableHlo.Predicate in
/-- The third piece at (j, c') is the comparison of the raw words rc j and c', as a float. -/
theorem pieceH_eq (rc : IVec S256 32) (j : Fin 256) (c' : Fin 4096) :
    @Eq EReal (pieceH rc (ix2 j c')) (((IntOp.cmpi .eq (rc (ix1 j)) (BitVec.ofNat 32 c'.val)).toNat : ℝ) : EReal) := by
  have hA : broadcastInDim S256x4096 ![0, 1] bcast_S256x1_S256x4096_0_1 (broadcastInDim S256x1 ![0] bcast_S256_S256x1_0 rc) (ix2 j c')
      = rc (ix1 j) := (bcast_rows _ _ rc j c').trans (congrArg rc (ofFin_eq_ix1 j))
  have hB : broadcastInDim S256x4096 ![0, 1] bcast_S1x4096_S256x4096_0_1 (iotaInDim S1x4096 32 1) (ix2 j c')
      = BitVec.ofNat 32 c'.val := (bcast_of_row _ (iotaInDim S1x4096 32 1) j c').trans rfl
  have e : pieceH rc (ix2 j c') = (((IntOp.cmpi .eq
      (broadcastInDim S256x4096 ![0, 1] bcast_S256x1_S256x4096_0_1 (broadcastInDim S256x1 ![0] bcast_S256_S256x1_0 rc) (ix2 j c'))
      (broadcastInDim S256x4096 ![0, 1] bcast_S1x4096_S256x4096_0_1 (iotaInDim S1x4096 32 1) (ix2 j c'))).toNat : ℝ) : EReal) := rfl
  rw [e, hA, hB]

open StableHlo.Predicate in
/-- One where rc j names column c' … -/
theorem pieceH_hit (rc : IVec S256 32) (j : Fin 256) (c' : Fin 4096) (h : (rc (ix1 j)).toNat < 4096)
    (hp : posOf (rc (ix1 j)) = c') : @Eq EReal (pieceH rc (ix2 j c')) 1 := by
  have hc' := c'.isLt
  have hw : rc (ix1 j) = BitVec.ofNat 32 c'.val := BitVec.eq_of_toNat_eq (by
    rw [BitVec.toNat_ofNat, ← posOf_val h, hp]; omega)
  rw [pieceH_eq, cmpi_eq_iff.mpr hw]
  simp

open StableHlo.Predicate in
/-- … and zero elsewhere. -/
theorem pieceH_miss (rc : IVec S256 32) (j : Fin 256) (c' : Fin 4096) (h : (rc (ix1 j)).toNat < 4096)
    (hp : ¬ posOf (rc (ix1 j)) = c') : @Eq EReal (pieceH rc (ix2 j c')) 0 := by
  have hc' := c'.isLt
  have hw : ¬ rc (ix1 j) = BitVec.ofNat 32 c'.val := fun hw => hp (Fin.ext (by
    rw [posOf_val h, hw, BitVec.toNat_ofNat]; omega))
  rw [pieceH_eq, eq_zero_of_ne_one (fun h1 => hw (cmpi_eq_iff.mp h1))]
  simp

/-! ## The concatenation along the rows at an index -/

/-- Rows 0..511 are the first piece's, rows 512..767 the second's, rows 768..1023 the third's. -/
theorem concat3_rows_apply {α : Type} (x₁ : S512x4096.Idx → α) (x₂ x₃ : S256x4096.Idx → α) (q : Fin 1024) (c' : Fin 4096) :
    concatenate S1024x4096 0 [⟨S512x4096, x₁⟩, ⟨S256x4096, x₂⟩, ⟨S256x4096, x₃⟩]
        concatenates_S512x4096_S256x4096_S256x4096_S1024x4096_d0 (ix2 q c')
      = if h₁ : q.val < 512 then x₁ (ix2 (⟨q.val, h₁⟩ : Fin 512) c')
        else if h₂ : q.val < 768 then x₂ (ix2 (⟨q.val - 512, by omega⟩ : Fin 256) c')
        else x₃ (ix2 (⟨q.val - 768, by have := q.isLt; omega⟩ : Fin 256) c') := by
  have hq := q.isLt
  by_cases h₁ : q.val < 512
  · rw [dif_pos h₁]
    exact concatenate_apply_piece (0 : Fin 2) [⟨S512x4096, x₁⟩, ⟨S256x4096, x₂⟩, ⟨S256x4096, x₃⟩] _ (ix2 q c')
      0 (by simp) S512x4096 x₁ rfl rfl 0 rfl (ix2 (⟨q.val, h₁⟩ : Fin 512) c')
      (fun b hb => by
        match b with
        | ⟨0, _⟩ => exact absurd rfl hb
        | ⟨1, _⟩ => rfl)
      (Nat.zero_add _)
  · rw [dif_neg h₁]
    by_cases h₂ : q.val < 768
    · rw [dif_pos h₂]
      exact concatenate_apply_piece (0 : Fin 2) [⟨S512x4096, x₁⟩, ⟨S256x4096, x₂⟩, ⟨S256x4096, x₃⟩] _ (ix2 q c')
        1 (by simp) S256x4096 x₂ rfl rfl 512 rfl (ix2 (⟨q.val - 512, by omega⟩ : Fin 256) c')
        (fun b hb => by
          match b with
          | ⟨0, _⟩ => exact absurd rfl hb
          | ⟨1, _⟩ => rfl)
        (by show 512 + (q.val - 512) = q.val; omega)
    · rw [dif_neg h₂]
      exact concatenate_apply_piece (0 : Fin 2) [⟨S512x4096, x₁⟩, ⟨S256x4096, x₂⟩, ⟨S256x4096, x₃⟩] _ (ix2 q c')
        2 (by simp) S256x4096 x₃ rfl rfl 768 rfl (ix2 (⟨q.val - 768, by omega⟩ : Fin 256) c')
        (fun b hb => by
          match b with
          | ⟨0, _⟩ => exact absurd rfl hb
          | ⟨1, _⟩ => rfl)
        (by show 768 + (q.val - 768) = q.val; omega)

/-! ## The host operations, stretch by stretch -/

/-- Operations run one stretch after the other. -/
theorem after_append' {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih _

section Stretches
variable (X : Valuation τ sig (Elt Ideal))

/-- The last stretch concatenates the three pieces and changes the float format. -/
theorem stretch4_v37 : @Eq (S1024x4096.Idx → EReal) (StableHlo.after hostOps0_4 X (Proc.devRef .tc main_v37))
    (truncf (F := Ideal) .bf16 (concatenate S1024x4096 0
        [⟨S512x4096, (X (Proc.devRef .tc main_v20) : S512x4096.Idx → EReal)⟩,
         ⟨S256x4096, (X (Proc.devRef .tc main_v29) : S256x4096.Idx → EReal)⟩,
         ⟨S256x4096, (X (Proc.devRef .tc main_v33) : S256x4096.Idx → EReal)⟩]
        concatenates_S512x4096_S256x4096_S256x4096_S1024x4096_d0) bitsLt_bf16_f32) := by
  simp only [hostOps0_4]
  after_results3
  rfl

/-- The fourth stretch builds the one-hot of rc … -/
theorem stretch3_v33 : @Eq (S256x4096.Idx → EReal) (StableHlo.after hostOps0_3 X (Proc.devRef .tc main_v33))
    (pieceH (X (Proc.devRef .tc main_arg9))) := by
  simp only [hostOps0_3]
  after_results3
  rfl
/-- … and leaves the two scattered pieces alone. -/
theorem stretch3_v20 : StableHlo.after hostOps0_3 X (Proc.devRef .tc main_v20) = X (Proc.devRef .tc main_v20) := by
  simp only [hostOps0_3]
  after_results3
theorem stretch3_v29 : StableHlo.after hostOps0_3 X (Proc.devRef .tc main_v29) = X (Proc.devRef .tc main_v29) := by
  simp only [hostOps0_3]
  after_results3

/-- The third and second stretches leave the two scattered pieces and rc alone. -/
theorem stretch2_v20 : StableHlo.after hostOps0_2 X (Proc.devRef .tc main_v20) = X (Proc.devRef .tc main_v20) := by
  simp only [hostOps0_2]
  after_results3
theorem stretch2_v29 : StableHlo.after hostOps0_2 X (Proc.devRef .tc main_v29) = X (Proc.devRef .tc main_v29) := by
  simp only [hostOps0_2]
  after_results3
theorem stretch2_arg9 : StableHlo.after hostOps0_2 X (Proc.devRef .tc main_arg9) = X (Proc.devRef .tc main_arg9) := by
  simp only [hostOps0_2]
  after_results3
theorem stretch1_v20 : StableHlo.after hostOps0_1 X (Proc.devRef .tc main_v20) = X (Proc.devRef .tc main_v20) := by
  simp only [hostOps0_1]
  after_results3
theorem stretch1_v29 : StableHlo.after hostOps0_1 X (Proc.devRef .tc main_v29) = X (Proc.devRef .tc main_v29) := by
  simp only [hostOps0_1]
  after_results3
theorem stretch1_arg9 : StableHlo.after hostOps0_1 X (Proc.devRef .tc main_arg9) = X (Proc.devRef .tc main_arg9) := by
  simp only [hostOps0_1]
  after_results3

set_option maxHeartbeats 1000000 in
/-- The first stretch scatters A and s1 into zero matrices and leaves rc alone. -/
theorem stretch0_v20 : @Eq (S512x4096.Idx → EReal) (StableHlo.after hostOps0 X (Proc.devRef .tc main_v20))
    (pieceA (X (Proc.devRef .tc main_arg1)) (X (Proc.devRef .tc main_arg8))) := by
  simp only [hostOps0]
  after_results3
  rfl
set_option maxHeartbeats 1000000 in
theorem stretch0_v29 : @Eq (S256x4096.Idx → EReal) (StableHlo.after hostOps0 X (Proc.devRef .tc main_v29))
    (pieceS (X (Proc.devRef .tc main_arg3)) (X (Proc.devRef .tc main_arg8))) := by
  simp only [hostOps0]
  after_results3
  rfl
set_option maxHeartbeats 1000000 in
theorem stretch0_arg9 : StableHlo.after hostOps0 X (Proc.devRef .tc main_arg9) = X (Proc.devRef .tc main_arg9) := by
  simp only [hostOps0]
  after_results3

end Stretches

/-- The second weight block as the host operations' term of the arguments. -/
theorem V37_eq (c : Dev nD) : @Eq (S1024x4096.Idx → EReal) (V m c main_v37)
    (truncf (F := Ideal) .bf16 (concatenate S1024x4096 0
        [⟨S512x4096, pieceA (m ((c.tc : Thread nD τ).loc main_arg1)) (m ((c.tc : Thread nD τ).loc main_arg8))⟩,
         ⟨S256x4096, pieceS (m ((c.tc : Thread nD τ).loc main_arg3)) (m ((c.tc : Thread nD τ).loc main_arg8))⟩,
         ⟨S256x4096, pieceH (m ((c.tc : Thread nD τ).loc main_arg9))⟩]
        concatenates_S512x4096_S256x4096_S256x4096_S1024x4096_d0) bitsLt_bf16_f32) := by
  dsimp only [V, V0]
  simp only [List.flatten_cons, List.flatten_nil, List.append_nil]
  rw [after_append', after_append', after_append', after_append', stretch4_v37,
    stretch3_v20, stretch2_v20, stretch1_v20, stretch0_v20,
    stretch3_v29, stretch2_v29, stretch1_v29, stretch0_v29,
    stretch3_v33, stretch2_arg9, stretch1_arg9, stretch0_arg9]

/-- The second weight block as the region finds it. -/
theorem V37_apply (c : Dev nD)
    (hr : IndexSets (m ((c.tc : Thread nD τ).loc main_arg8)) (m ((c.tc : Thread nD τ).loc main_arg9)))
    (q : Fin 1024) (c' : Fin 4096) :
    V m c main_v37 (ix2 q c')
      = W2spec (m ((c.tc : Thread nD τ).loc main_arg1)) (m ((c.tc : Thread nD τ).loc main_arg3))
          (m ((c.tc : Thread nD τ).loc main_arg8)) (m ((c.tc : Thread nD τ).loc main_arg9)) q c' := by
  have hq := q.isLt
  refine (congrFun (V37_eq m c) (ix2 q c')).trans ?_
  refine (truncf_apply (φ := .f32) (ψ := .bf16) _ bitsLt_bf16_f32 (ix2 q c')).trans ?_
  refine (concat3_rows_apply _ _ _ q c').trans ?_
  unfold W2spec
  by_cases h₁ : q.val < 512
  · rw [dif_pos h₁, dif_pos h₁]
    by_cases h : ∃ o : Fin 3840, posOf (m ((c.tc : Thread nD τ).loc main_arg8) (ix1 o)) = c'
    · rw [dif_pos h]
      exact pieceA_hit _ _ hr.idx_lt hr.idx_inj (⟨q.val, h₁⟩ : Fin 512) c' _ (Classical.choose_spec h)
    · rw [dif_neg h]
      exact pieceA_miss _ _ hr.idx_lt (⟨q.val, h₁⟩ : Fin 512) c' h
  · rw [dif_neg h₁, dif_neg h₁]
    by_cases h₂ : q.val < 768
    · rw [dif_pos h₂, dif_pos h₂]
      by_cases h : ∃ o : Fin 3840, posOf (m ((c.tc : Thread nD τ).loc main_arg8) (ix1 o)) = c'
      · rw [dif_pos h]
        exact pieceS_hit _ _ hr.idx_lt hr.idx_inj (⟨q.val - 512, by omega⟩ : Fin 256) c' _ (Classical.choose_spec h)
      · rw [dif_neg h]
        exact pieceS_miss _ _ hr.idx_lt (⟨q.val - 512, by omega⟩ : Fin 256) c' h
    · rw [dif_neg h₂, dif_neg h₂]
      by_cases hp : posOf (m ((c.tc : Thread nD τ).loc main_arg9) (ix1 (⟨q.val - 768, by omega⟩ : Fin 256))) = c'
      · rw [if_pos hp]
        exact pieceH_hit _ _ c' (hr.comp_lt _) hp
      · rw [if_neg hp]
        exact pieceH_miss _ _ c' (hr.comp_lt _) hp

end Cert.KernelIdeal.Hand

end
-- ==== Proof.RefValue.lean ====
/-
  The reference's result, read at an index: the layer's output Y. The two gathers read x at the table word (in range, so
  neither wrapped nor clamped); the two scatters along the last axis write yrows[o] at position ri o and then ycomp[j] at
  position rc j, each position hit by at most one update of each scatter because no word occurs twice in a table, and by
  only one of the two scatters because no word occurs in both.
-/
import proofs.«409909_j42846593745144_3_alg».proof.Proof.Gen.ReferenceIdeal.Read
import proofs.«409909_j42846593745144_3_alg».proof.Proof.Spec
import proofs.«409909_j42846593745144_3_alg».proof.Proof.ScatterSet
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Cert.LowRank
open Idealize.ShloMosaic Idealize.ShloMosaic.ValueIdx

/-- A word below 4096 is not negative, so the wrap of negative words leaves it. -/
theorem wrap_id (w : BitVec 32) (h : w.toNat < 4096) :
    Scalar.select (IntOp.cmpi .slt w 0#32) (IntOp.addi w 4096#32) w = w := by
  have hn : ¬ IntOp.cmpi .slt w 0#32 = 1#1 := by
    rw [StableHlo.Predicate.slt_iff_toNat (by omega) (by decide)]
    simp
  exact if_neg hn

/-! The four index columns: each row holds its table word. -/

theorem v5_at (x6 : IVec S3840 32) (h : ∀ k : Fin 3840, (x6 (ix1 k)).toNat < 4096) (k : Fin 3840) (z : Fin 1) :
    val_main_v5 (F := Ideal) x6 (ix2 k z) = x6 (ix1 k) := by
  have e : idx_main_v5 (ix2 k z) = ix1 k := funext fun a => Fin.ext (by match a with | ⟨0, _⟩ => rfl)
  rw [val_main_v5_apply, e, val_main_v4_apply, val_main_v1_apply, val_main_v3_apply, val_main_v0_apply, val_main_v2_apply,
    val_main_c_apply, val_main_c_0_apply]
  exact wrap_id _ (h k)

theorem v17_at (x7 : IVec S256 32) (h : ∀ j : Fin 256, (x7 (ix1 j)).toNat < 4096) (j : Fin 256) (z : Fin 1) :
    val_main_v17 (F := Ideal) x7 (ix2 j z) = x7 (ix1 j) := by
  have e : idx_main_v17 (ix2 j z) = ix1 j := funext fun a => Fin.ext (by match a with | ⟨0, _⟩ => rfl)
  rw [val_main_v17_apply, e, val_main_v16_apply, val_main_v13_apply, val_main_v15_apply, val_main_v12_apply, val_main_v14_apply,
    val_main_c_1_apply, val_main_c_2_apply]
  exact wrap_id _ (h j)

theorem v28_at (x8 : IVec S3840 32) (h : ∀ k : Fin 3840, (x8 (ix1 k)).toNat < 4096) (k : Fin 3840) (z : Fin 1) :
    val_main_v28 (F := Ideal) x8 (ix2 k z) = x8 (ix1 k) := by
  have e : idx_main_v28 (ix2 k z) = ix1 k := funext fun a => Fin.ext (by match a with | ⟨0, _⟩ => rfl)
  rw [val_main_v28_apply, e, val_main_v27_apply, val_main_v24_apply, val_main_v26_apply, val_main_v23_apply, val_main_v25_apply,
    val_main_c_3_apply, val_main_c_4_apply]
  exact wrap_id _ (h k)

theorem v35_at (x9 : IVec S256 32) (h : ∀ j : Fin 256, (x9 (ix1 j)).toNat < 4096) (j : Fin 256) (z : Fin 1) :
    val_main_v35 (F := Ideal) x9 (ix2 j z) = x9 (ix1 j) := by
  have e : idx_main_v35 (ix2 j z) = ix1 j := funext fun a => Fin.ext (by match a with | ⟨0, _⟩ => rfl)
  rw [val_main_v35_apply, e, val_main_v34_apply, val_main_v31_apply, val_main_v33_apply, val_main_v30_apply, val_main_v32_apply,
    val_main_c_5_apply, val_main_c_6_apply]
  exact wrap_id _ (h j)

/-! The gathers: which element of x a result element reads. -/

/-- The gather's operand index at (b, s, k): the token's coordinates, then row k's word read signed and clamped. -/
theorem gather6_idx (idx : IVec S3840x1 32) (b : Fin 4) (s : Fin 2048) (k : Fin 3840) :
    gather_S4x2048x4096_S3840x1_S4x2048x3840_01_2_n_n_2_1_420481.operandIdx (ix3 b s k) idx
      = ix3 b s ⟨min (idx (ix2 k 0)).toInt.toNat 4095, by omega⟩ := by
  funext a
  refine Fin.ext ?_
  match a with
  | ⟨0, _⟩ =>
    show 0 + 0 + b.val = b.val
    omega
  | ⟨1, _⟩ =>
    show 0 + 0 + s.val = s.val
    omega
  | ⟨2, _⟩ =>
    show gather_S4x2048x4096_S3840x1_S4x2048x3840_01_2_n_n_2_1_420481.start (ix3 b s k) idx 2 + 0 + 0 = min (idx (ix2 k 0)).toInt.toNat 4095
    unfold GatherDims.start
    rw [dif_pos (show (2 : Fin 3) ∈ gather_S4x2048x4096_S3840x1_S4x2048x3840_01_2_n_n_2_1_420481.startIndexMap from List.mem_singleton.mpr rfl)]
    have hsi : gather_S4x2048x4096_S3840x1_S4x2048x3840_01_2_n_n_2_1_420481.siIdx (ix3 b s k) ⟨List.idxOf (2 : Fin 3) gather_S4x2048x4096_S3840x1_S4x2048x3840_01_2_n_n_2_1_420481.startIndexMap,
        List.idxOf_lt_length_iff.2 (List.mem_singleton.mpr rfl)⟩ = ix2 k 0 := by
      funext c
      refine Fin.ext ?_
      match c with
      | ⟨0, _⟩ => rfl
      | ⟨1, _⟩ => rfl
    rw [hsi]
    rfl

/-- The gather's operand index at (b, s, k): the token's coordinates, then row k's word read signed and clamped. -/
theorem gather18_idx (idx : IVec S256x1 32) (b : Fin 4) (s : Fin 2048) (k : Fin 256) :
    gather_S4x2048x4096_S256x1_S4x2048x256_01_2_n_n_2_1_420481.operandIdx (ix3 b s k) idx
      = ix3 b s ⟨min (idx (ix2 k 0)).toInt.toNat 4095, by omega⟩ := by
  funext a
  refine Fin.ext ?_
  match a with
  | ⟨0, _⟩ =>
    show 0 + 0 + b.val = b.val
    omega
  | ⟨1, _⟩ =>
    show 0 + 0 + s.val = s.val
    omega
  | ⟨2, _⟩ =>
    show gather_S4x2048x4096_S256x1_S4x2048x256_01_2_n_n_2_1_420481.start (ix3 b s k) idx 2 + 0 + 0 = min (idx (ix2 k 0)).toInt.toNat 4095
    unfold GatherDims.start
    rw [dif_pos (show (2 : Fin 3) ∈ gather_S4x2048x4096_S256x1_S4x2048x256_01_2_n_n_2_1_420481.startIndexMap from List.mem_singleton.mpr rfl)]
    have hsi : gather_S4x2048x4096_S256x1_S4x2048x256_01_2_n_n_2_1_420481.siIdx (ix3 b s k) ⟨List.idxOf (2 : Fin 3) gather_S4x2048x4096_S256x1_S4x2048x256_01_2_n_n_2_1_420481.startIndexMap,
        List.idxOf_lt_length_iff.2 (List.mem_singleton.mpr rfl)⟩ = ix2 k 0 := by
      funext c
      refine Fin.ext ?_
      match c with
      | ⟨0, _⟩ => rfl
      | ⟨1, _⟩ => rfl
    rw [hsi]
    rfl

/-- A word below 4096, read signed and clamped to [0, 4095], is the position it names. -/
theorem clamp_pos (w : BitVec 32) (h : w.toNat < 4096) : min w.toInt.toNat 4095 = (posOf w).val := by
  rw [StableHlo.Predicate.toInt_eq_toNat_of_lt (by omega), Int.toNat_natCast, posOf_val h]
  omega

/-! The scatters: where an update lands. -/

/-- An update whose start plus window coordinate is the coordinate of i on every axis lands at i. -/
theorem resultIdx?_of_eq {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, by exact_mod_cast (i a).isLt⟩)]
  congr 1
  funext a
  refine Fin.ext ?_
  show (d.start j idx a + (d.window j a : Int)).toNat = (i a).val
  rw [h a, Int.toNat_natCast]

/-- The scatter's update (b, s, k) lands at (b, s, p) where p is the position row k's word names. -/
theorem scatter29_result (idx : IVec S3840x1 32) (b : Fin 4) (s : Fin 2048) (k : Fin 3840) (h : (idx (ix2 k 0)).toNat < 4096) :
    scatter_S4x2048x4096_S3840x1_S4x2048x3840_01_2_2_1.resultIdx? (ix3 b s k) idx = some (ix3 b s (posOf (idx (ix2 k 0)))) := by
  refine resultIdx?_of_eq _ _ _ _ fun a => ?_
  match a with
  | ⟨0, _⟩ =>
    show (0 : Int) + ((b.val : Nat) : Int) = ((b.val : Nat) : Int)
    omega
  | ⟨1, _⟩ =>
    show (0 : Int) + ((s.val : Nat) : Int) = ((s.val : Nat) : Int)
    omega
  | ⟨2, _⟩ =>
    show scatter_S4x2048x4096_S3840x1_S4x2048x3840_01_2_2_1.start (ix3 b s k) idx 2 + ((0 : Nat) : Int) = (((posOf (idx (ix2 k 0))).val : Nat) : Int)
    unfold ScatterDims.start
    rw [dif_pos (show (2 : Fin 3) ∈ scatter_S4x2048x4096_S3840x1_S4x2048x3840_01_2_2_1.scatterDimsToOperandDims from List.mem_singleton.mpr rfl)]
    have hsi : scatter_S4x2048x4096_S3840x1_S4x2048x3840_01_2_2_1.siIdx (ix3 b s k) ⟨List.idxOf (2 : Fin 3) scatter_S4x2048x4096_S3840x1_S4x2048x3840_01_2_2_1.scatterDimsToOperandDims,
        List.idxOf_lt_length_iff.2 (List.mem_singleton.mpr rfl)⟩ = ix2 k 0 := by
      funext c
      refine Fin.ext ?_
      match c with
      | ⟨0, _⟩ => rfl
      | ⟨1, _⟩ => rfl
    rw [hsi, StableHlo.Predicate.toInt_eq_toNat_of_lt (by omega), posOf_val h]
    omega

/-- The scatter's update (b, s, k) lands at (b, s, p) where p is the position row k's word names. -/
theorem scatter36_result (idx : IVec S256x1 32) (b : Fin 4) (s : Fin 2048) (k : Fin 256) (h : (idx (ix2 k 0)).toNat < 4096) :
    scatter_S4x2048x4096_S256x1_S4x2048x256_01_2_2_1.resultIdx? (ix3 b s k) idx = some (ix3 b s (posOf (idx (ix2 k 0)))) := by
  refine resultIdx?_of_eq _ _ _ _ fun a => ?_
  match a with
  | ⟨0, _⟩ =>
    show (0 : Int) + ((b.val : Nat) : Int) = ((b.val : Nat) : Int)
    omega
  | ⟨1, _⟩ =>
    show (0 : Int) + ((s.val : Nat) : Int) = ((s.val : Nat) : Int)
    omega
  | ⟨2, _⟩ =>
    show scatter_S4x2048x4096_S256x1_S4x2048x256_01_2_2_1.start (ix3 b s k) idx 2 + ((0 : Nat) : Int) = (((posOf (idx (ix2 k 0))).val : Nat) : Int)
    unfold ScatterDims.start
    rw [dif_pos (show (2 : Fin 3) ∈ scatter_S4x2048x4096_S256x1_S4x2048x256_01_2_2_1.scatterDimsToOperandDims from List.mem_singleton.mpr rfl)]
    have hsi : scatter_S4x2048x4096_S256x1_S4x2048x256_01_2_2_1.siIdx (ix3 b s k) ⟨List.idxOf (2 : Fin 3) scatter_S4x2048x4096_S256x1_S4x2048x256_01_2_2_1.scatterDimsToOperandDims,
        List.idxOf_lt_length_iff.2 (List.mem_singleton.mpr rfl)⟩ = ix2 k 0 := by
      funext c
      refine Fin.ext ?_
      match c with
      | ⟨0, _⟩ => rfl
      | ⟨1, _⟩ => rfl
    rw [hsi, StableHlo.Predicate.toInt_eq_toNat_of_lt (by omega), posOf_val h]
    omega

theorem ix3_inj {n0 n1 n2 : Nat} {a a' : Fin n0} {b b' : Fin n1} {c c' : Fin n2} (h : ix3 a b c = ix3 a' b' c') :
    a = a' ∧ b = b' ∧ c = c' := by
  have h0 := congrFun h ⟨0, Nat.succ_pos 2⟩
  have h1 := congrFun h ⟨1, Nat.succ_lt_succ (Nat.succ_pos 1)⟩
  have h2 := congrFun h ⟨2, Nat.lt_succ_self 2⟩
  exact ⟨h0, h1, h2⟩

/-! A scatter of whole rows along the last axis whose update (b, s, k) lands at (b, s, P k), P one to one: position
    (b, s, P k) holds update (b, s, k), and a position no P k names keeps the operand's element. -/

section Last
variable {α : Type} {n : Nat} (d : ScatterDims S4x2048x4096 ⟨2, ![n, 1]⟩ ⟨3, ![4, 2048, n]⟩)
  (x : S4x2048x4096.Idx → α) (idx : IVec ⟨2, ![n, 1]⟩ 32) (upd : (⟨3, ![4, 2048, n]⟩ : Shape).Idx → α)
  (P : Fin n → Fin 4096)
  (hres : ∀ (b : Fin 4) (s : Fin 2048) (k : Fin n), d.resultIdx? (ix3 b s k) idx = some (ix3 b s (P k)))
include hres

theorem scatter_last_hit (hinj : Function.Injective P) (b : Fin 4) (s : Fin 2048) (k : Fin n) :
    Host.scatter d (fun _ v => v) x idx upd (ix3 b s (P k)) = upd (ix3 b s k) := by
  refine scatter_set_hit d x idx upd _ (ix3 b s k) (hres b s k) fun j' hj' => ?_
  obtain ⟨b', s', k', rfl⟩ : ∃ b' s' k', j' = ix3 b' s' k' := ⟨j' 0, j' 1, j' 2, eq_ix3 j'⟩
  rw [hres b' s' k'] at hj'
  obtain ⟨hb, hs, hk⟩ := ix3_inj (Option.some.inj hj')
  rw [hb, hs, hinj hk]

theorem scatter_last_miss (b : Fin 4) (s : Fin 2048) (c : Fin 4096) (hno : ∀ k : Fin n, P k ≠ c) :
    Host.scatter d (fun _ v => v) x idx upd (ix3 b s c) = x (ix3 b s c) := by
  refine scatter_set_miss d x idx upd _ fun j' hj' => ?_
  obtain ⟨b', s', k', rfl⟩ : ∃ b' s' k', j' = ix3 b' s' k' := ⟨j' 0, j' 1, j' 2, eq_ix3 j'⟩
  rw [hres b' s' k'] at hj'
  exact hno k' (ix3_inj (Option.some.inj hj')).2.2

end Last

/-! The stages read at an index. -/

section Stages
variable (x0 : FVec Ideal S4x2048x4096 .f32) (x1 : FVec Ideal S3840x512 .f32) (x2 : FVec Ideal S512x3840 .f32)
  (x3 : FVec Ideal S3840x256 .f32) (x4 : FVec Ideal S256x4096 .f32) (x5 : FVec Ideal S3840 .f32)
  (x6 : IVec S3840 32) (x7 : IVec S256 32)

theorem v6_at (h : ∀ k : Fin 3840, (x6 (ix1 k)).toNat < 4096) (b : Fin 4) (s : Fin 2048) (k : Fin 3840) :
    val_main_v6 (F := Ideal) x0 x6 (ix3 b s k) = x0 (ix3 b s (posOf (x6 (ix1 k)))) := by
  show x0 (gather_S4x2048x4096_S3840x1_S4x2048x3840_01_2_n_n_2_1_420481.operandIdx (ix3 b s k) (val_main_v5 (F := Ideal) x6)) = _
  rw [gather6_idx]
  refine congrArg x0 (congrArg (ix3 b s) (Fin.ext ?_))
  show min (val_main_v5 (F := Ideal) x6 (ix2 k 0)).toInt.toNat 4095 = (posOf (x6 (ix1 k))).val
  rw [v5_at x6 h k 0]
  exact clamp_pos _ (h k)

theorem v18_at (h : ∀ j : Fin 256, (x7 (ix1 j)).toNat < 4096) (b : Fin 4) (s : Fin 2048) (j : Fin 256) :
    val_main_v18 (F := Ideal) x0 x7 (ix3 b s j) = x0 (ix3 b s (posOf (x7 (ix1 j)))) := by
  show x0 (gather_S4x2048x4096_S256x1_S4x2048x256_01_2_n_n_2_1_420481.operandIdx (ix3 b s j) (val_main_v17 (F := Ideal) x7)) = _
  rw [gather18_idx]
  refine congrArg x0 (congrArg (ix3 b s) (Fin.ext ?_))
  show min (val_main_v17 (F := Ideal) x7 (ix2 j 0)).toInt.toNat 4095 = (posOf (x7 (ix1 j))).val
  rw [v17_at x7 h j 0]
  exact clamp_pos _ (h j)

theorem v9_at (h : ∀ k : Fin 3840, (x6 (ix1 k)).toNat < 4096) (b : Fin 4) (s : Fin 2048) (k : Fin 3840) :
    val_main_v9 (F := Ideal) x0 x5 x6 (ix3 b s k) = x0 (ix3 b s (posOf (x6 (ix1 k)))) * x5 (ix1 k) := by
  have e : idx_main_v7 (idx_main_v8 (ix3 b s k)) = ix1 k := funext fun a => Fin.ext (by match a with | ⟨0, _⟩ => rfl)
  rw [val_main_v9_apply, v6_at x0 x6 h, val_main_v8_apply, val_main_v7_apply, e]
  rfl

theorem v10_at (h : ∀ k : Fin 3840, (x6 (ix1 k)).toNat < 4096) (b : Fin 4) (s : Fin 2048) (r : Fin 512) :
    val_main_v10 (F := Ideal) x0 x2 x5 x6 (ix3 b s r) = LowRank.hidden x0 x2 x5 x6 b s r := by
  rw [val_main_v10_apply]
  unfold LowRank.hidden
  refine Finset.sum_congr rfl fun k _ => ?_
  have el : lidx_main_v10 (ix3 b s r) k = ix3 b s k := funext fun a => Fin.ext (by match a with | ⟨0, _⟩ => rfl | ⟨1, _⟩ => rfl | ⟨2, _⟩ => rfl)
  have er : ridx_main_v10 (ix3 b s r) k = ix2 r k := funext fun a => Fin.ext (by match a with | ⟨0, _⟩ => rfl | ⟨1, _⟩ => rfl)
  rw [el, er, v9_at x0 x5 x6 h]

theorem v11_at (h : ∀ k : Fin 3840, (x6 (ix1 k)).toNat < 4096) (b : Fin 4) (s : Fin 2048) (o : Fin 3840) :
    val_main_v11 (F := Ideal) x0 x1 x2 x5 x6 (ix3 b s o) = ∑ r : Fin 512, LowRank.hidden x0 x2 x5 x6 b s r * x1 (ix2 o r) := by
  rw [val_main_v11_apply]
  refine Finset.sum_congr rfl fun r _ => ?_
  have el : lidx_main_v11 (ix3 b s o) r = ix3 b s r := funext fun a => Fin.ext (by match a with | ⟨0, _⟩ => rfl | ⟨1, _⟩ => rfl | ⟨2, _⟩ => rfl)
  have er : ridx_main_v11 (ix3 b s o) r = ix2 o r := funext fun a => Fin.ext (by match a with | ⟨0, _⟩ => rfl | ⟨1, _⟩ => rfl)
  rw [el, er, v10_at x0 x2 x5 x6 h]

theorem v19_at (h : ∀ j : Fin 256, (x7 (ix1 j)).toNat < 4096) (b : Fin 4) (s : Fin 2048) (o : Fin 3840) :
    val_main_v19 (F := Ideal) x0 x3 x7 (ix3 b s o) = ∑ j : Fin 256, x0 (ix3 b s (posOf (x7 (ix1 j)))) * x3 (ix2 o j) := by
  rw [val_main_v19_apply]
  refine Finset.sum_congr rfl fun j _ => ?_
  have el : lidx_main_v19 (ix3 b s o) j = ix3 b s j := funext fun a => Fin.ext (by match a with | ⟨0, _⟩ => rfl | ⟨1, _⟩ => rfl | ⟨2, _⟩ => rfl)
  have er : ridx_main_v19 (ix3 b s o) j = ix2 o j := funext fun a => Fin.ext (by match a with | ⟨0, _⟩ => rfl | ⟨1, _⟩ => rfl)
  rw [el, er, v18_at x0 x7 h]

theorem v20_at (h6 : ∀ k : Fin 3840, (x6 (ix1 k)).toNat < 4096) (h7 : ∀ j : Fin 256, (x7 (ix1 j)).toNat < 4096)
    (b : Fin 4) (s : Fin 2048) (o : Fin 3840) :
    val_main_v20 (F := Ideal) x0 x1 x2 x3 x5 x6 x7 (ix3 b s o) = yrows x0 x1 x2 x3 x5 x6 x7 b s o := by
  rw [val_main_v20_apply, v11_at x0 x1 x2 x5 x6 h6, v19_at x0 x3 x7 h7]
  rfl

theorem v21_at (b : Fin 4) (s : Fin 2048) (j : Fin 256) :
    val_main_v21 (F := Ideal) x0 x4 (ix3 b s j) = ycomp x0 x4 b s j := by
  rw [val_main_v21_apply]
  unfold ycomp
  refine Finset.sum_congr rfl fun n _ => ?_
  have el : lidx_main_v21 (ix3 b s j) n = ix3 b s n := funext fun a => Fin.ext (by match a with | ⟨0, _⟩ => rfl | ⟨1, _⟩ => rfl | ⟨2, _⟩ => rfl)
  have er : ridx_main_v21 (ix3 b s j) n = ix2 j n := funext fun a => Fin.ext (by match a with | ⟨0, _⟩ => rfl | ⟨1, _⟩ => rfl)
  rw [el, er]

theorem v22_at (i : S4x2048x4096.Idx) : val_main_v22 (F := Ideal) i = 0 := by
  rw [val_main_v22_apply, val_main_cst_apply]
  exact Ideal.ofBits_zero_f32

end Stages

/-- Two words below 4096 that name the same position are the same word. -/
theorem posOf_inj {w w' : BitVec 32} (h : w.toNat < 4096) (h' : w'.toNat < 4096) (e : posOf w = posOf w') : w = w' := by
  apply BitVec.eq_of_toNat_eq
  rw [← posOf_val h, ← posOf_val h', e]

theorem ref_eq_Y (x0 : FVec Ideal S4x2048x4096 .f32) (x1 : FVec Ideal S3840x512 .f32) (x2 : FVec Ideal S512x3840 .f32)
    (x3 : FVec Ideal S3840x256 .f32) (x4 : FVec Ideal S256x4096 .f32) (x5 : FVec Ideal S3840 .f32)
    (x6 : IVec S3840 32) (x7 : IVec S256 32) (x8 : IVec S3840 32) (x9 : IVec S256 32)
    (hc : IndexSets x6 x7) (hr : IndexSets x8 x9) (b : Fin 4) (s : Fin 2048) (c : Fin 4096) :
    val_main_v36 (F := Ideal) x0 x1 x2 x3 x4 x5 x6 x7 x8 x9 (ix3 b s c) = Y x0 x1 x2 x3 x4 x5 x6 x7 x8 x9 b s c := by
  have hP9 : Function.Injective (fun j : Fin 256 => posOf (x9 (ix1 j))) := fun j j' e =>
    hr.comp_inj j j' (posOf_inj (hr.comp_lt j) (hr.comp_lt j') e)
  have hP8 : Function.Injective (fun o : Fin 3840 => posOf (x8 (ix1 o))) := fun o o' e =>
    hr.idx_inj o o' (posOf_inj (hr.idx_lt o) (hr.idx_lt o') e)
  have hres36 : ∀ (b : Fin 4) (s : Fin 2048) (j : Fin 256),
      scatter_S4x2048x4096_S256x1_S4x2048x256_01_2_2_1.resultIdx? (ix3 b s j) (val_main_v35 (F := Ideal) x9)
        = some (ix3 b s (posOf (x9 (ix1 j)))) := fun b s j => by
    have hw := v35_at x9 hr.comp_lt j 0
    have := scatter36_result (val_main_v35 (F := Ideal) x9) b s j (by rw [hw]; exact hr.comp_lt j)
    rw [hw] at this
    exact this
  have hres29 : ∀ (b : Fin 4) (s : Fin 2048) (o : Fin 3840),
      scatter_S4x2048x4096_S3840x1_S4x2048x3840_01_2_2_1.resultIdx? (ix3 b s o) (val_main_v28 (F := Ideal) x8)
        = some (ix3 b s (posOf (x8 (ix1 o)))) := fun b s o => by
    have hw := v28_at x8 hr.idx_lt o 0
    have := scatter29_result (val_main_v28 (F := Ideal) x8) b s o (by rw [hw]; exact hr.idx_lt o)
    rw [hw] at this
    exact this
  unfold Y
  by_cases h9 : ∃ j : Fin 256, posOf (x9 (ix1 j)) = c
  · rw [dif_pos h9]
    have hj := Classical.choose_spec h9
    generalize Classical.choose h9 = j at hj
    subst hj
    unfold val_main_v36
    exact (scatter_last_hit (n := 256) scatter_S4x2048x4096_S256x1_S4x2048x256_01_2_2_1 _ _ _ (fun j : Fin 256 => posOf (x9 (ix1 j))) hres36 hP9 b s j).trans
      (v21_at x0 x4 b s j)
  · rw [dif_neg h9]
    have e36 : val_main_v36 (F := Ideal) x0 x1 x2 x3 x4 x5 x6 x7 x8 x9 (ix3 b s c)
        = val_main_v29 (F := Ideal) x0 x1 x2 x3 x5 x6 x7 x8 (ix3 b s c) := by
      unfold val_main_v36
      exact scatter_last_miss (n := 256) scatter_S4x2048x4096_S256x1_S4x2048x256_01_2_2_1 _ _ _ (fun j : Fin 256 => posOf (x9 (ix1 j))) hres36 b s c
        (fun j e => h9 ⟨j, e⟩)
    rw [e36]
    by_cases h8 : ∃ o : Fin 3840, posOf (x8 (ix1 o)) = c
    · rw [dif_pos h8]
      have ho := Classical.choose_spec h8
      generalize Classical.choose h8 = o at ho
      subst ho
      unfold val_main_v29
      exact (scatter_last_hit (n := 3840) scatter_S4x2048x4096_S3840x1_S4x2048x3840_01_2_2_1 _ _ _ (fun o : Fin 3840 => posOf (x8 (ix1 o))) hres29 hP8 b s o).trans
        (v20_at x0 x1 x2 x3 x5 x6 x7 hc.idx_lt hc.comp_lt b s o)
    · rw [dif_neg h8]
      unfold val_main_v29
      exact (scatter_last_miss (n := 3840) scatter_S4x2048x4096_S3840x1_S4x2048x3840_01_2_2_1 _ _ _ (fun o : Fin 3840 => posOf (x8 (ix1 o))) hres29 b s c
        (fun o e => h8 ⟨o, e⟩)).trans (v22_at _)

end Cert.ReferenceIdeal.RefValue

end
-- ==== Proof.Algebra.lean ====
/-
  The fused double contraction is the layer's output.

  Column group [0, 512) of the first block holds wn[k] * B[r, k] on row ci k and zero elsewhere, so contracting x with it gives
  the hidden state (a sum over the image of an injective table); group [512, 768) is the one-hot of cc, which picks x[cc j];
  group [768, 1024) is s2 transposed, which gives ycomp. The second block sends the first two groups to position ri o through
  A and s1 and the third to position rc j; the two tables are disjoint, so each output position receives exactly the terms
  the layer writes there. Only commutativity and associativity of + and * on the extended reals, 0 * a = 0 and 1 * a = a are used.
-/
import proofs.«409909_j42846593745144_3_alg».proof.Proof.Spec
import Mathlib.Algebra.BigOperators.Fin

noncomputable section

namespace Cert.LowRank

open Idealize.ShloMosaic Idealize.ShloMosaic.ValueIdx

/-! ### Sums over index ranges -/

/-- A sum over [0, 1024) is the sum over [0, 512), plus the sum over [512, 768), plus the sum over [768, 1024). -/
private theorem sum_groups (g : Fin 1024 → EReal) :
    ∑ q, g q = (∑ r : Fin 512, g ⟨r.val, by have := r.isLt; omega⟩)
      + ((∑ j : Fin 256, g ⟨512 + j.val, by have := j.isLt; omega⟩)
        + ∑ j : Fin 256, g ⟨768 + j.val, by have := j.isLt; omega⟩) := by
  have e1 : ∑ q, g q = (∑ r : Fin 512, g (Fin.castAdd 512 r)) + ∑ t : Fin 512, g (Fin.natAdd 512 t) :=
    Fin.sum_univ_add (a := 512) (b := 512) g
  have e2 : ∑ t : Fin 512, g (Fin.natAdd 512 t)
      = (∑ j : Fin 256, g (Fin.natAdd 512 (Fin.castAdd 256 j))) + ∑ j : Fin 256, g (Fin.natAdd 512 (Fin.natAdd 256 j)) :=
    Fin.sum_univ_add (a := 256) (b := 256) (fun t => g (Fin.natAdd 512 t))
  rw [e1, e2]
  refine congrArg₂ (· + ·) (Finset.sum_congr rfl fun r _ => congrArg g (Fin.ext rfl))
    (congrArg₂ (· + ·) (Finset.sum_congr rfl fun j _ => congrArg g (Fin.ext rfl))
      (Finset.sum_congr rfl fun j _ => congrArg g (Fin.ext ?_)))
  show 512 + (256 + j.val) = 768 + j.val
  omega

/-- A sum whose terms vanish off the image of an injective table is the sum over the table. -/
private theorem sum_eq_sum_table {m N : Nat} (p : Fin m → Fin N) (hp : Function.Injective p) (F : Fin N → EReal)
    (hF : ∀ n, (∀ k, p k ≠ n) → F n = 0) : ∑ n, F n = ∑ k, F (p k) := by
  rw [← Finset.sum_image (s := Finset.univ) (g := p) (f := F) (fun a _ b _ h => hp h)]
  symm
  refine Finset.sum_subset (Finset.subset_univ _) ?_
  intro n _ hn
  exact hF n fun k hk => hn (Finset.mem_image.mpr ⟨k, Finset.mem_univ _, hk⟩)

/-! ### The tables as positions -/

/-- Two words below 4096 at the same position are the same word. -/
private theorem posOf_inj {w w' : BitVec 32} (h : w.toNat < 4096) (h' : w'.toNat < 4096) (e : posOf w = posOf w') : w = w' := by
  apply BitVec.eq_of_toNat_eq
  rw [← posOf_val h, ← posOf_val h', e]

/-- A table of distinct words below 4096 names distinct positions. -/
private theorem table_inj {m : Nat} {t : IVec ⟨1, ![m]⟩ 32} (hlt : ∀ k : Fin m, (t (ix1 k)).toNat < 4096)
    (hinj : ∀ k k' : Fin m, t (ix1 k) = t (ix1 k') → k = k') {k k' : Fin m}
    (e : posOf (t (ix1 k)) = posOf (t (ix1 k'))) : k = k' :=
  hinj k k' (posOf_inj (hlt k) (hlt k') e)

/-- A position named by the second table of an axis is not named by the first. -/
private theorem not_idx_of_comp {idx : IVec ⟨1, ![3840]⟩ 32} {comp : IVec ⟨1, ![256]⟩ 32} (h : IndexSets idx comp) {c : Fin 4096}
    (hj : ∃ j : Fin 256, posOf (comp (ix1 j)) = c) : ¬ ∃ o : Fin 3840, posOf (idx (ix1 o)) = c := by
  obtain ⟨j, hj⟩ := hj
  rintro ⟨o, ho⟩
  exact h.disj o j (posOf_inj (h.idx_lt o) (h.comp_lt j) (ho.trans hj.symm))

/-- Offsetting by 512 and back. -/
private theorem sub512 (j : Fin 256) (h : 512 + j.val - 512 < 256) : (⟨512 + j.val - 512, h⟩ : Fin 256) = j :=
  Fin.ext (by show 512 + j.val - 512 = j.val; omega)

/-- Offsetting by 768 and back. -/
private theorem sub768 (j : Fin 256) (h : 768 + j.val - 768 < 256) : (⟨768 + j.val - 768, h⟩ : Fin 256) = j :=
  Fin.ext (by show 768 + j.val - 768 = j.val; omega)

section
variable (x : FVec Ideal ⟨3, ![4, 2048, 4096]⟩ .f32) (A : FVec Ideal ⟨2, ![3840, 512]⟩ .f32) (B : FVec Ideal ⟨2, ![512, 3840]⟩ .f32)
  (s1 : FVec Ideal ⟨2, ![3840, 256]⟩ .f32) (s2 : FVec Ideal ⟨2, ![256, 4096]⟩ .f32) (wn : FVec Ideal ⟨1, ![3840]⟩ .f32)
  (ci : IVec ⟨1, ![3840]⟩ 32) (cc : IVec ⟨1, ![256]⟩ 32) (ri : IVec ⟨1, ![3840]⟩ 32) (rc : IVec ⟨1, ![256]⟩ 32)

/-! ### The first block, entry by entry -/

private theorem W1spec_lo_hit (hc : IndexSets ci cc) (r : Fin 512) (hq : r.val < 1024) (k : Fin 3840) :
    W1spec B s2 wn ci cc (posOf (ci (ix1 k))) ⟨r.val, hq⟩ = wn (ix1 k) * B (ix2 r k) := by
  have h : ∃ k' : Fin 3840, posOf (ci (ix1 k')) = posOf (ci (ix1 k)) := ⟨k, rfl⟩
  have e : Classical.choose h = k := table_inj hc.idx_lt hc.idx_inj (Classical.choose_spec h)
  unfold W1spec
  rw [dif_pos r.isLt, dif_pos h, e]

private theorem W1spec_lo_miss (r : Fin 512) (hq : r.val < 1024) (n : Fin 4096) (h : ¬ ∃ k : Fin 3840, posOf (ci (ix1 k)) = n) :
    W1spec B s2 wn ci cc n ⟨r.val, hq⟩ = 0 := by
  unfold W1spec
  rw [dif_pos r.isLt, dif_neg h]

private theorem W1spec_mid (j : Fin 256) (hq : 512 + j.val < 1024) (n : Fin 4096) :
    W1spec B s2 wn ci cc n ⟨512 + j.val, hq⟩ = if posOf (cc (ix1 j)) = n then 1 else 0 := by
  unfold W1spec
  rw [dif_neg (show ¬ 512 + j.val < 512 by omega), dif_pos (show 512 + j.val < 768 by have := j.isLt; omega), sub512]

private theorem W1spec_hi (j : Fin 256) (hq : 768 + j.val < 1024) (n : Fin 4096) :
    W1spec B s2 wn ci cc n ⟨768 + j.val, hq⟩ = s2 (ix2 j n) := by
  unfold W1spec
  rw [dif_neg (show ¬ 768 + j.val < 512 by omega), dif_neg (show ¬ 768 + j.val < 768 by omega), sub768]

/-! ### The second block, entry by entry -/

private theorem W2spec_lo_hit (r : Fin 512) (hq : r.val < 1024) (c : Fin 4096) (h : ∃ o : Fin 3840, posOf (ri (ix1 o)) = c) :
    W2spec A s1 ri rc ⟨r.val, hq⟩ c = A (ix2 (Classical.choose h) r) := by
  unfold W2spec
  rw [dif_pos r.isLt, dif_pos h]

private theorem W2spec_lo_miss (r : Fin 512) (hq : r.val < 1024) (c : Fin 4096) (h : ¬ ∃ o : Fin 3840, posOf (ri (ix1 o)) = c) :
    W2spec A s1 ri rc ⟨r.val, hq⟩ c = 0 := by
  unfold W2spec
  rw [dif_pos r.isLt, dif_neg h]

private theorem W2spec_mid_hit (j : Fin 256) (hq : 512 + j.val < 1024) (c : Fin 4096) (h : ∃ o : Fin 3840, posOf (ri (ix1 o)) = c) :
    W2spec A s1 ri rc ⟨512 + j.val, hq⟩ c = s1 (ix2 (Classical.choose h) j) := by
  unfold W2spec
  rw [dif_neg (show ¬ 512 + j.val < 512 by omega), dif_pos (show 512 + j.val < 768 by have := j.isLt; omega), dif_pos h, sub512]

private theorem W2spec_mid_miss (j : Fin 256) (hq : 512 + j.val < 1024) (c : Fin 4096) (h : ¬ ∃ o : Fin 3840, posOf (ri (ix1 o)) = c) :
    W2spec A s1 ri rc ⟨512 + j.val, hq⟩ c = 0 := by
  unfold W2spec
  rw [dif_neg (show ¬ 512 + j.val < 512 by omega), dif_pos (show 512 + j.val < 768 by have := j.isLt; omega), dif_neg h]

private theorem W2spec_hi (j : Fin 256) (hq : 768 + j.val < 1024) (c : Fin 4096) :
    W2spec A s1 ri rc ⟨768 + j.val, hq⟩ c = if posOf (rc (ix1 j)) = c then 1 else 0 := by
  unfold W2spec
  rw [dif_neg (show ¬ 768 + j.val < 512 by omega), dif_neg (show ¬ 768 + j.val < 768 by omega), sub768]

/-! ### Contracting x with the first block -/

private theorem inner_lo (hc : IndexSets ci cc) (b : Fin 4) (s : Fin 2048) (r : Fin 512) (hq : r.val < 1024) :
    ∑ n : Fin 4096, x (ix3 b s n) * W1spec B s2 wn ci cc n ⟨r.val, hq⟩ = hidden x B wn ci b s r := by
  refine (sum_eq_sum_table (fun k : Fin 3840 => posOf (ci (ix1 k))) (fun k k' e => table_inj hc.idx_lt hc.idx_inj e)
    (fun n => x (ix3 b s n) * W1spec B s2 wn ci cc n ⟨r.val, hq⟩) ?_).trans ?_
  · intro n hn
    show x (ix3 b s n) * W1spec B s2 wn ci cc n ⟨r.val, hq⟩ = 0
    rw [W1spec_lo_miss B s2 wn ci cc r hq n (fun ⟨k, hk⟩ => hn k hk), mul_zero]
  · unfold hidden
    refine Finset.sum_congr rfl fun k _ => ?_
    show x (ix3 b s (posOf (ci (ix1 k)))) * W1spec B s2 wn ci cc (posOf (ci (ix1 k))) ⟨r.val, hq⟩ = _
    rw [W1spec_lo_hit B s2 wn ci cc hc r hq k, mul_assoc]

private theorem inner_mid (b : Fin 4) (s : Fin 2048) (j : Fin 256) (hq : 512 + j.val < 1024) :
    ∑ n : Fin 4096, x (ix3 b s n) * W1spec B s2 wn ci cc n ⟨512 + j.val, hq⟩ = x (ix3 b s (posOf (cc (ix1 j)))) := by
  rw [Finset.sum_eq_single (posOf (cc (ix1 j)))]
  · rw [W1spec_mid, if_pos rfl, mul_one]
  · intro n _ hn
    rw [W1spec_mid, if_neg (Ne.symm hn), mul_zero]
  · intro h
    exact absurd (Finset.mem_univ _) h

private theorem inner_hi (b : Fin 4) (s : Fin 2048) (j : Fin 256) (hq : 768 + j.val < 1024) :
    ∑ n : Fin 4096, x (ix3 b s n) * W1spec B s2 wn ci cc n ⟨768 + j.val, hq⟩ = ycomp x s2 b s j := by
  unfold ycomp
  exact Finset.sum_congr rfl fun n _ => by rw [W1spec_hi]

/-! ### The three column groups at one output position -/

private theorem group_lo_hit (hc : IndexSets ci cc) (b : Fin 4) (s : Fin 2048) (c : Fin 4096)
    (h : ∃ o : Fin 3840, posOf (ri (ix1 o)) = c) :
    ∑ r : Fin 512, (∑ n : Fin 4096, x (ix3 b s n) * W1spec B s2 wn ci cc n ⟨r.val, by have := r.isLt; omega⟩)
        * W2spec A s1 ri rc ⟨r.val, by have := r.isLt; omega⟩ c
      = ∑ r : Fin 512, hidden x B wn ci b s r * A (ix2 (Classical.choose h) r) :=
  Finset.sum_congr rfl fun r _ => by rw [inner_lo x B s2 wn ci cc hc b s r, W2spec_lo_hit A s1 ri rc r _ c h]

private theorem group_lo_miss (b : Fin 4) (s : Fin 2048) (c : Fin 4096) (h : ¬ ∃ o : Fin 3840, posOf (ri (ix1 o)) = c) :
    ∑ r : Fin 512, (∑ n : Fin 4096, x (ix3 b s n) * W1spec B s2 wn ci cc n ⟨r.val, by have := r.isLt; omega⟩)
        * W2spec A s1 ri rc ⟨r.val, by have := r.isLt; omega⟩ c = 0 :=
  Finset.sum_eq_zero fun r _ => by rw [W2spec_lo_miss A s1 ri rc r _ c h, mul_zero]

private theorem group_mid_hit (b : Fin 4) (s : Fin 2048) (c : Fin 4096) (h : ∃ o : Fin 3840, posOf (ri (ix1 o)) = c) :
    ∑ j : Fin 256, (∑ n : Fin 4096, x (ix3 b s n) * W1spec B s2 wn ci cc n ⟨512 + j.val, by have := j.isLt; omega⟩)
        * W2spec A s1 ri rc ⟨512 + j.val, by have := j.isLt; omega⟩ c
      = ∑ j : Fin 256, x (ix3 b s (posOf (cc (ix1 j)))) * s1 (ix2 (Classical.choose h) j) :=
  Finset.sum_congr rfl fun j _ => by rw [inner_mid x B s2 wn ci cc b s j, W2spec_mid_hit A s1 ri rc j _ c h]

private theorem group_mid_miss (b : Fin 4) (s : Fin 2048) (c : Fin 4096) (h : ¬ ∃ o : Fin 3840, posOf (ri (ix1 o)) = c) :
    ∑ j : Fin 256, (∑ n : Fin 4096, x (ix3 b s n) * W1spec B s2 wn ci cc n ⟨512 + j.val, by have := j.isLt; omega⟩)
        * W2spec A s1 ri rc ⟨512 + j.val, by have := j.isLt; omega⟩ c = 0 :=
  Finset.sum_eq_zero fun j _ => by rw [W2spec_mid_miss A s1 ri rc j _ c h, mul_zero]

private theorem group_hi_hit (hr : IndexSets ri rc) (b : Fin 4) (s : Fin 2048) (c : Fin 4096)
    (h : ∃ j : Fin 256, posOf (rc (ix1 j)) = c) :
    ∑ j : Fin 256, (∑ n : Fin 4096, x (ix3 b s n) * W1spec B s2 wn ci cc n ⟨768 + j.val, by have := j.isLt; omega⟩)
        * W2spec A s1 ri rc ⟨768 + j.val, by have := j.isLt; omega⟩ c
      = ycomp x s2 b s (Classical.choose h) := by
  have h0 : posOf (rc (ix1 (Classical.choose h))) = c := Classical.choose_spec h
  rw [Finset.sum_eq_single (Classical.choose h)]
  · rw [inner_hi, W2spec_hi, if_pos h0, mul_one]
  · intro j _ hj
    rw [W2spec_hi, if_neg (fun e => hj (table_inj hr.comp_lt hr.comp_inj (e.trans h0.symm))), mul_zero]
  · intro h'
    exact absurd (Finset.mem_univ _) h'

private theorem group_hi_miss (b : Fin 4) (s : Fin 2048) (c : Fin 4096) (h : ¬ ∃ j : Fin 256, posOf (rc (ix1 j)) = c) :
    ∑ j : Fin 256, (∑ n : Fin 4096, x (ix3 b s n) * W1spec B s2 wn ci cc n ⟨768 + j.val, by have := j.isLt; omega⟩)
        * W2spec A s1 ri rc ⟨768 + j.val, by have := j.isLt; omega⟩ c = 0 :=
  Finset.sum_eq_zero fun j _ => by rw [W2spec_hi, if_neg (fun e => h ⟨j, e⟩), mul_zero]

/-- The fused form over the two specified blocks is the layer's output. -/
private theorem fused_spec_eq_Y (hc : IndexSets ci cc) (hr : IndexSets ri rc) (b : Fin 4) (s : Fin 2048) (c : Fin 4096) :
    ∑ q : Fin 1024, (∑ n : Fin 4096, x (ix3 b s n) * W1spec B s2 wn ci cc n q) * W2spec A s1 ri rc q c
      = Y x A B s1 s2 wn ci cc ri rc b s c := by
  rw [sum_groups]
  by_cases hrc : ∃ j : Fin 256, posOf (rc (ix1 j)) = c
  · have hri := not_idx_of_comp hr hrc
    rw [group_lo_miss x A B s1 s2 wn ci cc ri rc b s c hri, group_mid_miss x A B s1 s2 wn ci cc ri rc b s c hri,
      group_hi_hit x A B s1 s2 wn ci cc ri rc hr b s c hrc, zero_add, zero_add]
    unfold Y
    rw [dif_pos hrc]
  · by_cases hri : ∃ o : Fin 3840, posOf (ri (ix1 o)) = c
    · rw [group_lo_hit x A B s1 s2 wn ci cc ri rc hc b s c hri, group_mid_hit x A B s1 s2 wn ci cc ri rc b s c hri,
        group_hi_miss x A B s1 s2 wn ci cc ri rc b s c hrc, add_zero]
      unfold Y
      rw [dif_neg hrc, dif_pos hri]
      unfold yrows
      rfl
    · rw [group_lo_miss x A B s1 s2 wn ci cc ri rc b s c hri, group_mid_miss x A B s1 s2 wn ci cc ri rc b s c hri,
        group_hi_miss x A B s1 s2 wn ci cc ri rc b s c hrc, add_zero, add_zero]
      unfold Y
      rw [dif_neg hrc, dif_neg hri]

end

theorem Kfun_eq_Y (x : FVec Ideal ⟨3, ![4, 2048, 4096]⟩ .f32) (A : FVec Ideal ⟨2, ![3840, 512]⟩ .f32) (B : FVec Ideal ⟨2, ![512, 3840]⟩ .f32)
    (s1 : FVec Ideal ⟨2, ![3840, 256]⟩ .f32) (s2 : FVec Ideal ⟨2, ![256, 4096]⟩ .f32) (wn : FVec Ideal ⟨1, ![3840]⟩ .f32)
    (ci : IVec ⟨1, ![3840]⟩ 32) (cc : IVec ⟨1, ![256]⟩ 32) (ri : IVec ⟨1, ![3840]⟩ 32) (rc : IVec ⟨1, ![256]⟩ 32)
    (hc : IndexSets ci cc) (hr : IndexSets ri rc)
    (W1 : FVec Ideal ⟨2, ![4096, 1024]⟩ .bf16) (W2 : FVec Ideal ⟨2, ![1024, 4096]⟩ .bf16)
    (h1 : ∀ (n : Fin 4096) (q : Fin 1024), W1 (ix2 n q) = W1spec B s2 wn ci cc n q)
    (h2 : ∀ (q : Fin 1024) (c : Fin 4096), W2 (ix2 q c) = W2spec A s1 ri rc q c)
    (b : Fin 4) (s : Fin 2048) (c : Fin 4096) :
    Kfun x W1 W2 b s c = Y x A B s1 s2 wn ci cc ri rc b s c := by
  refine Eq.trans ?_ (fused_spec_eq_Y x A B s1 s2 wn ci cc ri rc hc hr b s c)
  unfold Kfun
  refine Finset.sum_congr rfl fun q _ => ?_
  rw [h2 q c]
  exact congrArg (· * W2spec A s1 ri rc q c) (Finset.sum_congr rfl fun n _ => by rw [h1 n q])

end Cert.LowRank

end
-- ==== Proof.PreDecode.lean ====
/-
  The precondition, read: beside the finiteness of the float inputs it says that the two column tables, and the two row
  tables, are the index sets of a mask over [0, 4096) and of its complement — every word in [0, 4096), and every position
  named exactly once by the two tables together. From the count "exactly once": no word twice in a table, no word in both.

  The predicate is a conjunction of one-bit scalars. Three of its conjuncts speak of a pair of tables (idx, comp):
    all(0 ≤ idx ∧ idx < 4096), all(0 ≤ comp ∧ comp < 4096), and all(hits = 1) where, at a position q of [0, 4096),
    hits q = #{k | idx k = q} + #{j | comp j = q}, each count printed as a sum over the rows of a widened comparison of the
    table (laid down the columns of a rectangle) with the positions (laid along its rows).
  Each is read at one element; the three facts about a pair then give its index facts by counting.
-/
import proofs.«409909_j42846593745144_3_alg».proof.Pre_finite_inputs
import proofs.«409909_j42846593745144_3_alg».proof.Proof.Gen.Pre_finite_inputs
import proofs.«409909_j42846593745144_3_alg».proof.Proof.Spec
import Idealize.ShloMosaic.Lib.ReduceAll
import Idealize.ShloMosaic.Lib.StableHlo.Predicate

noncomputable section

namespace Cert.LowRank

open Idealize.ShloMosaic Idealize.ShloMosaic.ValueIdx

namespace PreDecode

open Idealize.ShloMosaic.StableHlo.Predicate

/-- The scalar shape has one index. -/
instance scalarIdxSubsingleton : Subsingleton (⟨0, ![]⟩ : Shape).Idx := ⟨fun _ _ => funext fun d => d.elim0⟩

/-- The two ways of writing the rank-1 index at a coordinate agree. -/
theorem ofFin_eq_ix1 {n : Nat} (k : Fin n) : Shape.Idx.ofFin k = ix1 k := by
  funext d; match d with | ⟨0, _⟩ => exact Fin.ext rfl

/-- A word in [0, 4096) as a signed integer is below 4096 as a natural number. -/
theorem toNat_lt_of_signed (w : BitVec 32) (h0 : IntOp.cmpi .sge w 0#32 = 1#1) (h1 : IntOp.cmpi .slt w 4096#32 = 1#1) :
    w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  rw [BitVec.toInt_eq_toNat_cond] at h0 h1
  have hw := w.isLt
  by_cases hc : 2 * w.toNat < 2 ^ 32
  · rw [if_pos hc] at h1; omega
  · rw [if_neg hc] at h0; omega

/-- The conjunction over every k of (0 ≤ v k ∧ v k < 4096), read: every word of v is below 4096. -/
theorem range_of_all {n : Nat} (v : IVec ⟨1, ![n]⟩ 32)
    (hb : (⟨0, ![]⟩ : Shape).BroadcastsInDim ⟨1, ![n]⟩ ![])
    (hr : (⟨1, ![n]⟩ : Shape).ReducesTo [0] ⟨0, ![]⟩) (h0 : 0 < (⟨0, ![]⟩ : Shape).numel)
    (e : Host.reduce IntOp.andi
          (andi (cmpi .sge v (broadcastInDim ⟨1, ![n]⟩ ![] hb (constantI ⟨0, ![]⟩ 32 0#32)))
                (cmpi .slt v (broadcastInDim ⟨1, ![n]⟩ ![] hb (constantI ⟨0, ![]⟩ 32 4096#32))))
          (constantI ⟨0, ![]⟩ 1 1#1) hr h0 ix0 = 1#1)
    (k : Fin n) : (v (ix1 k)).toNat < 4096 := by
  have hk := Host.reduce_andi_all _ _ hr h0 ix0 e (ix1 k)
  obtain ⟨ha, hb'⟩ := IntOp.andi_eq_one.1 hk
  exact toNat_lt_of_signed _ ha hb'

/-- The count of a table at each position of [0, N), as the precondition computes it: the table laid down the columns of
    an [n × N] rectangle, the positions laid along its rows, compared, widened, and summed over the rows. -/
def countOf {n N : Nat} (v : IVec ⟨1, ![n]⟩ 32)
    (h₁ : (⟨1, ![n]⟩ : Shape).BroadcastsInDim ⟨2, ![n, 1]⟩ ![0])
    (h₂ : (⟨2, ![n, 1]⟩ : Shape).BroadcastsInDim ⟨2, ![n, N]⟩ ![0, 1])
    (g₁ : (⟨1, ![N]⟩ : Shape).BroadcastsInDim ⟨2, ![1, N]⟩ ![1])
    (g₂ : (⟨2, ![1, N]⟩ : Shape).BroadcastsInDim ⟨2, ![n, N]⟩ ![0, 1])
    (hw : 1 < 32) (hr : (⟨2, ![n, N]⟩ : Shape).ReducesTo [0] ⟨1, ![N]⟩) (hu : 0 < (⟨0, ![]⟩ : Shape).numel) :
    IVec ⟨1, ![N]⟩ 32 :=
  Host.reduce IntOp.addi
    (extui 32 (cmpi .eq (broadcastInDim ⟨2, ![n, N]⟩ ![0, 1] h₂ (broadcastInDim ⟨2, ![n, 1]⟩ ![0] h₁ v))
      (broadcastInDim ⟨2, ![n, N]⟩ ![0, 1] g₂ (broadcastInDim ⟨2, ![1, N]⟩ ![1] g₁ (iotaInDim ⟨1, ![N]⟩ 32 0)))) hw)
    (constantI ⟨0, ![]⟩ 32 0#32) hr hu

/-- The count at position q is the number of entries of the table that are the word q. -/
theorem toNat_countOf {n N : Nat} (hn : n < 2 ^ 32) (v : IVec ⟨1, ![n]⟩ 32)
    (h₁ : (⟨1, ![n]⟩ : Shape).BroadcastsInDim ⟨2, ![n, 1]⟩ ![0])
    (h₂ : (⟨2, ![n, 1]⟩ : Shape).BroadcastsInDim ⟨2, ![n, N]⟩ ![0, 1])
    (g₁ : (⟨1, ![N]⟩ : Shape).BroadcastsInDim ⟨2, ![1, N]⟩ ![1])
    (g₂ : (⟨2, ![1, N]⟩ : Shape).BroadcastsInDim ⟨2, ![n, N]⟩ ![0, 1])
    (hw : 1 < 32) (hr : (⟨2, ![n, N]⟩ : Shape).ReducesTo [0] ⟨1, ![N]⟩) (hu : 0 < (⟨0, ![]⟩ : Shape).numel) (q : Fin N) :
    (countOf v h₁ h₂ g₁ g₂ hw hr hu (ix1 q)).toNat
      = (Finset.univ.filter (fun k : Fin n => v (ix1 k) = BitVec.ofNat 32 q.val)).card := by
  unfold countOf
  rw [toNat_reduce_count_rows hn]
  refine congrArg Finset.card (Finset.filter_congr fun p _ => ?_)
  show IntOp.cmpi .eq
      (broadcastInDim ⟨2, ![n, N]⟩ ![0, 1] h₂ (broadcastInDim ⟨2, ![n, 1]⟩ ![0] h₁ v) (ij p q))
      (broadcastInDim ⟨2, ![n, N]⟩ ![0, 1] g₂ (broadcastInDim ⟨2, ![1, N]⟩ ![1] g₁ (iotaInDim ⟨1, ![N]⟩ 32 0)) (ij p q)) = 1#1 ↔ _
  rw [bcast_rows, bcast_cols, iota_apply, cmpi_eq_iff, ofFin_eq_ix1]

/-- The conjunction over every position of (hits = 1), read: each position of [0, N) is named exactly once by the two
    tables together (the sum of the two counts does not wrap: n + m is below 2³²). -/
theorem count_of_all {n m N : Nat} (hn : n + m < 2 ^ 32) (idx : IVec ⟨1, ![n]⟩ 32) (comp : IVec ⟨1, ![m]⟩ 32)
    (h₁ : (⟨1, ![n]⟩ : Shape).BroadcastsInDim ⟨2, ![n, 1]⟩ ![0])
    (h₂ : (⟨2, ![n, 1]⟩ : Shape).BroadcastsInDim ⟨2, ![n, N]⟩ ![0, 1])
    (g₂ : (⟨2, ![1, N]⟩ : Shape).BroadcastsInDim ⟨2, ![n, N]⟩ ![0, 1])
    (hr : (⟨2, ![n, N]⟩ : Shape).ReducesTo [0] ⟨1, ![N]⟩)
    (h₁' : (⟨1, ![m]⟩ : Shape).BroadcastsInDim ⟨2, ![m, 1]⟩ ![0])
    (h₂' : (⟨2, ![m, 1]⟩ : Shape).BroadcastsInDim ⟨2, ![m, N]⟩ ![0, 1])
    (g₂' : (⟨2, ![1, N]⟩ : Shape).BroadcastsInDim ⟨2, ![m, N]⟩ ![0, 1])
    (hr' : (⟨2, ![m, N]⟩ : Shape).ReducesTo [0] ⟨1, ![N]⟩)
    (g₁ : (⟨1, ![N]⟩ : Shape).BroadcastsInDim ⟨2, ![1, N]⟩ ![1])
    (hw : 1 < 32) (hu : 0 < (⟨0, ![]⟩ : Shape).numel)
    (hb : (⟨0, ![]⟩ : Shape).BroadcastsInDim ⟨1, ![N]⟩ ![])
    (hall : (⟨1, ![N]⟩ : Shape).ReducesTo [0] ⟨0, ![]⟩)
    (e : Host.reduce IntOp.andi
          (cmpi .eq (addi (countOf idx h₁ h₂ g₁ g₂ hw hr hu) (countOf comp h₁' h₂' g₁ g₂' hw hr' hu))
            (broadcastInDim ⟨1, ![N]⟩ ![] hb (constantI ⟨0, ![]⟩ 32 1#32)))
          (constantI ⟨0, ![]⟩ 1 1#1) hall hu ix0 = 1#1)
    (q : Fin N) :
    (Finset.univ.filter (fun k : Fin n => idx (ix1 k) = BitVec.ofNat 32 q.val)).card
      + (Finset.univ.filter (fun j : Fin m => comp (ix1 j) = BitVec.ofNat 32 q.val)).card = 1 := by
  have hq := Host.reduce_andi_all _ _ hall hu ix0 e (ix1 q)
  have hq' : countOf idx h₁ h₂ g₁ g₂ hw hr hu (ix1 q) + countOf comp h₁' h₂' g₁ g₂' hw hr' hu (ix1 q) = 1#32 :=
    cmpi_eq_iff.1 hq
  have e1 := toNat_countOf (by omega) idx h₁ h₂ g₁ g₂ hw hr hu q
  have e2 := toNat_countOf (by omega) comp h₁' h₂' g₁ g₂' hw hr' hu q
  have c1 : (Finset.univ.filter (fun k : Fin n => idx (ix1 k) = BitVec.ofNat 32 q.val)).card ≤ n :=
    (Finset.card_le_univ _).trans (by rw [Fintype.card_fin])
  have c2 : (Finset.univ.filter (fun j : Fin m => comp (ix1 j) = BitVec.ofNat 32 q.val)).card ≤ m :=
    (Finset.card_le_univ _).trans (by rw [Fintype.card_fin])
  have hs := congrArg BitVec.toNat hq'
  rw [BitVec.toNat_add, e1, e2] at hs
  have h1 : (1#32 : BitVec 32).toNat = 1 := rfl
  rw [h1] at hs
  omega

/-- Range and "each position exactly once" give the index facts: a word twice in a table, or in both tables, would be
    a position counted twice. -/
theorem indexSets_of_count (idx : IVec ⟨1, ![3840]⟩ 32) (comp : IVec ⟨1, ![256]⟩ 32)
    (hi : ∀ k : Fin 3840, (idx (ix1 k)).toNat < 4096)
    (hc : ∀ j : Fin 256, (comp (ix1 j)).toNat < 4096)
    (hcount : ∀ q : Fin 4096,
      (Finset.univ.filter (fun k : Fin 3840 => idx (ix1 k) = BitVec.ofNat 32 q.val)).card
        + (Finset.univ.filter (fun j : Fin 256 => comp (ix1 j) = BitVec.ofNat 32 q.val)).card = 1) :
    IndexSets idx comp := by
  -- a word is the word of its own value
  have hword : ∀ w : BitVec 32, w = BitVec.ofNat 32 w.toNat := fun w =>
    BitVec.eq_of_toNat_eq (by rw [BitVec.toNat_ofNat]; exact (Nat.mod_eq_of_lt w.isLt).symm)
  -- the count, at the position a word below 4096 names
  have hat : ∀ (w : BitVec 32), w.toNat < 4096 →
      (Finset.univ.filter (fun a : Fin 3840 => idx (ix1 a) = BitVec.ofNat 32 w.toNat)).card
        + (Finset.univ.filter (fun b : Fin 256 => comp (ix1 b) = BitVec.ofNat 32 w.toNat)).card = 1 :=
    fun w hw => hcount ⟨w.toNat, hw⟩
  refine ⟨hi, hc, ?_, ?_, ?_⟩
  · intro k k' e
    by_contra hne
    have hq := hat _ (hi k)
    have hk : k ∈ Finset.univ.filter (fun a : Fin 3840 => idx (ix1 a) = BitVec.ofNat 32 (idx (ix1 k)).toNat) :=
      Finset.mem_filter.2 ⟨Finset.mem_univ _, hword _⟩
    have hk' : k' ∈ Finset.univ.filter (fun a : Fin 3840 => idx (ix1 a) = BitVec.ofNat 32 (idx (ix1 k)).toNat) :=
      Finset.mem_filter.2 ⟨Finset.mem_univ _, e.symm.trans (hword _)⟩
    have h2 := Finset.one_lt_card.2 ⟨k, hk, k', hk', hne⟩
    omega
  · intro j j' e
    by_contra hne
    have hq := hat _ (hc j)
    have hj : j ∈ Finset.univ.filter (fun b : Fin 256 => comp (ix1 b) = BitVec.ofNat 32 (comp (ix1 j)).toNat) :=
      Finset.mem_filter.2 ⟨Finset.mem_univ _, hword _⟩
    have hj' : j' ∈ Finset.univ.filter (fun b : Fin 256 => comp (ix1 b) = BitVec.ofNat 32 (comp (ix1 j)).toNat) :=
      Finset.mem_filter.2 ⟨Finset.mem_univ _, e.symm.trans (hword _)⟩
    have h2 := Finset.one_lt_card.2 ⟨j, hj, j', hj', hne⟩
    omega
  · intro k j e
    have hq := hat _ (hi k)
    have hk : k ∈ Finset.univ.filter (fun a : Fin 3840 => idx (ix1 a) = BitVec.ofNat 32 (idx (ix1 k)).toNat) :=
      Finset.mem_filter.2 ⟨Finset.mem_univ _, hword _⟩
    have hj : j ∈ Finset.univ.filter (fun b : Fin 256 => comp (ix1 b) = BitVec.ofNat 32 (idx (ix1 k)).toNat) :=
      Finset.mem_filter.2 ⟨Finset.mem_univ _, e.symm.trans (hword _)⟩
    have p1 := Finset.card_pos.2 ⟨k, hk⟩
    have p2 := Finset.card_pos.2 ⟨j, hj⟩
    omega

end PreDecode

open PreDecode Cert.Pre_finite_inputs.Facts in
theorem indexSets_of_pre [Cert.Pre_finite_inputs.Facts] {F : FTy → Type} [FloatOps F]
    (a0 : FVec F ⟨3, ![4, 2048, 4096]⟩ .f32) (a1 : FVec F ⟨2, ![3840, 512]⟩ .f32) (a2 : FVec F ⟨2, ![512, 3840]⟩ .f32)
    (a3 : FVec F ⟨2, ![3840, 256]⟩ .f32) (a4 : FVec F ⟨2, ![256, 4096]⟩ .f32) (a5 : FVec F ⟨1, ![3840]⟩ .f32)
    (a6 : IVec ⟨1, ![3840]⟩ 32) (a7 : IVec ⟨1, ![256]⟩ 32) (a8 : IVec ⟨1, ![3840]⟩ 32) (a9 : IVec ⟨1, ![256]⟩ 32)
    (h : Cert.Pre_finite_inputs.fn (F := F) a0 a1 a2 a3 a4 a5 a6 a7 a8 a9 = fun _ => 1#1) :
    IndexSets a6 a7 ∧ IndexSets a8 a9 := by
  -- the predicate at its one index, as the conjunction it is
  have h0 := congrFun h ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at h0
  dsimp only at h0
  -- (floats ∧ ((range idx ∧ range comp) ∧ count)) ∧ ((range idx' ∧ range comp') ∧ count')
  obtain ⟨hcols, hrows⟩ := IntOp.andi_eq_one.1 h0
  obtain ⟨-, hcols⟩ := IntOp.andi_eq_one.1 hcols
  obtain ⟨hcr, hcc⟩ := IntOp.andi_eq_one.1 hcols
  obtain ⟨hci, hcj⟩ := IntOp.andi_eq_one.1 hcr
  obtain ⟨hrr, hrc⟩ := IntOp.andi_eq_one.1 hrows
  obtain ⟨hri, hrj⟩ := IntOp.andi_eq_one.1 hrr
  clear h0 hcols hcr hrows hrr
  exact ⟨indexSets_of_count a6 a7
      (range_of_all a6 bcast_S_S3840 reducesTo_S3840_S_d0 h_S_ hci)
      (range_of_all a7 bcast_S_S256 reducesTo_S256_S_d0 h_S_ hcj)
      (count_of_all (by decide) a6 a7 bcast_S3840_S3840x1_0 bcast_S3840x1_S3840x4096_0_1 bcast_S1x4096_S3840x4096_0_1
        reducesTo_S3840x4096_S4096_d0 bcast_S256_S256x1_0 bcast_S256x1_S256x4096_0_1 bcast_S1x4096_S256x4096_0_1
        reducesTo_S256x4096_S4096_d0 bcast_S4096_S1x4096_1 natLt_1_32 h_S_ bcast_S_S4096 reducesTo_S4096_S_d0 hcc),
    indexSets_of_count a8 a9
      (range_of_all a8 bcast_S_S3840 reducesTo_S3840_S_d0 h_S_ hri)
      (range_of_all a9 bcast_S_S256 reducesTo_S256_S_d0 h_S_ hrj)
      (count_of_all (by decide) a8 a9 bcast_S3840_S3840x1_0 bcast_S3840x1_S3840x4096_0_1 bcast_S1x4096_S3840x4096_0_1
        reducesTo_S3840x4096_S4096_d0 bcast_S256_S256x1_0 bcast_S256x1_S256x4096_0_1 bcast_S1x4096_S256x4096_0_1
        reducesTo_S256x4096_S4096_d0 bcast_S4096_S1x4096_1 natLt_1_32 h_S_ bcast_S_S4096 reducesTo_S4096_S_d0 hrc)⟩

end Cert.LowRank

end
-- ==== Proof.lean ====
/-
  The certificate of the fused low-rank layer against its reference.

  Precondition: the float inputs are finite, and the column tables (ci, cc) and the row tables (ri, rc) are each the index
  sets of a mask over [0, 4096) and of its complement — every word in [0, 4096), every position named exactly once by the two
  tables together (the reference gathers x[..., col_mask], x[..., ~col_mask] and writes y[..., row_mask], y[..., ~row_mask]).

  The three frames: each kernel program is the host operations before its one region, the region on a grid of 32 points whose
  body loads three blocks, multiplies twice and stores one block, and a reshape after it; the reference is host operations only.
  Nothing was rewritten by the ideal pass, so `preserves` is `True`.

  The value: at (b, s, c) the kernel's result is the double contraction of row (b, s) of x with the two fused weight blocks the
  region finds (`run_value`); those blocks are the scattered, one-hot and transposed pieces (`V35_apply`, `V37_apply`); the
  double contraction is the layer's output Y (`Kfun_eq_Y`); and the reference's gathers, contractions and two scatters
  compute Y as well (`ref_eq_Y`). The index facts both sides use are read off the precondition (`indexSets_of_pre`).
-/
import proofs.«409909_j42846593745144_3_alg».proof.Defs
import proofs.«409909_j42846593745144_3_alg».proof.Proof.Gen.Kernel
import proofs.«409909_j42846593745144_3_alg».proof.Proof.Gen.KernelIdeal
import proofs.«409909_j42846593745144_3_alg».proof.Proof.Gen.ReferenceIdeal
import proofs.«409909_j42846593745144_3_alg».proof.Proof.Gen.Pre_finite_inputs
import proofs.«409909_j42846593745144_3_alg».proof.Proof.Gen.ReferenceIdeal.Run
import proofs.«409909_j42846593745144_3_alg».proof.Proof.Gen.ReferenceIdeal.Read
import proofs.«409909_j42846593745144_3_alg».proof.Proof.KernelFrame
import proofs.«409909_j42846593745144_3_alg».proof.Proof.KernelValue
import proofs.«409909_j42846593745144_3_alg».proof.Proof.HostPrefix
import proofs.«409909_j42846593745144_3_alg».proof.Proof.HostPrefixW2
import proofs.«409909_j42846593745144_3_alg».proof.Proof.RefValue
import proofs.«409909_j42846593745144_3_alg».proof.Proof.Algebra
import proofs.«409909_j42846593745144_3_alg».proof.Proof.PreDecode

noncomputable section

namespace Cert.Proof

open Idealize.ShloMosaic Idealize.ShloMosaic.TcCoe Idealize.SL.Sem Idealize.ShloMosaic.ValueIdx Cert.LowRank

theorem frame_k : Cert.frame_Kernel := fun m ρ _ => Cert.Kernel.Hand.frame m ρ

theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's output Y of the (agreeing) arguments. -/
theorem algebraic : Cert.algebraic_KernelIdeal_ReferenceIdeal := by
  intro m ρ m' ρ' hpre hagree
  have hI : ∀ c : Dev Cert.KernelIdeal.nD,
      IndexSets (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
        ∧ IndexSets (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) :=
    fun c => indexSets_of_pre _ _ _ _ _ _ _ _ _ _ (hpre c)
  refine ⟨fun c => (fun i : Cert.KernelIdeal.S4x2048x4096.Idx =>
      Y (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) (i 0) (i 1) (i 2)), ?_, ?_⟩
  · refine (θ_run Cert.KernelIdeal.defs _ _).mono (fun r h c => ⟨(h c).1.trans ?_, (h c).2⟩) (Cert.KernelIdeal.Hand.run_value m ρ)
    funext i
    exact Kfun_eq_Y _ _ _ _ _ _ _ _ _ _ (hI c).1 (hI c).2 _ _
      (Cert.KernelIdeal.Hand.V35_apply m c (hI c).1) (Cert.KernelIdeal.Hand.V37_apply m c (hI c).2) (i 0) (i 1) (i 2)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v36_eq, e0, e1, e2, e3, e4, e5, e6, e7, e8, e9]
    funext i
    exact (congrArg _ (eq_ix3 i)).trans
      (Cert.ReferenceIdeal.RefValue.ref_eq_Y _ _ _ _ _ _ _ _ _ _ (hI c).1 (hI c).2 (i 0) (i 1) (i 2))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
